-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S600000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : IVec S600000 32) (main_arg11 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S600000x128 : Shape := ⟨2, ![600000, 128]⟩
abbrev S128x128 : Shape := ⟨2, ![128, 128]⟩
abbrev S128 : Shape := ⟨1, ![128]⟩
abbrev S600000 : Shape := ⟨1, ![600000]⟩
abbrev S_ : Shape := ⟨0, ![]⟩
abbrev S600000x1 : Shape := ⟨2, ![600000, 1]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩

abbrev nBuf : Space → Nat
  | .hbm => 92
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S600000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S600000x128, .f32⟩
  | .hbm, ⟨32, _⟩ => ⟨S_, .f32⟩
  | .hbm, ⟨33, _⟩ => ⟨S100000x128, .f32⟩
  | .hbm, ⟨34, _⟩ => ⟨S600000x1, .i32⟩
  | .hbm, ⟨35, _⟩ => ⟨S100000x128, .f32⟩
  | .hbm, ⟨36, _⟩ => ⟨S_, .f32⟩
  | .hbm, ⟨37, _⟩ => ⟨S600000, .f32⟩
  | .hbm, ⟨38, _⟩ => ⟨S_, .f32⟩
  | .hbm, ⟨39, _⟩ => ⟨S100000, .f32⟩
  | .hbm, ⟨40, _⟩ => ⟨S600000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S600000x1, .i32⟩
  | .hbm, ⟨51, _⟩ => ⟨S100000x128, .f32⟩
  | .hbm, ⟨52, _⟩ => ⟨S_, .f32⟩
  | .hbm, ⟨53, _⟩ => ⟨S600000, .f32⟩
  | .hbm, ⟨54, _⟩ => ⟨S_, .f32⟩
  | .hbm, ⟨55, _⟩ => ⟨S100000, .f32⟩
  | .hbm, ⟨56, _⟩ => ⟨S600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S128x128, .f32⟩
  | .hbm, ⟨65, _⟩ => ⟨S128x128, .f32⟩
  | .hbm, ⟨66, _⟩ => ⟨S128x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S100000x128, .f32⟩
  | .hbm, ⟨71, _⟩ => ⟨S1x128, .f32⟩
  | .hbm, ⟨72, _⟩ => ⟨S1x128, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46_0 : Ref sig .tc := ⟨.hbm, 70, rfl⟩
abbrev main_v46_1 : Ref sig .tc := ⟨.hbm, 71, rfl⟩
abbrev main_v46_2 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  reduces_S2000x128_S128 : S2000x128.Reduces [0] S128
  shapeCasts_S1x128_S128 : S1x128.ShapeCasts S128
  bcast_S_S128 : S_.BroadcastsInDim S128 (![] : Fin 0 → Fin S128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v46_1) S1x128.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v46_2) S1x128.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v46_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S128x128 : Shape := ⟨2, ![128, 128]⟩
abbrev S128 : Shape := ⟨1, ![128]⟩
abbrev S600000 : Shape := ⟨1, ![600000]⟩
abbrev S_ : Shape := ⟨0, ![]⟩
abbrev S600000x1 : Shape := ⟨2, ![600000, 1]⟩
abbrev S100000 : Shape := ⟨1, ![100000]⟩
abbrev S100000x1 : Shape := ⟨2, ![100000, 1]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S600000x128, .f32⟩
  | .hbm, ⟨22, _⟩ => ⟨S_, .f32⟩
  | .hbm, ⟨23, _⟩ => ⟨S100000x128, .f32⟩
  | .hbm, ⟨24, _⟩ => ⟨S600000x1, .i32⟩
  | .hbm, ⟨25, _⟩ => ⟨S100000x128, .f32⟩
  | .hbm, ⟨26, _⟩ => ⟨S_, .f32⟩
  | .hbm, ⟨27, _⟩ => ⟨S600000, .f32⟩
  | .hbm, ⟨28, _⟩ => ⟨S_, .f32⟩
  | .hbm, ⟨29, _⟩ => ⟨S100000, .f32⟩
  | .hbm, ⟨30, _⟩ => ⟨S600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S600000x128, .f32⟩
  | .hbm, ⟨48, _⟩ => ⟨S_, .f32⟩
  | .hbm, ⟨49, _⟩ => ⟨S100000x128, .f32⟩
  | .hbm, ⟨50, _⟩ => ⟨S600000x1, .i32⟩
  | .hbm, ⟨51, _⟩ => ⟨S100000x128, .f32⟩
  | .hbm, ⟨52, _⟩ => ⟨S_, .f32⟩
  | .hbm, ⟨53, _⟩ => ⟨S600000, .f32⟩
  | .hbm, ⟨54, _⟩ => ⟨S_, .f32⟩
  | .hbm, ⟨55, _⟩ => ⟨S100000, .f32⟩
  | .hbm, ⟨56, _⟩ => ⟨S600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S128x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S128x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BitsRun.Norm.lean ====
/-
  The normalising region (the second pallas_call), at any float instance, at the contents `V` its core holds when the
  region is entered: what each window's block is at a grid point, what the body leaves in the output tile, the
  pipeline's proof data, and the body's obligation at every point.
-/
import proofs.«114364_j944892805204_1_alg».proof.Proof.Gen.Kernel.Launch
import proofs.«114364_j944892805204_1_alg».proof.Proof.Gen.Kernel.Skeleton
import proofs.«114364_j944892805204_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output tile at point `t`: `(x - mean) · rstd · γ + β` on the 2000 rows of the point, the four row vectors
    broadcast down the rows. -/
def normTile (c : Dev nD) (t : Fin cfg1.N) : FVec F S2000x128 .f32 :=
  k1_pay1 (iblk1 V c 0 t) (iblk1 V c 1 t) (iblk1 V c 2 t) (iblk1 V c 3 t) (iblk1 V c 4 t)

/-! ## The pipeline's proof data -/

/-- After the body at point `t` each input's staging buffer holds its block and the output's holds `normTile`; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => normTile V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = normTile V c t := by dsimp only [dat1]

/-! ## Each input's staging buffer holds its block -/

/-- Input window 0 (the tile, fetched at every point): its current staging buffer holds its block. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [show (dat1 V c).after 0 t = iblk1 V c 0 t by dsimp only [dat1]]; unfold Dat.blockOf iblk1; rw [A_eq1]; try rfl) t d).trans
    (by unfold Dat.fetched Dat.blockOf iblk1; rw [A_eq1]; try rfl)

/-- Input windows 1 to 4 (the row vectors, constant block index, fetched at the first point only): the body leaves
    the row in place and the index never moves, so the buffer holds the block at every point. -/
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [show (dat1 V c).after 1 t = iblk1 V c 1 t by dsimp only [dat1]]; unfold Dat.blockOf iblk1; rw [A_eq1]; try rfl) t d).trans
    (by unfold Dat.fetched Dat.blockOf iblk1; rw [A_eq1]; try rfl)

private theorem before1_2 (c : Dev nD) (t : Fin cfg1.N) (d) : (dat1 V c).before 2 t d = iblk1 V c 2 t :=
  ((dat1 V c).before_in_eq_fetched 2 rfl (fun _ => rfl) (fun _ _ _ => rfl)
    (fun t => by rw [show (dat1 V c).after 2 t = iblk1 V c 2 t by dsimp only [dat1]]; unfold Dat.blockOf iblk1; rw [A_eq1]; try rfl) t d).trans
    (by unfold Dat.fetched Dat.blockOf iblk1; rw [A_eq1]; try rfl)

private theorem before1_3 (c : Dev nD) (t : Fin cfg1.N) (d) : (dat1 V c).before 3 t d = iblk1 V c 3 t :=
  ((dat1 V c).before_in_eq_fetched 3 rfl (fun _ => rfl) (fun _ _ _ => rfl)
    (fun t => by rw [show (dat1 V c).after 3 t = iblk1 V c 3 t by dsimp only [dat1]]; unfold Dat.blockOf iblk1; rw [A_eq1]; try rfl) t d).trans
    (by unfold Dat.fetched Dat.blockOf iblk1; rw [A_eq1]; try rfl)

private theorem before1_4 (c : Dev nD) (t : Fin cfg1.N) (d) : (dat1 V c).before 4 t d = iblk1 V c 4 t :=
  ((dat1 V c).before_in_eq_fetched 4 rfl (fun _ => rfl) (fun _ _ _ => rfl)
    (fun t => by rw [show (dat1 V c).after 4 t = iblk1 V c 4 t by dsimp only [dat1]]; unfold Dat.blockOf iblk1; rw [A_eq1]; try rfl) t d).trans
    (by unfold Dat.fetched Dat.blockOf iblk1; rw [A_eq1]; try rfl)

/-! ## The body's accesses: every load and the store go through the whole buffer -/

/-- The whole 2000x128 tile as a rectangle at zero offsets. -/
private abbrev rTile1 : Rect S2000x128 := Rect.unit (s := S2000x128) ![0, 0] S2000x128.size inb_S2000x128_S2000x128_0_0
/-- The whole 1x128 row as a rectangle at zero offsets. -/
private abbrev rRow1 : Rect S1x128 := Rect.unit (s := S1x128) ![0, 0] S1x128.size inb_S1x128_S1x128_0_0

/-- The rectangles' origin is zero. -/
private theorem origin_zero1 : (![0, 0] : Fin 2 → Nat) = fun _ => 0 := funext fun a => by fin_cases a <;> rfl

/-- The one store covers the output tile. -/
private theorem cover_tile1 (p0 : Vec F S2000x128 .f32) (y : S2000x128.Idx) :
    ∃ pc ∈ ([⟨rTile1, p0⟩] : List (View.Piece (Elt F) S2000x128 .f32)), y ∈ pc.1.set :=
  ⟨_, List.mem_singleton_self _, View.mem_set_unit_zero origin_zero1 inb_S2000x128_S2000x128_0_0 y⟩

/-- What the one whole-tile store of the payload of the whole-buffer loads leaves IS the payload of the buffers'
    contents: a load through the whole rectangle reads the contents, and one covering store leaves its payload. -/
private theorem stored_eq1 (x0 : Vec F S2000x128 .f32) (x1 x2 x3 x4 : Vec F S1x128 .f32) :
    View.canon [(⟨rTile1, k1_pay1 (View.ld x0 rTile1) (View.ld x1 rRow1) (View.ld x2 rRow1) (View.ld x3 rRow1) (View.ld x4 rRow1)⟩ :
        View.Piece (Elt F) S2000x128 .f32)] = k1_pay1 x0 x1 x2 x3 x4 := by
  rw [View.canon_unit_zero origin_zero1]
  simp only [View.ld_unit_zero (S := S2000x128) origin_zero1, View.ld_unit_zero (S := S1x128) origin_zero1]

/-! ## The body's triple -/

set_option maxHeartbeats 1000000 in
/-- The kernel body on whole staging memrefs, the five inputs' at contents `x0 … x4` and the output's at anything, runs
    to the continuation holding the inputs' as they were and the output's at the payload of the inputs' contents. -/
private theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E (cc1__norm_kernel i arg1 harg1 arg2 harg2 arg3 harg3 arg4 harg4 arg5 harg5 arg6 harg6) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover_tile1 _)).trans (stored_eq1 _ _ _ _ _)

/-! ## The body obligation, at a generic point -/

/-- What the body is called with at point `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

private theorem after1_0 (c : Dev nD) (t : Fin cfg1.N) : (dat1 V c).after 0 t = iblk1 V c 0 t := by dsimp only [dat1]
private theorem after1_1 (c : Dev nD) (t : Fin cfg1.N) : (dat1 V c).after 1 t = iblk1 V c 1 t := by dsimp only [dat1]
private theorem after1_2 (c : Dev nD) (t : Fin cfg1.N) : (dat1 V c).after 2 t = iblk1 V c 2 t := by dsimp only [dat1]
private theorem after1_3 (c : Dev nD) (t : Fin cfg1.N) : (dat1 V c).after 3 t = iblk1 V c 3 t := by dsimp only [dat1]
private theorem after1_4 (c : Dev nD) (t : Fin cfg1.N) : (dat1 V c).after 4 t = iblk1 V c 4 t := by dsimp only [dat1]

/-- The body at any point: the inputs' memrefs hold their blocks, so the body's triple applies; the invariant and the
    core's `owes` pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold normTile
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.Proj.lean ====
/-
  The projecting region (the first pallas_call), at any float instance, at the contents `V` its core holds when the
  region is entered. At grid point `t` the body forms the tile of `h` for the point's 2000 rows from three products
  and their biases, stores it, and adds the tile's column sums and the column sums of its squares to two running
  row vectors it keeps in scratch from point to point (zeroed at the first point), copying both to their outputs.
-/
import proofs.«114364_j944892805204_1_alg».proof.Proof.Gen.Kernel.Launch
import proofs.«114364_j944892805204_1_alg».proof.Proof.Gen.Kernel.Skeleton
import proofs.«114364_j944892805204_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three affine projections of the point's rows. -/
def projO (c : Dev nD) (t : Fin cfg0.N) : FVec F S2000x128 .f32 := k0_pay6 (iblk0 V c 0 t) (iblk0 V c 3 t) (iblk0 V c 4 t)
def projI (c : Dev nD) (t : Fin cfg0.N) : FVec F S2000x128 .f32 := k0_pay7 (iblk0 V c 1 t) (iblk0 V c 5 t) (iblk0 V c 6 t)
def projS (c : Dev nD) (t : Fin cfg0.N) : FVec F S2000x128 .f32 := k0_pay8 (iblk0 V c 2 t) (iblk0 V c 7 t) (iblk0 V c 8 t)

/-- The tile of `h` at point `t`: the three projections added and scaled by a third. -/
def hTile (c : Dev nD) (t : Fin cfg0.N) : FVec F S2000x128 .f32 := k0_pay1 (projO V c t) (projI V c t) (projS V c t)

/-- The two running row vectors after point `n`: the column sums of `h` and of its squares over the points so far,
    from the zero rows stored at the first point. -/
def sums (c : Dev nD) : (n : ℕ) → n < cfg0.N → FVec F S1x128 .f32 × FVec F S1x128 .f32
  | 0, h => (k0_pay2 (projO V c ⟨0, h⟩) (projI V c ⟨0, h⟩) (projS V c ⟨0, h⟩) (k0_pay4 (F := F)),
             k0_pay3 (projO V c ⟨0, h⟩) (projI V c ⟨0, h⟩) (projS V c ⟨0, h⟩) (k0_pay5 (F := F)))
  | n + 1, h => (k0_pay2 (projO V c ⟨n + 1, h⟩) (projI V c ⟨n + 1, h⟩) (projS V c ⟨n + 1, h⟩) (sums c n (Nat.lt_of_succ_lt h)).1,
                 k0_pay3 (projO V c ⟨n + 1, h⟩) (projI V c ⟨n + 1, h⟩) (projS V c ⟨n + 1, h⟩) (sums c n (Nat.lt_of_succ_lt h)).2)

/-! ## The region's invariant -/

/-- Before the first point the scoped rest at any contents and the generator register at any state; before point
    `n + 1` the two scratch rows at `sums n`, the other scoped buffers that are no staging buffer of this region at any
    contents, and the generator register. -/
def PhiAcc (c : Dev nD) : (n : ℕ) → n ≤ cfg0.N → sProp 𝕄
  | 0, _ => Pipeline.ΦA spec0 c
  | n + 1, h => iprop(owns (c : Thread nD τ) (Memref.whole cc0_scratch0) fullShare ((sums V c n h).1)
      ∗ owns (c : Thread nD τ) (Memref.whole cc0_scratch1) fullShare ((sums V c n h).2)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ r, prngReg c r))

/-! ## The pipeline's proof data -/

/-- After the body at point `t`: each input's staging buffer at its block, the tile output's at `hTile`, the two
    row outputs' at the running rows; the invariant `PhiAcc`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => hTile V c t
    | ⟨10, _⟩ => (sums V c t.val t.isLt).1
    | ⟨11, _⟩ => (sums V c t.val t.isLt).2
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = hTile V c t := by dsimp only [dat0]
theorem after0_10 (c : Dev nD) (t : Fin cfg0.N) : (dat0 V c).after 10 t = (sums V c t.val t.isLt).1 := by dsimp only [dat0]
theorem after0_11 (c : Dev nD) (t : Fin cfg0.N) : (dat0 V c).after 11 t = (sums V c t.val t.isLt).2 := by dsimp only [dat0]

/-! ## What the input windows hold -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-! ## Reads after whole-buffer stores -/

theorem hz0 : (![0, 0] : Fin 2 → Nat) = fun _ => 0 := funext fun a => by fin_cases a <;> rfl

/-- A buffer whose LAST store went through the whole-shape rectangle at zero offsets reads as that store's payload,
    whatever was stored before and whatever it held. -/
theorem read_writes_cons_unit0 {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h]

/-- A load through that rectangle after such a store reads the store's payload. -/
theorem readCov_cons_unit0 {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h, View.ld_unit_zero h]

/-! ## The first-point condition -/

/-- The body's reset condition, a closed function of the grid coordinate. -/
abbrev projCond0 (i : grid0.Coords) : Prop :=
  (Scalar.cmpi .ne (Scalar.extui (Scalar.cmpi .eq (BitVec.ofNat 32 (i 0).val) 0#32)) 0#32) = 1#1

/-- It holds at the first point only: decided over the grid. -/
theorem hprojCond0 : ∀ t : Fin cfg0.N, projCond0 (grid0.coords t) ↔ t.val = 0 :=
  (by decide +kernel : ∀ t : Fin grid0.N, projCond0 (grid0.coords t) ↔ t.val = 0)

/-! ## The body's triple -/

set_option maxHeartbeats 4000000 in
/-- The body at the first point, on whole memrefs: the inputs at `x·`, `w·`, `b·`, the outputs and both scratch rows at anything. It zeroes the scratch rows, stores the tile, adds the tile's column sums (and those of its squares) to the zero rows, and copies both rows to their outputs. -/
theorem sound_kernel0_first (c : Dev nD) (E : Set ℕ) (i : grid0.Coords) (hc : projCond0 i)
    (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole)
    (x0 x1 x2 : Vec F S2000x128 .f32) (w3 : Vec F S128x128 .f32) (b4 : Vec F S1x128 .f32) (w5 : Vec F S128x128 .f32) (b6 : Vec F S1x128 .f32)
    (w7 : Vec F S128x128 .f32) (b8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w3 ∗ owns (c : Thread nD τ) arg5 fullShare b4
        ∗ owns (c : Thread nD τ) arg6 fullShare w5 ∗ owns (c : Thread nD τ) arg7 fullShare b6
        ∗ owns (c : Thread nD τ) arg8 fullShare w7 ∗ owns (c : Thread nD τ) arg9 fullShare b8
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w3 ∗ owns (c : Thread nD τ) arg5 fullShare b4
            ∗ owns (c : Thread nD τ) arg6 fullShare w5 ∗ owns (c : Thread nD τ) arg7 fullShare b6
            ∗ owns (c : Thread nD τ) arg8 fullShare w7 ∗ owns (c : Thread nD τ) arg9 fullShare b8
            ∗ owns (c : Thread nD τ) arg10 fullShare (k0_pay1 (k0_pay6 x0 w3 b4) (k0_pay7 x1 w5 b6) (k0_pay8 x2 w7 b8))
            ∗ owns (c : Thread nD τ) arg11 fullShare (k0_pay2 (k0_pay6 x0 w3 b4) (k0_pay7 x1 w5 b6) (k0_pay8 x2 w7 b8) (k0_pay4 (F := F)))
            ∗ owns (c : Thread nD τ) arg12 fullShare (k0_pay3 (k0_pay6 x0 w3 b4) (k0_pay7 x1 w5 b6) (k0_pay8 x2 w7 b8) (k0_pay5 (F := F)))
            ∗ owns (c : Thread nD τ) arg13 fullShare (k0_pay2 (k0_pay6 x0 w3 b4) (k0_pay7 x1 w5 b6) (k0_pay8 x2 w7 b8) (k0_pay4 (F := F)))
            ∗ owns (c : Thread nD τ) arg14 fullShare (k0_pay3 (k0_pay6 x0 w3 b4) (k0_pay7 x1 w5 b6) (k0_pay8 x2 w7 b8) (k0_pay5 (F := F)))) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__proj_kernel_eq_skeleton]; unfold cc0__proj_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%d10, %f10, -, H10⟩, ⟨%d11, %f11, -, H11⟩, ⟨%d12, %f12, -, H12⟩, ⟨%d13, %f13, -, H13⟩, ⟨%d14, %f14, -, H14⟩, Hk⟩
  subst hf1 hf2 hf3 hf4 hf5 hf6 hf7 hf8 hf9
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [read_writes_cons_unit0 _ _ hz0]
    simp only [View.readAt_eq_ld, View.ld_unit_zero (S := S2000x128) hz0, View.ld_unit_zero (S := S128x128) hz0, View.ld_unit_zero (S := S1x128) hz0]
  isplitl [H11]
  · iexists _; isplitr
    swap; · iexact H11
    ipureintro
    sl_unfold_words
    rw [read_writes_cons_unit0 _ _ hz0]
    simp only [readCov_cons_unit0 (S := S1x128) _ hz0, View.readAt_eq_ld, View.ld_unit_zero (S := S2000x128) hz0, View.ld_unit_zero (S := S128x128) hz0, View.ld_unit_zero (S := S1x128) hz0]
  isplitl [H12]
  · iexists _; isplitr
    swap; · iexact H12
    ipureintro
    sl_unfold_words
    rw [read_writes_cons_unit0 _ _ hz0]
    simp only [readCov_cons_unit0 (S := S1x128) _ hz0, View.readAt_eq_ld, View.ld_unit_zero (S := S2000x128) hz0, View.ld_unit_zero (S := S128x128) hz0, View.ld_unit_zero (S := S1x128) hz0]
  isplitl [H13]
  · iexists _; isplitr
    swap; · iexact H13
    ipureintro
    sl_unfold_words
    rw [read_writes_cons_unit0 _ _ hz0]
    simp only [readCov_cons_unit0 (S := S1x128) _ hz0, View.readAt_eq_ld, View.ld_unit_zero (S := S2000x128) hz0, View.ld_unit_zero (S := S128x128) hz0, View.ld_unit_zero (S := S1x128) hz0]
  iexists _; isplitr
  swap; · iexact H14
  ipureintro
  sl_unfold_words
  rw [read_writes_cons_unit0 _ _ hz0]
  simp only [readCov_cons_unit0 (S := S1x128) _ hz0, View.readAt_eq_ld, View.ld_unit_zero (S := S2000x128) hz0, View.ld_unit_zero (S := S128x128) hz0, View.ld_unit_zero (S := S1x128) hz0]

set_option maxHeartbeats 4000000 in
/-- The body at a later point: the same, the scratch rows found at `s1`, `s2` (what the point before left) and added to. -/
theorem sound_kernel0_later (c : Dev nD) (E : Set ℕ) (i : grid0.Coords) (hc : ¬projCond0 i)
    (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole)
    (x0 x1 x2 : Vec F S2000x128 .f32) (w3 : Vec F S128x128 .f32) (b4 : Vec F S1x128 .f32) (w5 : Vec F S128x128 .f32) (b6 : Vec F S1x128 .f32)
    (w7 : Vec F S128x128 .f32) (b8 : Vec F S1x128 .f32) (s1 s2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w3 ∗ owns (c : Thread nD τ) arg5 fullShare b4
        ∗ owns (c : Thread nD τ) arg6 fullShare w5 ∗ owns (c : Thread nD τ) arg7 fullShare b6
        ∗ owns (c : Thread nD τ) arg8 fullShare w7 ∗ owns (c : Thread nD τ) arg9 fullShare b8
        ∗ (∃ d, owns (c : Thread nD τ) arg10 fullShare d) ∗ (∃ d, owns (c : Thread nD τ) arg11 fullShare d) ∗ (∃ d, owns (c : Thread nD τ) arg12 fullShare d)
        ∗ owns (c : Thread nD τ) arg13 fullShare s1 ∗ owns (c : Thread nD τ) arg14 fullShare s2
        ∗ (iprop(owns (c : Thread nD τ) arg1 fullShare x0 ∗ owns (c : Thread nD τ) arg2 fullShare x1 ∗ owns (c : Thread nD τ) arg3 fullShare x2
            ∗ owns (c : Thread nD τ) arg4 fullShare w3 ∗ owns (c : Thread nD τ) arg5 fullShare b4
            ∗ owns (c : Thread nD τ) arg6 fullShare w5 ∗ owns (c : Thread nD τ) arg7 fullShare b6
            ∗ owns (c : Thread nD τ) arg8 fullShare w7 ∗ owns (c : Thread nD τ) arg9 fullShare b8
            ∗ owns (c : Thread nD τ) arg10 fullShare (k0_pay1 (k0_pay6 x0 w3 b4) (k0_pay7 x1 w5 b6) (k0_pay8 x2 w7 b8))
            ∗ owns (c : Thread nD τ) arg11 fullShare (k0_pay2 (k0_pay6 x0 w3 b4) (k0_pay7 x1 w5 b6) (k0_pay8 x2 w7 b8) s1)
            ∗ owns (c : Thread nD τ) arg12 fullShare (k0_pay3 (k0_pay6 x0 w3 b4) (k0_pay7 x1 w5 b6) (k0_pay8 x2 w7 b8) s2)
            ∗ owns (c : Thread nD τ) arg13 fullShare (k0_pay2 (k0_pay6 x0 w3 b4) (k0_pay7 x1 w5 b6) (k0_pay8 x2 w7 b8) s1)
            ∗ owns (c : Thread nD τ) arg14 fullShare (k0_pay3 (k0_pay6 x0 w3 b4) (k0_pay7 x1 w5 b6) (k0_pay8 x2 w7 b8) s2)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__proj_kernel_eq_skeleton]; unfold cc0__proj_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%d10, %f10, -, H10⟩, ⟨%d11, %f11, -, H11⟩, ⟨%d12, %f12, -, H12⟩, ⟨%f13, %hf13, H13⟩, ⟨%f14, %hf14, H14⟩, Hk⟩
  subst hf1 hf2 hf3 hf4 hf5 hf6 hf7 hf8 hf9 hf13 hf14
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [read_writes_cons_unit0 _ _ hz0]
    simp only [View.readAt_eq_ld, View.ld_unit_zero (S := S2000x128) hz0, View.ld_unit_zero (S := S128x128) hz0, View.ld_unit_zero (S := S1x128) hz0]
  isplitl [H11]
  · iexists _; isplitr
    swap; · iexact H11
    ipureintro
    sl_unfold_words
    rw [read_writes_cons_unit0 _ _ hz0]
    simp only [readCov_cons_unit0 (S := S1x128) _ hz0, View.readAt_eq_ld, View.ld_unit_zero (S := S2000x128) hz0, View.ld_unit_zero (S := S128x128) hz0, View.ld_unit_zero (S := S1x128) hz0]
  isplitl [H12]
  · iexists _; isplitr
    swap; · iexact H12
    ipureintro
    sl_unfold_words
    rw [read_writes_cons_unit0 _ _ hz0]
    simp only [readCov_cons_unit0 (S := S1x128) _ hz0, View.readAt_eq_ld, View.ld_unit_zero (S := S2000x128) hz0, View.ld_unit_zero (S := S128x128) hz0, View.ld_unit_zero (S := S1x128) hz0]
  isplitl [H13]
  · iexists _; isplitr
    swap; · iexact H13
    ipureintro
    sl_unfold_words
    rw [read_writes_cons_unit0 _ _ hz0]
    simp only [readCov_cons_unit0 (S := S1x128) _ hz0, View.readAt_eq_ld, View.ld_unit_zero (S := S2000x128) hz0, View.ld_unit_zero (S := S128x128) hz0, View.ld_unit_zero (S := S1x128) hz0]
  iexists _; isplitr
  swap; · iexact H14
  ipureintro
  sl_unfold_words
  rw [read_writes_cons_unit0 _ _ hz0]
  simp only [readCov_cons_unit0 (S := S1x128) _ hz0, View.readAt_eq_ld, View.ld_unit_zero (S := S2000x128) hz0, View.ld_unit_zero (S := S128x128) hz0, View.ld_unit_zero (S := S1x128) hz0]

/-! ## The invariant, case by case -/

/-- The part of the invariant the body never touches: the other region's staging buffers at any contents and the
    generator register at any state. -/
def restAcc0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ r, prngReg c r))

/-- After point `n`: the scratch rows at `sums n`. -/
theorem PhiAcc_succ (c : Dev nD) (n : ℕ) (h : n < cfg0.N) :
    PhiAcc V c (n + 1) h = iprop(owns (c : Thread nD τ) (Memref.whole cc0_scratch0) fullShare ((sums V c n h).1)
      ∗ owns (c : Thread nD τ) (Memref.whole cc0_scratch1) fullShare ((sums V c n h).2) ∗ restAcc0 (F := F) c) := rfl

theorem PhiAcc_zero (c : Dev nD) (n : ℕ) (h : n ≤ cfg0.N) (hz : n = 0) : PhiAcc V c n h = Pipeline.ΦA spec0 c := by
  subst hz; rfl

/-- Before a point that is not the first: the scratch rows at what the point before left. -/
theorem PhiAcc_pos (c : Dev nD) (n : ℕ) (h : n ≤ cfg0.N) (hz : n ≠ 0) :
    PhiAcc V c n h = iprop(owns (c : Thread nD τ) (Memref.whole cc0_scratch0) fullShare ((sums V c (n - 1) (by omega)).1)
      ∗ owns (c : Thread nD τ) (Memref.whole cc0_scratch1) fullShare ((sums V c (n - 1) (by omega)).2) ∗ restAcc0 (F := F) c) := by
  cases n with
  | zero => exact absurd rfl hz
  | succ n => rfl

theorem PhiAcc_castSucc (c : Dev nD) (t : Fin cfg0.N) :
    (dat0 V c).Φ t.castSucc = PhiAcc V c t.val (Nat.le_of_lt t.isLt) := by
  first | rfl | (dsimp only [dat0]; simp only [Fin.coe_castSucc])

/-- The class's invariant with the two scratch rows as whole memrefs owned at some contents. -/
theorem PhiA0_eq (c : Dev nD) :
    (Pipeline.ΦA spec0 c : sProp 𝕄)
      = iprop((∃ d, owns (c : Thread nD τ) (Memref.whole cc0_scratch0) fullShare d) ∗ (∃ d, owns (c : Thread nD τ) (Memref.whole cc0_scratch1) fullShare d) ∗ restAcc0 (F := F) c) := by
  unfold Pipeline.ΦA restAcc0; rw [scopedRest0_eq]; simp only [owns_whole]
  refine BI.equiv_iff.mp ⟨?_, ?_⟩
  · show (_ : sProp 𝕄) ⊢ _
    iintro ⟨⟨H0, H1, H2, H3, H4, H5, H6, H7, H8, H9⟩, Hg⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hg
  · show (_ : sProp 𝕄) ⊢ _
    iintro ⟨H0, H1, H2, H3, H4, H5, H6, H7, H8, H9, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## The running rows, case by case -/

theorem sums_first (c : Dev nD) (t : Fin cfg0.N) (hz : t.val = 0) :
    sums V c t.val t.isLt = (k0_pay2 (projO V c t) (projI V c t) (projS V c t) (k0_pay4 (F := F)),
      k0_pay3 (projO V c t) (projI V c t) (projS V c t) (k0_pay5 (F := F))) := by
  obtain ⟨n, hn⟩ := t
  cases n with
  | zero => rfl
  | succ n => exact absurd hz (Nat.succ_ne_zero n)

theorem sums_later (c : Dev nD) (t : Fin cfg0.N) (hz : t.val ≠ 0) :
    sums V c t.val t.isLt = (k0_pay2 (projO V c t) (projI V c t) (projS V c t) (sums V c (t.val - 1) (Nat.lt_of_le_of_lt (Nat.sub_le _ _) t.isLt)).1,
      k0_pay3 (projO V c t) (projI V c t) (projS V c t) (sums V c (t.val - 1) (Nat.lt_of_le_of_lt (Nat.sub_le _ _) t.isLt)).2) := by
  obtain ⟨n, hn⟩ := t
  cases n with
  | zero => exact absurd rfl hz
  | succ n => rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 4000000 in
/-- The body at any point: the inputs' memrefs hold their blocks; at the first point the invariant hands the body the
    scratch rows at anything and the body zeroes them, at a later point at what the point before left; either way the
    body leaves them at this point's running rows, which the invariant takes back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    after0_0, after0_1, after0_2, after0_3, after0_4, after0_5, after0_6, after0_7, after0_8, after0_9, after0_10, after0_11]
  rw [show (dat0 V c).Φ t.succ = PhiAcc V c (t.val + 1) t.isLt from rfl, PhiAcc_succ, PhiAcc_castSucc]
  by_cases hz : t.val = 0
  · rw [PhiAcc_zero V c _ _ hz, PhiA0_eq, sums_first V c t hz]
    unfold hTile projO projI projS
    iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel0_first c Set.univ (grid0.coords t) ((hprojCond0 t).mpr hz) _ _ _ _ _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (iblk0 V c 7 t) (iblk0 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [PhiAcc_pos V c _ _ hz, sums_later V c t hz]
    unfold hTile projO projI projS
    iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel0_later c Set.univ (grid0.coords t) (fun h => hz ((hprojCond0 t).mp h)) _ _ _ _ _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (iblk0 V c 7 t) (iblk0 V c 8 t)
      (sums V c (t.val - 1) (Nat.lt_of_le_of_lt (Nat.sub_le _ _) t.isLt)).1 (sums V c (t.val - 1) (Nat.lt_of_le_of_lt (Nat.sub_le _ _) t.isLt)).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The class's invariant is the region's before its first point. -/
theorem hin0 (c : Dev nD) : Pipeline.ΦA spec0 c ⊢ (dat0 V c).Φ 0 := by
  rw [show (dat0 V c).Φ 0 = PhiAcc V c 0 (Nat.zero_le _) from rfl, PhiAcc_zero V c 0 _ rfl]
  try exact Idealize.SL.BI.Entails.refl _

/-- After the last point the region's invariant gives the class's back, the scratch rows forgotten. -/
theorem hout0 (c : Dev nD) : (dat0 V c).Φ (Fin.last cfg0.N) ⊢ Pipeline.ΦA spec0 c := by
  rw [show (dat0 V c).Φ (Fin.last cfg0.N) = PhiAcc V c (Fin.last cfg0.N).val (Nat.le_of_lt_succ (Fin.last cfg0.N).isLt) from rfl,
    PhiAcc_pos V c _ _ (by rw [Fin.val_last]; have : cfg0.N = 50 := N_0; omega), PhiA0_eq]
  iintro ⟨HS0, HS1, HR⟩
  isplitl [HS0]; · iexists _; iexact HS0
  isplitl [HS1]; · iexists _; iexact HS1
  iexact HR

end Cert.Kernel.Hand

end
-- ==== Proof.BitsRun.Chain.lean ====
/-
  The whole run of @main, at any float instance: a stretch of host operations, the projecting region, a second
  stretch, the normalising region. The contents of every unscoped buffer are followed from the launch memory through
  the four items (`bd0` … `bd4`): a host stretch applies its operations; a region leaves in each of its arrays what its
  write-backs leave and every other buffer as it found it. Every weakly fair execution terminates and ends with every
  unscoped buffer at `bd4`; in particular each argument array as launched, and the result array at what the
  normalising region's write-backs leave.
-/
import proofs.«114364_j944892805204_1_alg».proof.Proof.Gen.Kernel.Launch
import proofs.«114364_j944892805204_1_alg».proof.Proof.Gen.Kernel.Skeleton
import proofs.«114364_j944892805204_1_alg».proof.Proof.Gen.Kernel.Points
import proofs.«114364_j944892805204_1_alg».proof.Proof.Gen.Kernel.Regions
import proofs.«114364_j944892805204_1_alg».proof.Proof.BitsRun.Norm
import proofs.«114364_j944892805204_1_alg».proof.Proof.BitsRun.Proj
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev bd0 : Dev nD → Valuation τ sig (Elt F) := fun c b => (s₀ m ρ).mem ((c : Dev nD), b)
/-- After the first host stretch: what the projecting region is entered from. -/
abbrev bd1 : Dev nD → Valuation τ sig (Elt F) := fun c => StableHlo.after hostOps0 (bd0 m ρ c)
/-- The same, read at the TensorCore's references. -/
abbrev ent0 : (c : Dev nD) → (b : Ref sig .tc) → Buf (Elt F) ((c : Thread nD τ).loc b) := fun c b => bd1 m ρ c b
/-- At the projecting region's exit: its arrays at what the pipeline leaves, every other buffer as entered. -/
def bd2 (c : Dev nD) : Valuation τ sig (Elt F) :=
  Pipeline.withArrays spec0 c (bd1 m ρ c) fun w => (dat0 (ent0 m ρ) c).arrAt w cfg0.N
theorem bd2_arr (c : Dev nD) (w : Fin cfg0.W) :
    bd2 m ρ c (Proc.devRef .tc (Pipeline.arrRef spec0 w)) = (dat0 (ent0 m ρ) c).arrAt w cfg0.N := by
  unfold bd2; exact Pipeline.withArrays_arr spec0 launch0.win.arr_inj c _ _ w
theorem bd2_of_ne (c : Dev nD) (b : Ref sig .tc) (hb : ∀ w, Pipeline.arrRef spec0 w ≠ b) :
    bd2 m ρ c (Proc.devRef .tc b) = bd1 m ρ c (Proc.devRef .tc b) := by
  unfold bd2; exact Pipeline.withArrays_of_ne spec0 c _ _ b hb
abbrev ext0 : (c : Dev nD) → (b : Ref sig .tc) → Buf (Elt F) ((c : Thread nD τ).loc b) := fun c b => bd2 m ρ c b
theorem hF0 (c : Dev nD) (w : Fin cfg0.W) : (dat0 (ent0 m ρ) c).arrAt w cfg0.N = ext0 m ρ c (Pipeline.arrRef spec0 w) :=
  (bd2_arr m ρ c w).symm
theorem hrest0 (c : Dev nD) : ∀ b, b ∉ Finset.univ.image (Pipeline.arrRef spec0) → ext0 m ρ c b = ent0 m ρ c b :=
  fun b hb => bd2_of_ne m ρ c b fun w e => hb (Finset.mem_image.mpr ⟨w, Finset.mem_univ _, e⟩)

/-- After the second host stretch: what the normalising region is entered from. -/
abbrev bd3 : Dev nD → Valuation τ sig (Elt F) := fun c => StableHlo.after hostOps1 (bd2 m ρ c)
abbrev ent1 : (c : Dev nD) → (b : Ref sig .tc) → Buf (Elt F) ((c : Thread nD τ).loc b) := fun c b => bd3 m ρ c b
/-- At the normalising region's exit. -/
def bd4 (c : Dev nD) : Valuation τ sig (Elt F) :=
  Pipeline.withArrays spec1 c (bd3 m ρ c) fun w => (dat1 (ent1 m ρ) c).arrAt w cfg1.N
theorem bd4_arr (c : Dev nD) (w : Fin cfg1.W) :
    bd4 m ρ c (Proc.devRef .tc (Pipeline.arrRef spec1 w)) = (dat1 (ent1 m ρ) c).arrAt w cfg1.N := by
  unfold bd4; exact Pipeline.withArrays_arr spec1 launch1.win.arr_inj c _ _ w
theorem bd4_of_ne (c : Dev nD) (b : Ref sig .tc) (hb : ∀ w, Pipeline.arrRef spec1 w ≠ b) :
    bd4 m ρ c (Proc.devRef .tc b) = bd3 m ρ c (Proc.devRef .tc b) := by
  unfold bd4; exact Pipeline.withArrays_of_ne spec1 c _ _ b hb
abbrev ext1 : (c : Dev nD) → (b : Ref sig .tc) → Buf (Elt F) ((c : Thread nD τ).loc b) := fun c b => bd4 m ρ c b
theorem hF1 (c : Dev nD) (w : Fin cfg1.W) : (dat1 (ent1 m ρ) c).arrAt w cfg1.N = ext1 m ρ c (Pipeline.arrRef spec1 w) :=
  (bd4_arr m ρ c w).symm
theorem hrest1 (c : Dev nD) : ∀ b, b ∉ Finset.univ.image (Pipeline.arrRef spec1) → ext1 m ρ c b = ent1 m ρ c b :=
  fun b hb => bd4_of_ne m ρ c b fun w e => hb (Finset.mem_image.mpr ⟨w, Finset.mem_univ _, e⟩)

/-! ## A buffer no item writes ends as launched -/

/-- A buffer that is no array of either region and that no host operation writes holds its launch contents at
    the end. -/
theorem bd4_untouched (c : Dev nD) (b : Ref sig .tc) (h4 : ∀ w, Pipeline.arrRef spec1 w ≠ b) (h3 : b ∉ hostOps1_W)
    (h2 : ∀ w, Pipeline.arrRef spec0 w ≠ b) (h1 : b ∉ hostOps0_W) :
    bd4 m ρ c (Proc.devRef .tc b) = m ((c : Thread nD τ).loc b) :=
  calc bd4 m ρ c (Proc.devRef .tc b)
    _ = bd3 m ρ c (Proc.devRef .tc b) := bd4_of_ne m ρ c b h4
    _ = bd2 m ρ c (Proc.devRef .tc b) := StableHlo.after_of_writes_sub hostOps1 _ hostOps1_writes h3
    _ = bd1 m ρ c (Proc.devRef .tc b) := bd2_of_ne m ρ c b h2
    _ = bd0 m ρ c (Proc.devRef .tc b) := StableHlo.after_of_writes_sub hostOps0 _ hostOps0_writes h1
    _ = m ((c : Thread nD τ).loc b) := rfl

/-- The node array is an input window of the projecting region: read, never written. -/
theorem bd4_main_arg0 (c : Dev nD) : bd4 m ρ c (Proc.devRef .tc main_arg0) = m ((c : Thread nD τ).loc main_arg0) :=
  calc bd4 m ρ c (Proc.devRef .tc main_arg0)
    _ = bd3 m ρ c (Proc.devRef .tc main_arg0) := bd4_of_ne m ρ c main_arg0 (by decide)
    _ = bd2 m ρ c (Proc.devRef .tc main_arg0) := StableHlo.after_of_writes_sub hostOps1 _ hostOps1_writes (by decide)
    _ = bd1 m ρ c (Proc.devRef .tc main_arg0) :=
        (bd2_arr m ρ c 2).trans (((dat0 (ent0 m ρ) c).arrAt_in 2 rfl _).trans (A_eq0 (ent0 m ρ) c 2))
    _ = bd0 m ρ c (Proc.devRef .tc main_arg0) := StableHlo.after_of_writes_sub hostOps0 _ hostOps0_writes (by decide)
    _ = m ((c : Thread nD τ).loc main_arg0) := rfl

/-- The result array ends at what the normalising region's write-backs leave. -/
theorem bd4_result (c : Dev nD) : bd4 m ρ c (Proc.devRef .tc main_v62) = (dat1 (ent1 m ρ) c).arrAt 5 cfg1.N :=
  bd4_arr m ρ c 5

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (ent0 m ρ) c
  | ⟨1, _⟩ => fun c => dat1 (ent1 m ρ) c
abbrev noVar : Variants := Variants.none
/-- No core owes another anything: no level is assigned. -/
abbrev noL : GSem nD τ sig → Finset Unit := fun _ => ∅
abbrev nolv : GSem nD τ sig → Unit → ℕ := fun _ _ => 0
/-- What rides beside the buffers through every item: the generator register at some state and the core owing nothing. -/
abbrev rideR (c : Dev nD) : sProp 𝕄 := iprop((∃ r, prngReg c r) ∗ ∃ W, owes (c : Thread nD τ) (0 : CellTallies nD τ sig Unit) W)
/-- A host stretch as an item over the unscoped references from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL nolv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rideR
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev lastT (c : Dev nD) : sProp 𝕄 := iprop(StableHlo.held (c : Thread nD τ) (Pipeline.ucRefs τ sig) (bd4 m ρ c) ∗ ∃ r, prngReg c r)

/-! ## The regions as items -/

set_option backward.isDefEq.respectTransparency.types false in
/-- The projecting region: entered from every unscoped buffer at `bd1`, left at `bd2`. Its arrays are split out of
    the unscoped buffers and put back at the exit contents; the generator register and the scoped rest go into the
    region's invariant and come back, the two scratch rows forgotten. -/
def reg0 : Pipeline.RegionSeg (pcfgs (F := F)) Gen.adm (pdats m ρ) () defs₀ noVar noL nolv 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ noL nolv 0 fun _ _ => rfl
  pre c := iprop(StableHlo.held (c : Thread nD τ) (Pipeline.ucRefs τ sig) (bd1 m ρ c) ∗ rideR c)
  post c := iprop(StableHlo.held (c : Thread nD τ) (Pipeline.ucRefs τ sig) (bd2 m ρ c) ∗ rideR c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have back : (Pipeline.ΦA spec0 c : sProp 𝕄)
        ⊢ iprop((∃ r, prngReg c r) ∗ BI.emp ∗ Pipeline.scopedRest (Pipeline.pin (pcfgs (F := F)) Gen.adm 0).spec c) := by
      unfold Pipeline.ΦA
      iintro ⟨Hr, Hp⟩
      isplitl [Hp]; · iexact Hp
      isplitr; · iempintro
      iexact Hr
    exact (hout0 (ent0 m ρ) c).trans back
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (ent0 m ρ c) (ext0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region: entered from every unscoped buffer at `bd3`, left at `bd4`. -/
def reg1 : Pipeline.RegionSeg (pcfgs (F := F)) Gen.adm (pdats m ρ) () defs₀ noVar noL nolv 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ noL nolv 1 fun _ _ => rfl
  pre c := iprop(StableHlo.held (c : Thread nD τ) (Pipeline.ucRefs τ sig) (bd3 m ρ c) ∗ rideR c)
  post c := iprop(lastT m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (ent1 m ρ c) (ext1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

/-- @main's four items in order. -/
abbrev items : List (Pipeline.Seg (pcfgs (F := F)) Gen.adm (pdats m ρ) () defs₀ noVar noL nolv) :=
  [ .host (hostItem hostOps0 hostOps0_sub hostOps0_fresh (bd0 m ρ)),
    .region (reg0 m ρ),
    .host (hostItem hostOps1 hostOps1_sub hostOps1_fresh (bd2 m ρ)),
    .region (reg1 m ρ) ]
/-- @main is the run of its items. -/
theorem main_items (c : Dev nD) : main (F := F) c = Pipeline.Seg.run (items m ρ) := (main_chain c).trans (by chain_rfl)

set_option backward.isDefEq.respectTransparency.types false in
/-- THE RUN: from any memory with zero counters every weakly fair execution of @main terminates, nothing faulting,
    and ends with every unscoped buffer of every core at `bd4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bd4 m ρ c b) :=
  Pipeline.θ_run_regions_kit (pcfgs (F := F)) Gen.adm (pdats m ρ) () cellOf_inj emb₁ defs₀ noVar noL nolv m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bd0 m ρ c) ∗ rideR c)) (Tₙ := lastT m ρ)
    (hch := ⟨fun _ => .rfl, fun _ => .rfl, fun _ => .rfl, fun _ => .rfl, fun _ => .rfl⟩)
    (hinit := by
      refine Pipeline.initEach noL nolv fun c => ?_
      rw [show unscopedBufs c (fun b => m ((c : Thread nD τ).loc b)) = StableHlo.held (c : Thread nD τ) (Pipeline.ucRefs τ sig) (bd0 m ρ c)
        from Pipeline.unscopedBufs_held c (bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bd4 m ρ c) s')
      isplitl [Hh] <;> iassumption)
    (hQ := fun s h c => h c)

/-- What the run leaves: the result array at what the normalising region's write-backs leave, and each of the twelve
    argument arrays as launched. -/
theorem run_result : θ_run defs (onTc (τ := τ) (main (F := F))) ⟨m, fun _ => 0, ρ⟩ (fun r => ∀ c : Dev nD,
      r.2.mem ((c.tc : Thread nD τ).loc main_v62) = (dat1 (ent1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v62 (by decide))).trans (bd4_result m ρ c),
     (h c _ (mem_uc main_arg0 (by decide))).trans (bd4_main_arg0 m ρ c),
     (h c _ (mem_uc main_arg1 (by decide))).trans (bd4_untouched m ρ c main_arg1 (by decide) (by decide) (by decide) (by decide)),
     (h c _ (mem_uc main_arg2 (by decide))).trans (bd4_untouched m ρ c main_arg2 (by decide) (by decide) (by decide) (by decide)),
     (h c _ (mem_uc main_arg3 (by decide))).trans (bd4_untouched m ρ c main_arg3 (by decide) (by decide) (by decide) (by decide)),
     (h c _ (mem_uc main_arg4 (by decide))).trans (bd4_untouched m ρ c main_arg4 (by decide) (by decide) (by decide) (by decide)),
     (h c _ (mem_uc main_arg5 (by decide))).trans (bd4_untouched m ρ c main_arg5 (by decide) (by decide) (by decide) (by decide)),
     (h c _ (mem_uc main_arg6 (by decide))).trans (bd4_untouched m ρ c main_arg6 (by decide) (by decide) (by decide) (by decide)),
     (h c _ (mem_uc main_arg7 (by decide))).trans (bd4_untouched m ρ c main_arg7 (by decide) (by decide) (by decide) (by decide)),
     (h c _ (mem_uc main_arg8 (by decide))).trans (bd4_untouched m ρ c main_arg8 (by decide) (by decide) (by decide) (by decide)),
     (h c _ (mem_uc main_arg9 (by decide))).trans (bd4_untouched m ρ c main_arg9 (by decide) (by decide) (by decide) (by decide)),
     (h c _ (mem_uc main_arg10 (by decide))).trans (bd4_untouched m ρ c main_arg10 (by decide) (by decide) (by decide) (by decide)),
     (h c _ (mem_uc main_arg11 (by decide))).trans (bd4_untouched m ρ c main_arg11 (by decide) (by decide) (by decide) (by decide))⟩)
    (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.Kernel.Hand

end
-- ==== Proof.IdealRun.Norm.lean ====
/-
  The normalising region (the second pallas_call), at any float instance, at the contents `V` its core holds when the
  region is entered: what each window's block is at a grid point, what the body leaves in the output tile, the
  pipeline's proof data, and the body's obligation at every point.
-/
import proofs.«114364_j944892805204_1_alg».proof.Proof.Gen.KernelIdeal.Launch
import proofs.«114364_j944892805204_1_alg».proof.Proof.Gen.KernelIdeal.Skeleton
import proofs.«114364_j944892805204_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output tile at point `t`: `(x - mean) · rstd · γ + β` on the 2000 rows of the point, the four row vectors
    broadcast down the rows. -/
def normTile (c : Dev nD) (t : Fin cfg1.N) : FVec F S2000x128 .f32 :=
  k1_pay1 (iblk1 V c 0 t) (iblk1 V c 1 t) (iblk1 V c 2 t) (iblk1 V c 3 t) (iblk1 V c 4 t)

/-! ## The pipeline's proof data -/

/-- After the body at point `t` each input's staging buffer holds its block and the output's holds `normTile`; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => normTile V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = normTile V c t := by dsimp only [dat1]

/-! ## Each input's staging buffer holds its block -/

/-- Input window 0 (the tile, fetched at every point): its current staging buffer holds its block. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [show (dat1 V c).after 0 t = iblk1 V c 0 t by dsimp only [dat1]]; unfold Dat.blockOf iblk1; rw [A_eq1]; try rfl) t d).trans
    (by unfold Dat.fetched Dat.blockOf iblk1; rw [A_eq1]; try rfl)

/-- Input windows 1 to 4 (the row vectors, constant block index, fetched at the first point only): the body leaves
    the row in place and the index never moves, so the buffer holds the block at every point. -/
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [show (dat1 V c).after 1 t = iblk1 V c 1 t by dsimp only [dat1]]; unfold Dat.blockOf iblk1; rw [A_eq1]; try rfl) t d).trans
    (by unfold Dat.fetched Dat.blockOf iblk1; rw [A_eq1]; try rfl)

private theorem before1_2 (c : Dev nD) (t : Fin cfg1.N) (d) : (dat1 V c).before 2 t d = iblk1 V c 2 t :=
  ((dat1 V c).before_in_eq_fetched 2 rfl (fun _ => rfl) (fun _ _ _ => rfl)
    (fun t => by rw [show (dat1 V c).after 2 t = iblk1 V c 2 t by dsimp only [dat1]]; unfold Dat.blockOf iblk1; rw [A_eq1]; try rfl) t d).trans
    (by unfold Dat.fetched Dat.blockOf iblk1; rw [A_eq1]; try rfl)

private theorem before1_3 (c : Dev nD) (t : Fin cfg1.N) (d) : (dat1 V c).before 3 t d = iblk1 V c 3 t :=
  ((dat1 V c).before_in_eq_fetched 3 rfl (fun _ => rfl) (fun _ _ _ => rfl)
    (fun t => by rw [show (dat1 V c).after 3 t = iblk1 V c 3 t by dsimp only [dat1]]; unfold Dat.blockOf iblk1; rw [A_eq1]; try rfl) t d).trans
    (by unfold Dat.fetched Dat.blockOf iblk1; rw [A_eq1]; try rfl)

private theorem before1_4 (c : Dev nD) (t : Fin cfg1.N) (d) : (dat1 V c).before 4 t d = iblk1 V c 4 t :=
  ((dat1 V c).before_in_eq_fetched 4 rfl (fun _ => rfl) (fun _ _ _ => rfl)
    (fun t => by rw [show (dat1 V c).after 4 t = iblk1 V c 4 t by dsimp only [dat1]]; unfold Dat.blockOf iblk1; rw [A_eq1]; try rfl) t d).trans
    (by unfold Dat.fetched Dat.blockOf iblk1; rw [A_eq1]; try rfl)

/-! ## The body's accesses: every load and the store go through the whole buffer -/

/-- The whole 2000x128 tile as a rectangle at zero offsets. -/
private abbrev rTile1 : Rect S2000x128 := Rect.unit (s := S2000x128) ![0, 0] S2000x128.size inb_S2000x128_S2000x128_0_0
/-- The whole 1x128 row as a rectangle at zero offsets. -/
private abbrev rRow1 : Rect S1x128 := Rect.unit (s := S1x128) ![0, 0] S1x128.size inb_S1x128_S1x128_0_0

/-- The rectangles' origin is zero. -/
private theorem origin_zero1 : (![0, 0] : Fin 2 → Nat) = fun _ => 0 := funext fun a => by fin_cases a <;> rfl

/-- The one store covers the output tile. -/
private theorem cover_tile1 (p0 : Vec F S2000x128 .f32) (y : S2000x128.Idx) :
    ∃ pc ∈ ([⟨rTile1, p0⟩] : List (View.Piece (Elt F) S2000x128 .f32)), y ∈ pc.1.set :=
  ⟨_, List.mem_singleton_self _, View.mem_set_unit_zero origin_zero1 inb_S2000x128_S2000x128_0_0 y⟩

/-- What the one whole-tile store of the payload of the whole-buffer loads leaves IS the payload of the buffers'
    contents: a load through the whole rectangle reads the contents, and one covering store leaves its payload. -/
private theorem stored_eq1 (x0 : Vec F S2000x128 .f32) (x1 x2 x3 x4 : Vec F S1x128 .f32) :
    View.canon [(⟨rTile1, k1_pay1 (View.ld x0 rTile1) (View.ld x1 rRow1) (View.ld x2 rRow1) (View.ld x3 rRow1) (View.ld x4 rRow1)⟩ :
        View.Piece (Elt F) S2000x128 .f32)] = k1_pay1 x0 x1 x2 x3 x4 := by
  rw [View.canon_unit_zero origin_zero1]
  simp only [View.ld_unit_zero (S := S2000x128) origin_zero1, View.ld_unit_zero (S := S1x128) origin_zero1]

/-! ## The body's triple -/

set_option maxHeartbeats 1000000 in
/-- The kernel body on whole staging memrefs, the five inputs' at contents `x0 … x4` and the output's at anything, runs
    to the continuation holding the inputs' as they were and the output's at the payload of the inputs' contents. -/
private theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E (cc1__norm_kernel i arg1 harg1 arg2 harg2 arg3 harg3 arg4 harg4 arg5 harg5 arg6 harg6) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover_tile1 _)).trans (stored_eq1 _ _ _ _ _)

/-! ## The body obligation, at a generic point -/

/-- What the body is called with at point `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

private theorem after1_0 (c : Dev nD) (t : Fin cfg1.N) : (dat1 V c).after 0 t = iblk1 V c 0 t := by dsimp only [dat1]
private theorem after1_1 (c : Dev nD) (t : Fin cfg1.N) : (dat1 V c).after 1 t = iblk1 V c 1 t := by dsimp only [dat1]
private theorem after1_2 (c : Dev nD) (t : Fin cfg1.N) : (dat1 V c).after 2 t = iblk1 V c 2 t := by dsimp only [dat1]
private theorem after1_3 (c : Dev nD) (t : Fin cfg1.N) : (dat1 V c).after 3 t = iblk1 V c 3 t := by dsimp only [dat1]
private theorem after1_4 (c : Dev nD) (t : Fin cfg1.N) : (dat1 V c).after 4 t = iblk1 V c 4 t := by dsimp only [dat1]

/-- The body at any point: the inputs' memrefs hold their blocks, so the body's triple applies; the invariant and the
    core's `owes` pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold normTile
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.Proj.lean ====
/-
  The projecting region (the first pallas_call), at any float instance, at the contents `V` its core holds when the
  region is entered. At grid point `t` the body forms the tile of `h` for the point's 2000 rows from three products
  and their biases, stores it, and adds the tile's column sums and the column sums of its squares to two running
  row vectors it keeps in scratch from point to point (zeroed at the first point), copying both to their outputs.
-/
import proofs.«114364_j944892805204_1_alg».proof.Proof.Gen.KernelIdeal.Launch
import proofs.«114364_j944892805204_1_alg».proof.Proof.Gen.KernelIdeal.Skeleton
import proofs.«114364_j944892805204_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three affine projections of the point's rows. -/
def projO (c : Dev nD) (t : Fin cfg0.N) : FVec F S2000x128 .f32 := k0_pay6 (iblk0 V c 0 t) (iblk0 V c 3 t) (iblk0 V c 4 t)
def projI (c : Dev nD) (t : Fin cfg0.N) : FVec F S2000x128 .f32 := k0_pay7 (iblk0 V c 1 t) (iblk0 V c 5 t) (iblk0 V c 6 t)
def projS (c : Dev nD) (t : Fin cfg0.N) : FVec F S2000x128 .f32 := k0_pay8 (iblk0 V c 2 t) (iblk0 V c 7 t) (iblk0 V c 8 t)

/-- The tile of `h` at point `t`: the three projections added and scaled by a third. -/
def hTile (c : Dev nD) (t : Fin cfg0.N) : FVec F S2000x128 .f32 := k0_pay1 (projO V c t) (projI V c t) (projS V c t)

/-- The two running row vectors after point `n`: the column sums of `h` and of its squares over the points so far,
    from the zero rows stored at the first point. -/
def sums (c : Dev nD) : (n : ℕ) → n < cfg0.N → FVec F S1x128 .f32 × FVec F S1x128 .f32
  | 0, h => (k0_pay2 (projO V c ⟨0, h⟩) (projI V c ⟨0, h⟩) (projS V c ⟨0, h⟩) (k0_pay4 (F := F)),
             k0_pay3 (projO V c ⟨0, h⟩) (projI V c ⟨0, h⟩) (projS V c ⟨0, h⟩) (k0_pay5 (F := F)))
  | n + 1, h => (k0_pay2 (projO V c ⟨n + 1, h⟩) (projI V c ⟨n + 1, h⟩) (projS V c ⟨n + 1, h⟩) (sums c n (Nat.lt_of_succ_lt h)).1,
                 k0_pay3 (projO V c ⟨n + 1, h⟩) (projI V c ⟨n + 1, h⟩) (projS V c ⟨n + 1, h⟩) (sums c n (Nat.lt_of_succ_lt h)).2)

/-! ## The region's invariant -/

/-- Before the first point the scoped rest at any contents and the generator register at any state; before point
    `n + 1` the two scratch rows at `sums n`, the other scoped buffers that are no staging buffer of this region at any
    contents, and the generator register. -/
def PhiAcc (c : Dev nD) : (n : ℕ) → n ≤ cfg0.N → sProp 𝕄
  | 0, _ => Pipeline.ΦA spec0 c
  | n + 1, h => iprop(owns (c : Thread nD τ) (Memref.whole cc0_scratch0) fullShare ((sums V c n h).1)
      ∗ owns (c : Thread nD τ) (Memref.whole cc0_scratch1) fullShare ((sums V c n h).2)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ r, prngReg c r))

/-! ## The pipeline's proof data -/

/-- After the body at point `t`: each input's staging buffer at its block, the tile output's at `hTile`, the two
    row outputs' at the running rows; the invariant `PhiAcc`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => hTile V c t
    | ⟨10, _⟩ => (sums V c t.val t.isLt).1
    | ⟨11, _⟩ => (sums V c t.val t.isLt).2
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = hTile V c t := by dsimp only [dat0]
theorem after0_10 (c : Dev nD) (t : Fin cfg0.N) : (dat0 V c).after 10 t = (sums V c t.val t.isLt).1 := by dsimp only [dat0]
theorem after0_11 (c : Dev nD) (t : Fin cfg0.N) : (dat0 V c).after 11 t = (sums V c t.val t.isLt).2 := by dsimp only [dat0]

/-! ## What the input windows hold -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-! ## Reads after whole-buffer stores -/

theorem hz0 : (![0, 0] : Fin 2 → Nat) = fun _ => 0 := funext fun a => by fin_cases a <;> rfl

/-- A buffer whose LAST store went through the whole-shape rectangle at zero offsets reads as that store's payload,
    whatever was stored before and whatever it held. -/
theorem read_writes_cons_unit0 {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h]

/-- A load through that rectangle after such a store reads the store's payload. -/
theorem readCov_cons_unit0 {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h, View.ld_unit_zero h]

/-! ## The first-point condition -/

/-- The body's reset condition, a closed function of the grid coordinate. -/
abbrev projCond0 (i : grid0.Coords) : Prop :=
  (Scalar.cmpi .ne (Scalar.extui (Scalar.cmpi .eq (BitVec.ofNat 32 (i 0).val) 0#32)) 0#32) = 1#1

/-- It holds at the first point only: decided over the grid. -/
theorem hprojCond0 : ∀ t : Fin cfg0.N, projCond0 (grid0.coords t) ↔ t.val = 0 :=
  (by decide +kernel : ∀ t : Fin grid0.N, projCond0 (grid0.coords t) ↔ t.val = 0)

/-! ## The body's triple -/

set_option maxHeartbeats 4000000 in
/-- The body at the first point, on whole memrefs: the inputs at `x·`, `w·`, `b·`, the outputs and both scratch rows at anything. It zeroes the scratch rows, stores the tile, adds the tile's column sums (and those of its squares) to the zero rows, and copies both rows to their outputs. -/
theorem sound_kernel0_first (c : Dev nD) (E : Set ℕ) (i : grid0.Coords) (hc : projCond0 i)
    (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole)
    (x0 x1 x2 : Vec F S2000x128 .f32) (w3 : Vec F S128x128 .f32) (b4 : Vec F S1x128 .f32) (w5 : Vec F S128x128 .f32) (b6 : Vec F S1x128 .f32)
    (w7 : Vec F S128x128 .f32) (b8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w3 ∗ owns (c : Thread nD τ) arg5 fullShare b4
        ∗ owns (c : Thread nD τ) arg6 fullShare w5 ∗ owns (c : Thread nD τ) arg7 fullShare b6
        ∗ owns (c : Thread nD τ) arg8 fullShare w7 ∗ owns (c : Thread nD τ) arg9 fullShare b8
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w3 ∗ owns (c : Thread nD τ) arg5 fullShare b4
            ∗ owns (c : Thread nD τ) arg6 fullShare w5 ∗ owns (c : Thread nD τ) arg7 fullShare b6
            ∗ owns (c : Thread nD τ) arg8 fullShare w7 ∗ owns (c : Thread nD τ) arg9 fullShare b8
            ∗ owns (c : Thread nD τ) arg10 fullShare (k0_pay1 (k0_pay6 x0 w3 b4) (k0_pay7 x1 w5 b6) (k0_pay8 x2 w7 b8))
            ∗ owns (c : Thread nD τ) arg11 fullShare (k0_pay2 (k0_pay6 x0 w3 b4) (k0_pay7 x1 w5 b6) (k0_pay8 x2 w7 b8) (k0_pay4 (F := F)))
            ∗ owns (c : Thread nD τ) arg12 fullShare (k0_pay3 (k0_pay6 x0 w3 b4) (k0_pay7 x1 w5 b6) (k0_pay8 x2 w7 b8) (k0_pay5 (F := F)))
            ∗ owns (c : Thread nD τ) arg13 fullShare (k0_pay2 (k0_pay6 x0 w3 b4) (k0_pay7 x1 w5 b6) (k0_pay8 x2 w7 b8) (k0_pay4 (F := F)))
            ∗ owns (c : Thread nD τ) arg14 fullShare (k0_pay3 (k0_pay6 x0 w3 b4) (k0_pay7 x1 w5 b6) (k0_pay8 x2 w7 b8) (k0_pay5 (F := F)))) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__proj_kernel_eq_skeleton]; unfold cc0__proj_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%d10, %f10, -, H10⟩, ⟨%d11, %f11, -, H11⟩, ⟨%d12, %f12, -, H12⟩, ⟨%d13, %f13, -, H13⟩, ⟨%d14, %f14, -, H14⟩, Hk⟩
  subst hf1 hf2 hf3 hf4 hf5 hf6 hf7 hf8 hf9
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [read_writes_cons_unit0 _ _ hz0]
    simp only [View.readAt_eq_ld, View.ld_unit_zero (S := S2000x128) hz0, View.ld_unit_zero (S := S128x128) hz0, View.ld_unit_zero (S := S1x128) hz0]
  isplitl [H11]
  · iexists _; isplitr
    swap; · iexact H11
    ipureintro
    sl_unfold_words
    rw [read_writes_cons_unit0 _ _ hz0]
    simp only [readCov_cons_unit0 (S := S1x128) _ hz0, View.readAt_eq_ld, View.ld_unit_zero (S := S2000x128) hz0, View.ld_unit_zero (S := S128x128) hz0, View.ld_unit_zero (S := S1x128) hz0]
  isplitl [H12]
  · iexists _; isplitr
    swap; · iexact H12
    ipureintro
    sl_unfold_words
    rw [read_writes_cons_unit0 _ _ hz0]
    simp only [readCov_cons_unit0 (S := S1x128) _ hz0, View.readAt_eq_ld, View.ld_unit_zero (S := S2000x128) hz0, View.ld_unit_zero (S := S128x128) hz0, View.ld_unit_zero (S := S1x128) hz0]
  isplitl [H13]
  · iexists _; isplitr
    swap; · iexact H13
    ipureintro
    sl_unfold_words
    rw [read_writes_cons_unit0 _ _ hz0]
    simp only [readCov_cons_unit0 (S := S1x128) _ hz0, View.readAt_eq_ld, View.ld_unit_zero (S := S2000x128) hz0, View.ld_unit_zero (S := S128x128) hz0, View.ld_unit_zero (S := S1x128) hz0]
  iexists _; isplitr
  swap; · iexact H14
  ipureintro
  sl_unfold_words
  rw [read_writes_cons_unit0 _ _ hz0]
  simp only [readCov_cons_unit0 (S := S1x128) _ hz0, View.readAt_eq_ld, View.ld_unit_zero (S := S2000x128) hz0, View.ld_unit_zero (S := S128x128) hz0, View.ld_unit_zero (S := S1x128) hz0]

set_option maxHeartbeats 4000000 in
/-- The body at a later point: the same, the scratch rows found at `s1`, `s2` (what the point before left) and added to. -/
theorem sound_kernel0_later (c : Dev nD) (E : Set ℕ) (i : grid0.Coords) (hc : ¬projCond0 i)
    (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole)
    (x0 x1 x2 : Vec F S2000x128 .f32) (w3 : Vec F S128x128 .f32) (b4 : Vec F S1x128 .f32) (w5 : Vec F S128x128 .f32) (b6 : Vec F S1x128 .f32)
    (w7 : Vec F S128x128 .f32) (b8 : Vec F S1x128 .f32) (s1 s2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w3 ∗ owns (c : Thread nD τ) arg5 fullShare b4
        ∗ owns (c : Thread nD τ) arg6 fullShare w5 ∗ owns (c : Thread nD τ) arg7 fullShare b6
        ∗ owns (c : Thread nD τ) arg8 fullShare w7 ∗ owns (c : Thread nD τ) arg9 fullShare b8
        ∗ (∃ d, owns (c : Thread nD τ) arg10 fullShare d) ∗ (∃ d, owns (c : Thread nD τ) arg11 fullShare d) ∗ (∃ d, owns (c : Thread nD τ) arg12 fullShare d)
        ∗ owns (c : Thread nD τ) arg13 fullShare s1 ∗ owns (c : Thread nD τ) arg14 fullShare s2
        ∗ (iprop(owns (c : Thread nD τ) arg1 fullShare x0 ∗ owns (c : Thread nD τ) arg2 fullShare x1 ∗ owns (c : Thread nD τ) arg3 fullShare x2
            ∗ owns (c : Thread nD τ) arg4 fullShare w3 ∗ owns (c : Thread nD τ) arg5 fullShare b4
            ∗ owns (c : Thread nD τ) arg6 fullShare w5 ∗ owns (c : Thread nD τ) arg7 fullShare b6
            ∗ owns (c : Thread nD τ) arg8 fullShare w7 ∗ owns (c : Thread nD τ) arg9 fullShare b8
            ∗ owns (c : Thread nD τ) arg10 fullShare (k0_pay1 (k0_pay6 x0 w3 b4) (k0_pay7 x1 w5 b6) (k0_pay8 x2 w7 b8))
            ∗ owns (c : Thread nD τ) arg11 fullShare (k0_pay2 (k0_pay6 x0 w3 b4) (k0_pay7 x1 w5 b6) (k0_pay8 x2 w7 b8) s1)
            ∗ owns (c : Thread nD τ) arg12 fullShare (k0_pay3 (k0_pay6 x0 w3 b4) (k0_pay7 x1 w5 b6) (k0_pay8 x2 w7 b8) s2)
            ∗ owns (c : Thread nD τ) arg13 fullShare (k0_pay2 (k0_pay6 x0 w3 b4) (k0_pay7 x1 w5 b6) (k0_pay8 x2 w7 b8) s1)
            ∗ owns (c : Thread nD τ) arg14 fullShare (k0_pay3 (k0_pay6 x0 w3 b4) (k0_pay7 x1 w5 b6) (k0_pay8 x2 w7 b8) s2)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__proj_kernel_eq_skeleton]; unfold cc0__proj_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%d10, %f10, -, H10⟩, ⟨%d11, %f11, -, H11⟩, ⟨%d12, %f12, -, H12⟩, ⟨%f13, %hf13, H13⟩, ⟨%f14, %hf14, H14⟩, Hk⟩
  subst hf1 hf2 hf3 hf4 hf5 hf6 hf7 hf8 hf9 hf13 hf14
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [read_writes_cons_unit0 _ _ hz0]
    simp only [View.readAt_eq_ld, View.ld_unit_zero (S := S2000x128) hz0, View.ld_unit_zero (S := S128x128) hz0, View.ld_unit_zero (S := S1x128) hz0]
  isplitl [H11]
  · iexists _; isplitr
    swap; · iexact H11
    ipureintro
    sl_unfold_words
    rw [read_writes_cons_unit0 _ _ hz0]
    simp only [readCov_cons_unit0 (S := S1x128) _ hz0, View.readAt_eq_ld, View.ld_unit_zero (S := S2000x128) hz0, View.ld_unit_zero (S := S128x128) hz0, View.ld_unit_zero (S := S1x128) hz0]
  isplitl [H12]
  · iexists _; isplitr
    swap; · iexact H12
    ipureintro
    sl_unfold_words
    rw [read_writes_cons_unit0 _ _ hz0]
    simp only [readCov_cons_unit0 (S := S1x128) _ hz0, View.readAt_eq_ld, View.ld_unit_zero (S := S2000x128) hz0, View.ld_unit_zero (S := S128x128) hz0, View.ld_unit_zero (S := S1x128) hz0]
  isplitl [H13]
  · iexists _; isplitr
    swap; · iexact H13
    ipureintro
    sl_unfold_words
    rw [read_writes_cons_unit0 _ _ hz0]
    simp only [readCov_cons_unit0 (S := S1x128) _ hz0, View.readAt_eq_ld, View.ld_unit_zero (S := S2000x128) hz0, View.ld_unit_zero (S := S128x128) hz0, View.ld_unit_zero (S := S1x128) hz0]
  iexists _; isplitr
  swap; · iexact H14
  ipureintro
  sl_unfold_words
  rw [read_writes_cons_unit0 _ _ hz0]
  simp only [readCov_cons_unit0 (S := S1x128) _ hz0, View.readAt_eq_ld, View.ld_unit_zero (S := S2000x128) hz0, View.ld_unit_zero (S := S128x128) hz0, View.ld_unit_zero (S := S1x128) hz0]

/-! ## The invariant, case by case -/

/-- The part of the invariant the body never touches: the other region's staging buffers at any contents and the
    generator register at any state. -/
def restAcc0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ r, prngReg c r))

/-- After point `n`: the scratch rows at `sums n`. -/
theorem PhiAcc_succ (c : Dev nD) (n : ℕ) (h : n < cfg0.N) :
    PhiAcc V c (n + 1) h = iprop(owns (c : Thread nD τ) (Memref.whole cc0_scratch0) fullShare ((sums V c n h).1)
      ∗ owns (c : Thread nD τ) (Memref.whole cc0_scratch1) fullShare ((sums V c n h).2) ∗ restAcc0 (F := F) c) := rfl

theorem PhiAcc_zero (c : Dev nD) (n : ℕ) (h : n ≤ cfg0.N) (hz : n = 0) : PhiAcc V c n h = Pipeline.ΦA spec0 c := by
  subst hz; rfl

/-- Before a point that is not the first: the scratch rows at what the point before left. -/
theorem PhiAcc_pos (c : Dev nD) (n : ℕ) (h : n ≤ cfg0.N) (hz : n ≠ 0) :
    PhiAcc V c n h = iprop(owns (c : Thread nD τ) (Memref.whole cc0_scratch0) fullShare ((sums V c (n - 1) (by omega)).1)
      ∗ owns (c : Thread nD τ) (Memref.whole cc0_scratch1) fullShare ((sums V c (n - 1) (by omega)).2) ∗ restAcc0 (F := F) c) := by
  cases n with
  | zero => exact absurd rfl hz
  | succ n => rfl

theorem PhiAcc_castSucc (c : Dev nD) (t : Fin cfg0.N) :
    (dat0 V c).Φ t.castSucc = PhiAcc V c t.val (Nat.le_of_lt t.isLt) := by
  first | rfl | (dsimp only [dat0]; simp only [Fin.coe_castSucc])

/-- The class's invariant with the two scratch rows as whole memrefs owned at some contents. -/
theorem PhiA0_eq (c : Dev nD) :
    (Pipeline.ΦA spec0 c : sProp 𝕄)
      = iprop((∃ d, owns (c : Thread nD τ) (Memref.whole cc0_scratch0) fullShare d) ∗ (∃ d, owns (c : Thread nD τ) (Memref.whole cc0_scratch1) fullShare d) ∗ restAcc0 (F := F) c) := by
  unfold Pipeline.ΦA restAcc0; rw [scopedRest0_eq]; simp only [owns_whole]
  refine BI.equiv_iff.mp ⟨?_, ?_⟩
  · show (_ : sProp 𝕄) ⊢ _
    iintro ⟨⟨H0, H1, H2, H3, H4, H5, H6, H7, H8, H9⟩, Hg⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hg
  · show (_ : sProp 𝕄) ⊢ _
    iintro ⟨H0, H1, H2, H3, H4, H5, H6, H7, H8, H9, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## The running rows, case by case -/

theorem sums_first (c : Dev nD) (t : Fin cfg0.N) (hz : t.val = 0) :
    sums V c t.val t.isLt = (k0_pay2 (projO V c t) (projI V c t) (projS V c t) (k0_pay4 (F := F)),
      k0_pay3 (projO V c t) (projI V c t) (projS V c t) (k0_pay5 (F := F))) := by
  obtain ⟨n, hn⟩ := t
  cases n with
  | zero => rfl
  | succ n => exact absurd hz (Nat.succ_ne_zero n)

theorem sums_later (c : Dev nD) (t : Fin cfg0.N) (hz : t.val ≠ 0) :
    sums V c t.val t.isLt = (k0_pay2 (projO V c t) (projI V c t) (projS V c t) (sums V c (t.val - 1) (Nat.lt_of_le_of_lt (Nat.sub_le _ _) t.isLt)).1,
      k0_pay3 (projO V c t) (projI V c t) (projS V c t) (sums V c (t.val - 1) (Nat.lt_of_le_of_lt (Nat.sub_le _ _) t.isLt)).2) := by
  obtain ⟨n, hn⟩ := t
  cases n with
  | zero => exact absurd rfl hz
  | succ n => rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 4000000 in
/-- The body at any point: the inputs' memrefs hold their blocks; at the first point the invariant hands the body the
    scratch rows at anything and the body zeroes them, at a later point at what the point before left; either way the
    body leaves them at this point's running rows, which the invariant takes back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    after0_0, after0_1, after0_2, after0_3, after0_4, after0_5, after0_6, after0_7, after0_8, after0_9, after0_10, after0_11]
  rw [show (dat0 V c).Φ t.succ = PhiAcc V c (t.val + 1) t.isLt from rfl, PhiAcc_succ, PhiAcc_castSucc]
  by_cases hz : t.val = 0
  · rw [PhiAcc_zero V c _ _ hz, PhiA0_eq, sums_first V c t hz]
    unfold hTile projO projI projS
    iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel0_first c Set.univ (grid0.coords t) ((hprojCond0 t).mpr hz) _ _ _ _ _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (iblk0 V c 7 t) (iblk0 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [PhiAcc_pos V c _ _ hz, sums_later V c t hz]
    unfold hTile projO projI projS
    iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel0_later c Set.univ (grid0.coords t) (fun h => hz ((hprojCond0 t).mp h)) _ _ _ _ _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (iblk0 V c 7 t) (iblk0 V c 8 t)
      (sums V c (t.val - 1) (Nat.lt_of_le_of_lt (Nat.sub_le _ _) t.isLt)).1 (sums V c (t.val - 1) (Nat.lt_of_le_of_lt (Nat.sub_le _ _) t.isLt)).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The class's invariant is the region's before its first point. -/
theorem hin0 (c : Dev nD) : Pipeline.ΦA spec0 c ⊢ (dat0 V c).Φ 0 := by
  rw [show (dat0 V c).Φ 0 = PhiAcc V c 0 (Nat.zero_le _) from rfl, PhiAcc_zero V c 0 _ rfl]
  try exact Idealize.SL.BI.Entails.refl _

/-- After the last point the region's invariant gives the class's back, the scratch rows forgotten. -/
theorem hout0 (c : Dev nD) : (dat0 V c).Φ (Fin.last cfg0.N) ⊢ Pipeline.ΦA spec0 c := by
  rw [show (dat0 V c).Φ (Fin.last cfg0.N) = PhiAcc V c (Fin.last cfg0.N).val (Nat.le_of_lt_succ (Fin.last cfg0.N).isLt) from rfl,
    PhiAcc_pos V c _ _ (by rw [Fin.val_last]; have : cfg0.N = 50 := N_0; omega), PhiA0_eq]
  iintro ⟨HS0, HS1, HR⟩
  isplitl [HS0]; · iexists _; iexact HS0
  isplitl [HS1]; · iexists _; iexact HS1
  iexact HR

end Cert.KernelIdeal.Hand

end
-- ==== Proof.IdealRun.Chain.lean ====
/-
  The whole run of @main, at any float instance: a stretch of host operations, the projecting region, a second
  stretch, the normalising region. The contents of every unscoped buffer are followed from the launch memory through
  the four items (`bd0` … `bd4`): a host stretch applies its operations; a region leaves in each of its arrays what its
  write-backs leave and every other buffer as it found it. Every weakly fair execution terminates and ends with every
  unscoped buffer at `bd4`; in particular each argument array as launched, and the result array at what the
  normalising region's write-backs leave.
-/
import proofs.«114364_j944892805204_1_alg».proof.Proof.Gen.KernelIdeal.Launch
import proofs.«114364_j944892805204_1_alg».proof.Proof.Gen.KernelIdeal.Skeleton
import proofs.«114364_j944892805204_1_alg».proof.Proof.Gen.KernelIdeal.Points
import proofs.«114364_j944892805204_1_alg».proof.Proof.Gen.KernelIdeal.Regions
import proofs.«114364_j944892805204_1_alg».proof.Proof.IdealRun.Norm
import proofs.«114364_j944892805204_1_alg».proof.Proof.IdealRun.Proj
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev bd0 : Dev nD → Valuation τ sig (Elt F) := fun c b => (s₀ m ρ).mem ((c : Dev nD), b)
/-- After the first host stretch: what the projecting region is entered from. -/
abbrev bd1 : Dev nD → Valuation τ sig (Elt F) := fun c => StableHlo.after hostOps0 (bd0 m ρ c)
/-- The same, read at the TensorCore's references. -/
abbrev ent0 : (c : Dev nD) → (b : Ref sig .tc) → Buf (Elt F) ((c : Thread nD τ).loc b) := fun c b => bd1 m ρ c b
/-- At the projecting region's exit: its arrays at what the pipeline leaves, every other buffer as entered. -/
def bd2 (c : Dev nD) : Valuation τ sig (Elt F) :=
  Pipeline.withArrays spec0 c (bd1 m ρ c) fun w => (dat0 (ent0 m ρ) c).arrAt w cfg0.N
theorem bd2_arr (c : Dev nD) (w : Fin cfg0.W) :
    bd2 m ρ c (Proc.devRef .tc (Pipeline.arrRef spec0 w)) = (dat0 (ent0 m ρ) c).arrAt w cfg0.N := by
  unfold bd2; exact Pipeline.withArrays_arr spec0 launch0.win.arr_inj c _ _ w
theorem bd2_of_ne (c : Dev nD) (b : Ref sig .tc) (hb : ∀ w, Pipeline.arrRef spec0 w ≠ b) :
    bd2 m ρ c (Proc.devRef .tc b) = bd1 m ρ c (Proc.devRef .tc b) := by
  unfold bd2; exact Pipeline.withArrays_of_ne spec0 c _ _ b hb
abbrev ext0 : (c : Dev nD) → (b : Ref sig .tc) → Buf (Elt F) ((c : Thread nD τ).loc b) := fun c b => bd2 m ρ c b
theorem hF0 (c : Dev nD) (w : Fin cfg0.W) : (dat0 (ent0 m ρ) c).arrAt w cfg0.N = ext0 m ρ c (Pipeline.arrRef spec0 w) :=
  (bd2_arr m ρ c w).symm
theorem hrest0 (c : Dev nD) : ∀ b, b ∉ Finset.univ.image (Pipeline.arrRef spec0) → ext0 m ρ c b = ent0 m ρ c b :=
  fun b hb => bd2_of_ne m ρ c b fun w e => hb (Finset.mem_image.mpr ⟨w, Finset.mem_univ _, e⟩)

/-- After the second host stretch: what the normalising region is entered from. -/
abbrev bd3 : Dev nD → Valuation τ sig (Elt F) := fun c => StableHlo.after hostOps1 (bd2 m ρ c)
abbrev ent1 : (c : Dev nD) → (b : Ref sig .tc) → Buf (Elt F) ((c : Thread nD τ).loc b) := fun c b => bd3 m ρ c b
/-- At the normalising region's exit. -/
def bd4 (c : Dev nD) : Valuation τ sig (Elt F) :=
  Pipeline.withArrays spec1 c (bd3 m ρ c) fun w => (dat1 (ent1 m ρ) c).arrAt w cfg1.N
theorem bd4_arr (c : Dev nD) (w : Fin cfg1.W) :
    bd4 m ρ c (Proc.devRef .tc (Pipeline.arrRef spec1 w)) = (dat1 (ent1 m ρ) c).arrAt w cfg1.N := by
  unfold bd4; exact Pipeline.withArrays_arr spec1 launch1.win.arr_inj c _ _ w
theorem bd4_of_ne (c : Dev nD) (b : Ref sig .tc) (hb : ∀ w, Pipeline.arrRef spec1 w ≠ b) :
    bd4 m ρ c (Proc.devRef .tc b) = bd3 m ρ c (Proc.devRef .tc b) := by
  unfold bd4; exact Pipeline.withArrays_of_ne spec1 c _ _ b hb
abbrev ext1 : (c : Dev nD) → (b : Ref sig .tc) → Buf (Elt F) ((c : Thread nD τ).loc b) := fun c b => bd4 m ρ c b
theorem hF1 (c : Dev nD) (w : Fin cfg1.W) : (dat1 (ent1 m ρ) c).arrAt w cfg1.N = ext1 m ρ c (Pipeline.arrRef spec1 w) :=
  (bd4_arr m ρ c w).symm
theorem hrest1 (c : Dev nD) : ∀ b, b ∉ Finset.univ.image (Pipeline.arrRef spec1) → ext1 m ρ c b = ent1 m ρ c b :=
  fun b hb => bd4_of_ne m ρ c b fun w e => hb (Finset.mem_image.mpr ⟨w, Finset.mem_univ _, e⟩)

/-! ## A buffer no item writes ends as launched -/

/-- A buffer that is no array of either region and that no host operation writes holds its launch contents at
    the end. -/
theorem bd4_untouched (c : Dev nD) (b : Ref sig .tc) (h4 : ∀ w, Pipeline.arrRef spec1 w ≠ b) (h3 : b ∉ hostOps1_W)
    (h2 : ∀ w, Pipeline.arrRef spec0 w ≠ b) (h1 : b ∉ hostOps0_W) :
    bd4 m ρ c (Proc.devRef .tc b) = m ((c : Thread nD τ).loc b) :=
  calc bd4 m ρ c (Proc.devRef .tc b)
    _ = bd3 m ρ c (Proc.devRef .tc b) := bd4_of_ne m ρ c b h4
    _ = bd2 m ρ c (Proc.devRef .tc b) := StableHlo.after_of_writes_sub hostOps1 _ hostOps1_writes h3
    _ = bd1 m ρ c (Proc.devRef .tc b) := bd2_of_ne m ρ c b h2
    _ = bd0 m ρ c (Proc.devRef .tc b) := StableHlo.after_of_writes_sub hostOps0 _ hostOps0_writes h1
    _ = m ((c : Thread nD τ).loc b) := rfl

/-- The node array is an input window of the projecting region: read, never written. -/
theorem bd4_main_arg0 (c : Dev nD) : bd4 m ρ c (Proc.devRef .tc main_arg0) = m ((c : Thread nD τ).loc main_arg0) :=
  calc bd4 m ρ c (Proc.devRef .tc main_arg0)
    _ = bd3 m ρ c (Proc.devRef .tc main_arg0) := bd4_of_ne m ρ c main_arg0 (by decide)
    _ = bd2 m ρ c (Proc.devRef .tc main_arg0) := StableHlo.after_of_writes_sub hostOps1 _ hostOps1_writes (by decide)
    _ = bd1 m ρ c (Proc.devRef .tc main_arg0) :=
        (bd2_arr m ρ c 2).trans (((dat0 (ent0 m ρ) c).arrAt_in 2 rfl _).trans (A_eq0 (ent0 m ρ) c 2))
    _ = bd0 m ρ c (Proc.devRef .tc main_arg0) := StableHlo.after_of_writes_sub hostOps0 _ hostOps0_writes (by decide)
    _ = m ((c : Thread nD τ).loc main_arg0) := rfl

/-- The result array ends at what the normalising region's write-backs leave. -/
theorem bd4_result (c : Dev nD) : bd4 m ρ c (Proc.devRef .tc main_v62) = (dat1 (ent1 m ρ) c).arrAt 5 cfg1.N :=
  bd4_arr m ρ c 5

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (ent0 m ρ) c
  | ⟨1, _⟩ => fun c => dat1 (ent1 m ρ) c
abbrev noVar : Variants := Variants.none
/-- No core owes another anything: no level is assigned. -/
abbrev noL : GSem nD τ sig → Finset Unit := fun _ => ∅
abbrev nolv : GSem nD τ sig → Unit → ℕ := fun _ _ => 0
/-- What rides beside the buffers through every item: the generator register at some state and the core owing nothing. -/
abbrev rideR (c : Dev nD) : sProp 𝕄 := iprop((∃ r, prngReg c r) ∗ ∃ W, owes (c : Thread nD τ) (0 : CellTallies nD τ sig Unit) W)
/-- A host stretch as an item over the unscoped references from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL nolv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rideR
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev lastT (c : Dev nD) : sProp 𝕄 := iprop(StableHlo.held (c : Thread nD τ) (Pipeline.ucRefs τ sig) (bd4 m ρ c) ∗ ∃ r, prngReg c r)

/-! ## The regions as items -/

set_option backward.isDefEq.respectTransparency.types false in
/-- The projecting region: entered from every unscoped buffer at `bd1`, left at `bd2`. Its arrays are split out of
    the unscoped buffers and put back at the exit contents; the generator register and the scoped rest go into the
    region's invariant and come back, the two scratch rows forgotten. -/
def reg0 : Pipeline.RegionSeg (pcfgs (F := F)) Gen.adm (pdats m ρ) () defs₀ noVar noL nolv 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ noL nolv 0 fun _ _ => rfl
  pre c := iprop(StableHlo.held (c : Thread nD τ) (Pipeline.ucRefs τ sig) (bd1 m ρ c) ∗ rideR c)
  post c := iprop(StableHlo.held (c : Thread nD τ) (Pipeline.ucRefs τ sig) (bd2 m ρ c) ∗ rideR c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have back : (Pipeline.ΦA spec0 c : sProp 𝕄)
        ⊢ iprop((∃ r, prngReg c r) ∗ BI.emp ∗ Pipeline.scopedRest (Pipeline.pin (pcfgs (F := F)) Gen.adm 0).spec c) := by
      unfold Pipeline.ΦA
      iintro ⟨Hr, Hp⟩
      isplitl [Hp]; · iexact Hp
      isplitr; · iempintro
      iexact Hr
    exact (hout0 (ent0 m ρ) c).trans back
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (ent0 m ρ c) (ext0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region: entered from every unscoped buffer at `bd3`, left at `bd4`. -/
def reg1 : Pipeline.RegionSeg (pcfgs (F := F)) Gen.adm (pdats m ρ) () defs₀ noVar noL nolv 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ noL nolv 1 fun _ _ => rfl
  pre c := iprop(StableHlo.held (c : Thread nD τ) (Pipeline.ucRefs τ sig) (bd3 m ρ c) ∗ rideR c)
  post c := iprop(lastT m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (ent1 m ρ c) (ext1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

/-- @main's four items in order. -/
abbrev items : List (Pipeline.Seg (pcfgs (F := F)) Gen.adm (pdats m ρ) () defs₀ noVar noL nolv) :=
  [ .host (hostItem hostOps0 hostOps0_sub hostOps0_fresh (bd0 m ρ)),
    .region (reg0 m ρ),
    .host (hostItem hostOps1 hostOps1_sub hostOps1_fresh (bd2 m ρ)),
    .region (reg1 m ρ) ]
/-- @main is the run of its items. -/
theorem main_items (c : Dev nD) : main (F := F) c = Pipeline.Seg.run (items m ρ) := (main_chain c).trans (by chain_rfl)

set_option backward.isDefEq.respectTransparency.types false in
/-- THE RUN: from any memory with zero counters every weakly fair execution of @main terminates, nothing faulting,
    and ends with every unscoped buffer of every core at `bd4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bd4 m ρ c b) :=
  Pipeline.θ_run_regions_kit (pcfgs (F := F)) Gen.adm (pdats m ρ) () cellOf_inj emb₁ defs₀ noVar noL nolv m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bd0 m ρ c) ∗ rideR c)) (Tₙ := lastT m ρ)
    (hch := ⟨fun _ => .rfl, fun _ => .rfl, fun _ => .rfl, fun _ => .rfl, fun _ => .rfl⟩)
    (hinit := by
      refine Pipeline.initEach noL nolv fun c => ?_
      rw [show unscopedBufs c (fun b => m ((c : Thread nD τ).loc b)) = StableHlo.held (c : Thread nD τ) (Pipeline.ucRefs τ sig) (bd0 m ρ c)
        from Pipeline.unscopedBufs_held c (bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bd4 m ρ c) s')
      isplitl [Hh] <;> iassumption)
    (hQ := fun s h c => h c)

/-- What the run leaves: the result array at what the normalising region's write-backs leave, and each of the twelve
    argument arrays as launched. -/
theorem run_result : θ_run defs (onTc (τ := τ) (main (F := F))) ⟨m, fun _ => 0, ρ⟩ (fun r => ∀ c : Dev nD,
      r.2.mem ((c.tc : Thread nD τ).loc main_v62) = (dat1 (ent1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v62 (by decide))).trans (bd4_result m ρ c),
     (h c _ (mem_uc main_arg0 (by decide))).trans (bd4_main_arg0 m ρ c),
     (h c _ (mem_uc main_arg1 (by decide))).trans (bd4_untouched m ρ c main_arg1 (by decide) (by decide) (by decide) (by decide)),
     (h c _ (mem_uc main_arg2 (by decide))).trans (bd4_untouched m ρ c main_arg2 (by decide) (by decide) (by decide) (by decide)),
     (h c _ (mem_uc main_arg3 (by decide))).trans (bd4_untouched m ρ c main_arg3 (by decide) (by decide) (by decide) (by decide)),
     (h c _ (mem_uc main_arg4 (by decide))).trans (bd4_untouched m ρ c main_arg4 (by decide) (by decide) (by decide) (by decide)),
     (h c _ (mem_uc main_arg5 (by decide))).trans (bd4_untouched m ρ c main_arg5 (by decide) (by decide) (by decide) (by decide)),
     (h c _ (mem_uc main_arg6 (by decide))).trans (bd4_untouched m ρ c main_arg6 (by decide) (by decide) (by decide) (by decide)),
     (h c _ (mem_uc main_arg7 (by decide))).trans (bd4_untouched m ρ c main_arg7 (by decide) (by decide) (by decide) (by decide)),
     (h c _ (mem_uc main_arg8 (by decide))).trans (bd4_untouched m ρ c main_arg8 (by decide) (by decide) (by decide) (by decide)),
     (h c _ (mem_uc main_arg9 (by decide))).trans (bd4_untouched m ρ c main_arg9 (by decide) (by decide) (by decide) (by decide)),
     (h c _ (mem_uc main_arg10 (by decide))).trans (bd4_untouched m ρ c main_arg10 (by decide) (by decide) (by decide) (by decide)),
     (h c _ (mem_uc main_arg11 (by decide))).trans (bd4_untouched m ρ c main_arg11 (by decide) (by decide) (by decide) (by decide))⟩)
    (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.KernelIdeal.Hand

end
-- ==== Proof.Spec.lean ====
/-
  The mathematics of the layer, over plain functions of coordinates on the extended reals.

  A node's value is the mean of three affine projections,
      s r q = ((Σ_k ho r k · wo q k + bo q) + (Σ_k hi r k · wi q k + bi q)) + (Σ_k x r k · ws q k + bs q),
      h r q = s r q · (1/3)                 (one program)      or      s r q / 3        (the other),
  followed by batch normalisation over the rows with the batch's own statistics:
      mean q = (Σ_r h r q) / n,
      out r q = (h r q - mean q) · rsqrt (var q + ε) · γ q + β q.
  The two programs differ in how they take the variance: the mean of the squared deviations, or the mean of the
  squares minus the squared mean. Over the reals these agree; on the extended reals they agree as soon as every
  entry of `h` is a real number, which is what finite inputs give.
-/
import Idealize.ShloMosaic.PureOps.Ideal
import Idealize.ShloMosaic.Lib.ValueIdx

noncomputable section

open scoped BigOperators

namespace Cert.GraphNorm

open Idealize.ShloMosaic

/-- A two-axis array as a function of its coordinates. -/
abbrev Mat (n d : ℕ) : Type := Fin n → Fin d → EReal

variable {n d : ℕ}

/-- The three affine projections added up, before the division by three. -/
def affine3 {e : ℕ} (ho hi x : Mat n e) (wo wi ws : Mat d e) (bo bi bs : Fin d → EReal) : Mat n d := fun r q =>
  ((∑ k, ho r k * wo q k) + bo q) + ((∑ k, hi r k * wi q k) + bi q) + ((∑ k, x r k * ws q k) + bs q)

/-- The sum of a column. -/
def colSum (h : Mat n d) (q : Fin d) : EReal := ∑ r, h r q

/-- The column means, the row count given as the extended real `cnt`. -/
def mean (cnt : EReal) (h : Mat n d) (q : Fin d) : EReal := Ideal.div (colSum h q) cnt

/-- The variance as the mean of the squared deviations from the mean. -/
def varDev (cnt : EReal) (h : Mat n d) (q : Fin d) : EReal :=
  Ideal.div (colSum (fun r q => (h r q - mean cnt h q) * (h r q - mean cnt h q)) q) cnt

/-- The variance as the mean of the squares minus the squared mean. -/
def varSq (cnt : EReal) (h : Mat n d) (q : Fin d) : EReal :=
  Ideal.div (colSum (fun r q => h r q * h r q) q) cnt - mean cnt h q * mean cnt h q

/-- Normalisation with a given variance vector. -/
def normalise (cnt eps : EReal) (var : Fin d → EReal) (h : Mat n d) (ga be : Fin d → EReal) : Mat n d := fun r q =>
  (h r q - mean cnt h q) * Ideal.rsqrt (var q + eps) * ga q + be q

/-- Every entry is a real number. -/
def AllReal (h : Mat n d) : Prop := ∀ r q, ∃ a : ℝ, h r q = (a : EReal)

end Cert.GraphNorm

end
-- ==== Proof.Math.lean ====
/-
  The laws that join the two programs, over the extended reals.

  * The variance identity: for a column of REAL numbers the mean of the squared deviations from the mean is the mean
    of the squares minus the squared mean. On the extended reals this needs every entry real: it moves a factor
    across a sum and cancels, which fails at the infinities.
  * Reals stay real: every operation of the chain that produces `h` from the inputs (a gather, a difference, a
    scatter that adds, a count bounded below by one, a quotient by it, a contraction with a bias, the scaling by a
    third) takes real entries to real entries.
  * A sum over 100000 rows is the sum over 50 blocks of the sums over each block's 2000 rows, and a running sum
    started from a given value is that value plus the sum so far (addition on the extended reals is commutative
    and associative, so neither needs the entries real).
-/
import proofs.«114364_j944892805204_1_alg».proof.Proof.Spec
import Idealize.ShloMosaic.PureOps.Ideal.Laws
import Mathlib.Algebra.BigOperators.Fin
import Mathlib.Data.EReal.Basic
import Mathlib.Data.EReal.Operations

noncomputable section

open scoped BigOperators

namespace Cert.GraphNorm

open Idealize.ShloMosaic

variable {n d : ℕ}

/-- An extended real that is a real number. -/
def IsReal (x : EReal) : Prop := ∃ a : ℝ, x = (a : EReal)

/-! ## Reals stay real -/

theorem isReal_coe (a : ℝ) : IsReal (a : EReal) := ⟨a, rfl⟩
theorem isReal_zero : IsReal (0 : EReal) := ⟨0, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {ι : Type*} (s : Finset ι) (f : ι → EReal) (hf : ∀ i ∈ s, IsReal (f i)) : IsReal (∑ i ∈ s, f i) := by
  classical
  induction s using Finset.induction_on with
  | empty => simpa using isReal_zero
  | insert i s hi ih =>
    rw [Finset.sum_insert hi]
    exact (hf i (Finset.mem_insert_self i s)).add (ih fun j hj => hf j (Finset.mem_insert_of_mem hj))
/-- A quotient by a nonzero real is real. -/
theorem IsReal.div {x : EReal} (hx : IsReal x) {b : ℝ} (hb : b ≠ 0) : IsReal (Ideal.div x (b : EReal)) := by
  rw [Ideal.div_coe hb]
  exact hx.mul (isReal_coe _)
/-- The larger of a real and one is a real that is at least one. -/
theorem IsReal.max_one {x : EReal} (hx : IsReal x) : ∃ b : ℝ, 1 ≤ b ∧ max x ((1 : ℝ) : EReal) = (b : EReal) := by
  obtain ⟨a, rfl⟩ := hx
  rcases le_total a 1 with h | h
  · exact ⟨1, le_refl 1, max_eq_right (EReal.coe_le_coe_iff.2 h)⟩
  · exact ⟨a, h, max_eq_left (EReal.coe_le_coe_iff.2 h)⟩
/-- A quotient by the larger of a real and one is real. -/
theorem IsReal.div_max_one {x y : EReal} (hx : IsReal x) (hy : IsReal y) : IsReal (Ideal.div x (max y ((1 : ℝ) : EReal))) := by
  obtain ⟨b, hb1, hb⟩ := hy.max_one
  rw [hb]
  exact hx.div (by linarith)

/-- A gather of real entries has real entries: each result entry IS an operand entry. -/
theorem gather_isReal {s si t : Shape} {w : ℕ} (g : GatherDims s si t) (x : s.Idx → EReal) (idx : IVec si w)
    (hx : ∀ i, IsReal (x i)) (j : t.Idx) : IsReal (Host.gather g x idx j) :=
  hx _

/-- An adding scatter of real updates into real entries has real entries: each is the operand's entry plus a finite
    sum of update entries. -/
theorem scatterAdd_isReal {s si u : Shape} {w : ℕ} (g : ScatterDims s si u) (x : s.Idx → EReal) (idx : IVec si w)
    (upd : u.Idx → EReal) (hx : ∀ i, IsReal (x i)) (hu : ∀ j, IsReal (upd j)) (i : s.Idx) :
    IsReal (Ideal.hostScatterAdd g x idx upd i) :=
  (hx i).add (IsReal.sum _ _ fun j _ => hu j)

/-- The three affine projections of real arrays are real. -/
theorem affine3_allReal {e : ℕ} (ho hi x : Mat n e) (wo wi ws : Mat d e) (bo bi bs : Fin d → EReal)
    (hho : AllReal ho) (hhi : AllReal hi) (hx : AllReal x) (hwo : AllReal wo) (hwi : AllReal wi) (hws : AllReal ws)
    (hbo : ∀ q, IsReal (bo q)) (hbi : ∀ q, IsReal (bi q)) (hbs : ∀ q, IsReal (bs q)) :
    AllReal (affine3 ho hi x wo wi ws bo bi bs) := by
  intro r q
  have dot : ∀ (u : Mat n e) (w : Mat d e), AllReal u → AllReal w → IsReal (∑ k, u r k * w q k) :=
    fun u w hu hw => IsReal.sum _ _ fun k _ => IsReal.mul (hu r k) (hw q k)
  exact (((dot ho wo hho hwo).add (hbo q)).add ((dot hi wi hhi hwi).add (hbi q))).add
    ((dot x ws hx hws).add (hbs q))

/-- Scaling a real array by a real keeps it real. -/
theorem allReal_mul_const (h : Mat n d) (a : ℝ) (hh : AllReal h) : AllReal (fun r q => h r q * (a : EReal)) :=
  fun r q => IsReal.mul (hh r q) (isReal_coe a)

/-! ## A third, and a quotient by three -/

/-- Dividing by three is multiplying by a third, at every extended real. -/
theorem div_three (x : EReal) : Ideal.div x ((3 : ℝ) : EReal) = x * ((1 / 3 : ℝ) : EReal) :=
  Ideal.div_coe (by norm_num) x

/-! ## The variance identity -/

/-- A finite sum of images of reals is the image of the real sum. -/
private theorem coe_sum {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- For a real array over `n > 0` rows, the mean of the squares minus the squared mean is the mean of the squared
    deviations from the mean. -/
theorem varSq_eq_varDev (hn : 0 < n) (h : Mat n d) (hh : AllReal h) :
    varSq ((n : ℝ) : EReal) h = varDev ((n : ℝ) : EReal) h := by
  have hn' : (n : ℝ) ≠ 0 := by exact_mod_cast hn.ne'
  choose a ha using hh
  have hfun : h = fun r q => (a r q : EReal) := by
    funext r q
    exact ha r q
  subst hfun
  funext q
  -- every quotient by the count is a product with its reciprocal, and every term is the image of a real one
  simp only [varSq, varDev, mean, colSum, Ideal.div_coe hn']
  simp only [coe_sum, ← EReal.coe_mul, ← EReal.coe_sub]
  rw [EReal.coe_eq_coe_iff]
  -- the real identity: Σ (a - μ)² = Σ a² - 2 μ Σ a + n μ², with μ = (Σ a) / n
  have key : ∀ μ : ℝ, ∑ r, (a r q - μ) * (a r q - μ)
      = ∑ r, a r q * a r q - 2 * μ * ∑ r, a r q + n * (μ * μ) := by
    intro μ
    have sq : ∀ r, (a r q - μ) * (a r q - μ) = a r q * a r q - 2 * μ * a r q + μ * μ := fun r => by ring
    simp only [sq, Finset.sum_add_distrib, Finset.sum_sub_distrib, ← Finset.mul_sum, Finset.sum_const,
      Finset.card_univ, Fintype.card_fin, nsmul_eq_mul]
    ring
  rw [key]
  field_simp
  ring

/-- So the two normalisations agree. -/
theorem normalise_varSq_eq (hn : 0 < n) (eps : EReal) (h : Mat n d) (hh : AllReal h) (ga be : Fin d → EReal) :
    normalise ((n : ℝ) : EReal) eps (varSq ((n : ℝ) : EReal) h) h ga be
      = normalise ((n : ℝ) : EReal) eps (varDev ((n : ℝ) : EReal) h) h ga be := by
  rw [varSq_eq_varDev hn h hh]

/-! ## Sums by blocks, and running sums -/

/-- The sum over 100000 rows is the sum over the 50 blocks of 2000 rows of each block's sum. -/
theorem sum_blocks {M : Type*} [AddCommMonoid M] (f : Fin 100000 → M) :
    ∑ r, f r = ∑ t : Fin 50, ∑ i : Fin 2000, f ⟨2000 * t.val + i.val, by omega⟩ := by
  -- the pairs (block, offset) are in bijection with the rows by (t, i) ↦ i + 2000 t
  rw [← Equiv.sum_comp (finProdFinEquiv : Fin 50 × Fin 2000 ≃ Fin 100000) f, Fintype.sum_prod_type]
  refine Finset.sum_congr rfl fun t _ => Finset.sum_congr rfl fun i _ => ?_
  congr 1
  apply Fin.ext
  simp only [finProdFinEquiv_apply_val]
  omega

/-- A running sum: started at `z + b 0` and adding `b (k + 1)` at step `k + 1`, after step `k` it is `z` plus the sum of
    `b` up to `k`. -/
theorem running_sum {M : Type*} [AddCommMonoid M] (z : M) (b : ℕ → M) (a : ℕ → M) (h0 : a 0 = z + b 0)
    (hs : ∀ k, a (k + 1) = a k + b (k + 1)) (k : ℕ) : a k = z + ∑ t ∈ Finset.range (k + 1), b t := by
  induction k with
  | zero => rw [Finset.sum_range_one]; exact h0
  | succ k ih => rw [hs, ih, Finset.sum_range_succ _ (k + 1), add_assoc]

end Cert.GraphNorm

end
-- ==== Proof.Consts.lean ====
/-
  The float words this certificate's programs spell, as the extended reals their patterns denote at the ideal
  instance. They are evaluated here once; the other modules read them from here.
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `3.0` (sign 0, exponent 128, fraction 2^22) denotes the real `3`. -/
theorem ofBits_three : Ideal.ofBits .f32 0x40400000#32 = ((3 : ℝ) : EReal) := by
  simp [Ideal.ofBits, Ideal.ieee, -EReal.coe_mul]; norm_num

/-- The pattern of `100000.0` (sign 0, exponent 143, fraction 4411392) denotes the real `100000`. -/
theorem ofBits_rows : Ideal.ofBits .f32 0x47C35000#32 = ((100000 : ℝ) : EReal) := by
  simp [Ideal.ofBits, Ideal.ieee, -EReal.coe_mul]; norm_num

end Cert.Consts

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.IdealRun.NormValue.lean ====
/-
  What the normalising region leaves in the result array, at the ideal values: entry (r, q) is
  `(x r q - mean q) · rstd q · γ q + β q` of the five arrays the region is entered with. Point `t` writes rows
  2000 t … 2000 t + 1999, so the fifty points' blocks tile the array.
-/
import proofs.«114364_j944892805204_1_alg».proof.Proof.Gen.KernelIdeal.Launch
import proofs.«114364_j944892805204_1_alg».proof.Proof.Gen.KernelIdeal.Skeleton
import proofs.«114364_j944892805204_1_alg».proof.Proof.Gen.KernelIdeal.Points
import proofs.«114364_j944892805204_1_alg».proof.Proof.IdealRun.Norm
import proofs.«114364_j944892805204_1_alg».proof.Proof.Spec
import proofs.«114364_j944892805204_1_alg».proof.Proof.Math
import proofs.«114364_j944892805204_1_alg».proof.Proof.Consts
import proofs.«114364_j944892805204_1_alg».proof.Proof.LibDot
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GraphNorm

-- the TensorCore's buffer contents when the region is entered
variable (V : (c : Dev nD) → (b : Ref sig .tc) → Buf (Elt Ideal) ((c : Thread nD τ).loc b))

/-- An entry of a two-axis array of extended reals. -/
abbrev entry {n d : ℕ} (a : (⟨2, ![n, d]⟩ : Shape).Idx → EReal) (r : Fin n) (q : Fin d) : EReal := a (ix2 r q)

/-- An array of extended reals read at an index. -/
private abbrev at2 {n d : ℕ} (a : (⟨2, ![n, d]⟩ : Shape).Idx → EReal) (i : (⟨2, ![n, d]⟩ : Shape).Idx) : EReal := a i

/-- The output tile of five blocks, read at a row and a column: the four rows are broadcast down the tile's rows. -/
private theorem pay_apply (x0 : Vec Ideal S2000x128 .f32) (x1 x2 x3 x4 : Vec Ideal S1x128 .f32) (p : Fin 2000) (q : Fin 128) :
    entry (k1_pay1 x0 x1 x2 x3 x4) p q
      = (entry x0 p q - entry x1 0 q) * entry x2 0 q * entry x3 0 q + entry x4 0 q := by
  unfold k1_pay1
  simp only [shapeCast_self, addf_apply, mulf_apply, subf_apply, broadcastTo_1b_ab_apply]

/-- The printed index maps over the grid: the tile windows' block index is the point on the rows and zero on the
    columns; the row windows' block index is zero on both axes. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The input tile's block at point `t` is rows `2000 t … 2000 t + 1999` of its array. -/
private theorem iblk_tile (c : Dev nD) (t : Fin cfg1.N) (p : Fin 2000) (q : Fin 128) (k : S100000x128.Idx)
    (hk0 : (k 0).val = 2000 * t.val + p.val) (hk1 : (k 1).val = q.val) :
    entry (iblk1 V c 0 t : Vec Ideal S2000x128 .f32) p q = at2 (V c main_v46_0) k := by
  obtain ⟨e0, e1, -⟩ := idx_facts t
  unfold iblk1
  show View.read (Elt Ideal) ((cfg1.win 0).blk t).view (V c main_v46_0) (ix2 p q) = V c main_v46_0 k
  rw [View.read_apply]
  show V c main_v46_0 _ = V c main_v46_0 _
  congr 1
  funext a; apply Fin.ext
  match a with
  | ⟨0, _⟩ => show win1_0.index t 0 * 2000 + 1 * p.val = (k 0).val; rw [e0, hk0]; omega
  | ⟨1, _⟩ => show win1_0.index t 1 * 128 + 1 * q.val = (k 1).val; rw [e1, hk1]; omega

/-- Each row window's block, at every point, is its whole one-row array. -/
private theorem iblk_row1 (c : Dev nD) (t : Fin cfg1.N) (q : Fin 128) :
    entry (iblk1 V c 1 t : Vec Ideal S1x128 .f32) 0 q = entry (V c main_v58) 0 q := by
  obtain ⟨-, -, e0, e1, -⟩ := idx_facts t
  unfold iblk1
  show View.read (Elt Ideal) ((cfg1.win 1).blk t).view (V c main_v58) (ix2 0 q) = V c main_v58 (ix2 0 q)
  rw [View.read_apply]
  show V c main_v58 _ = V c main_v58 _
  congr 1
  funext a; apply Fin.ext
  match a with
  | ⟨0, _⟩ => show win1_1.index t 0 * 1 + 1 * 0 = 0; rw [e0]
  | ⟨1, _⟩ => show win1_1.index t 1 * 128 + 1 * q.val = q.val; rw [e1]; omega

private theorem iblk_row2 (c : Dev nD) (t : Fin cfg1.N) (q : Fin 128) :
    entry (iblk1 V c 2 t : Vec Ideal S1x128 .f32) 0 q = entry (V c main_v59) 0 q := by
  obtain ⟨-, -, -, -, e0, e1, -⟩ := idx_facts t
  unfold iblk1
  show View.read (Elt Ideal) ((cfg1.win 2).blk t).view (V c main_v59) (ix2 0 q) = V c main_v59 (ix2 0 q)
  rw [View.read_apply]
  show V c main_v59 _ = V c main_v59 _
  congr 1
  funext a; apply Fin.ext
  match a with
  | ⟨0, _⟩ => show win1_2.index t 0 * 1 + 1 * 0 = 0; rw [e0]
  | ⟨1, _⟩ => show win1_2.index t 1 * 128 + 1 * q.val = q.val; rw [e1]; omega

private theorem iblk_row3 (c : Dev nD) (t : Fin cfg1.N) (q : Fin 128) :
    entry (iblk1 V c 3 t : Vec Ideal S1x128 .f32) 0 q = entry (V c main_v60) 0 q := by
  obtain ⟨-, -, -, -, -, -, e0, e1, -⟩ := idx_facts t
  unfold iblk1
  show View.read (Elt Ideal) ((cfg1.win 3).blk t).view (V c main_v60) (ix2 0 q) = V c main_v60 (ix2 0 q)
  rw [View.read_apply]
  show V c main_v60 _ = V c main_v60 _
  congr 1
  funext a; apply Fin.ext
  match a with
  | ⟨0, _⟩ => show win1_3.index t 0 * 1 + 1 * 0 = 0; rw [e0]
  | ⟨1, _⟩ => show win1_3.index t 1 * 128 + 1 * q.val = q.val; rw [e1]; omega

private theorem iblk_row4 (c : Dev nD) (t : Fin cfg1.N) (q : Fin 128) :
    entry (iblk1 V c 4 t : Vec Ideal S1x128 .f32) 0 q = entry (V c main_v61) 0 q := by
  obtain ⟨-, -, -, -, -, -, -, -, e0, e1, -⟩ := idx_facts t
  unfold iblk1
  show View.read (Elt Ideal) ((cfg1.win 4).blk t).view (V c main_v61) (ix2 0 q) = V c main_v61 (ix2 0 q)
  rw [View.read_apply]
  show V c main_v61 _ = V c main_v61 _
  congr 1
  funext a; apply Fin.ext
  match a with
  | ⟨0, _⟩ => show win1_4.index t 0 * 1 + 1 * 0 = 0; rw [e0]
  | ⟨1, _⟩ => show win1_4.index t 1 * 128 + 1 * q.val = q.val; rw [e1]; omega

/-- The whole result: every row normalised by the four one-row arrays. -/
private abbrev normAll (c : Dev nD) : S100000x128.Idx → EReal := fun i =>
  (at2 (V c main_v46_0) i - entry (V c main_v58) 0 (i 1)) * entry (V c main_v59) 0 (i 1) * entry (V c main_v60) 0 (i 1)
    + entry (V c main_v61) 0 (i 1)

/-- The output tile at point `t`, read at row `p` and column `q`, is the whole result at row `2000 t + p`. -/
private theorem normTile_apply (c : Dev nD) (t : Fin cfg1.N) (p : Fin 2000) (q : Fin 128) (k : S100000x128.Idx)
    (hk0 : (k 0).val = 2000 * t.val + p.val) (hk1 : (k 1).val = q.val) :
    entry (normTile V c t) p q = normAll V c k := by
  have hq : k 1 = q := Fin.ext hk1
  unfold normTile
  refine (pay_apply _ _ _ _ _ p q).trans ?_
  rw [iblk_tile V c t p q k hk0 hk1, iblk_row1 V c t q, iblk_row2 V c t q, iblk_row3 V c t q, iblk_row4 V c t q, ← hq]

/-- What point `t` writes back is block `t` of the whole result. -/
private theorem flushed_eq (c : Dev nD) (t : Fin cfg1.N) :
    (dat1 (F := Ideal) V c).flushed 5 t = ((cfg1.win 5).blk t).view.read (Elt Ideal) (normAll V c) := by
  show (cfg1.win 5).cut (grid1.coords t) ((dat1 V c).after 5 t) = _
  rw [after1_5]
  obtain ⟨-, -, -, -, -, -, -, -, -, -, e0, e1⟩ := idx_facts t
  funext j
  obtain ⟨p, q, rfl⟩ : ∃ (p : Fin 2000) (q : Fin 128), j = ix2 p q := ⟨j 0, j 1, eq_ix2 j⟩
  show entry (normTile V c t) p q = normAll V c (((cfg1.win 5).blk t).view.emb (ix2 p q))
  refine normTile_apply V c t p q _ ?_ ?_
  · show win1_5.index t 0 * 2000 + 1 * p.val = _; rw [e0]; omega
  · show win1_5.index t 1 * 128 + 1 * q.val = _; rw [e1]; omega

/-- An index of the array is in point `t`'s block iff each coordinate is in the block's range on its axis. -/
private theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v62).slice (win1_5.rect t)).set ↔ _
  rw [View.set_slice_whole, Rect.mem_set_unit]
  exact Iff.rfl

/-- The fifty blocks tile the array: row `r` is in the block of point `r / 2000`. -/
private theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  have hlt : (i 0).val / 2000 < cfg1.N := by rw [hN]; omega
  obtain ⟨-, -, -, -, -, -, -, -, -, -, e0, e1⟩ := idx_facts ⟨(i 0).val / 2000, hlt⟩
  refine ⟨⟨(i 0).val / 2000, hlt⟩, flush1_5 _, ?_⟩
  rw [mem_blk]
  intro a
  match a with
  | ⟨0, _⟩ => show win1_5.index ⟨(i 0).val / 2000, hlt⟩ (0 : Fin 2) * 2000 ≤ (i 0).val ∧ (i 0).val < win1_5.index ⟨(i 0).val / 2000, hlt⟩ (0 : Fin 2) * 2000 + 2000; rw [e0]; show (i 0).val / 2000 * 2000 ≤ (i 0).val ∧ (i 0).val < (i 0).val / 2000 * 2000 + 2000; omega
  | ⟨1, _⟩ => show win1_5.index ⟨(i 0).val / 2000, hlt⟩ (1 : Fin 2) * 128 ≤ (i 1).val ∧ (i 1).val < win1_5.index ⟨(i 0).val / 2000, hlt⟩ (1 : Fin 2) * 128 + 128; rw [e1]; omega

/-- The result array after the region is the whole result. -/
private theorem final (c : Dev nD) : (dat1 (F := Ideal) V c).arrAt 5 cfg1.N = normAll V c :=
  (dat1 (F := Ideal) V c).arrAt_eq_of_cover 5 (normAll V c) (fun t _ => flushed_eq V c t) cover

/-- The result array after the region, read at a row and a column. -/
theorem norm_final_apply (c : Dev nD) (r : Fin 100000) (q : Fin 128) :
    entry ((dat1 (F := Ideal) V c).arrAt 5 cfg1.N) r q
      = (entry (V c main_v46_0) r q - entry (V c main_v58) 0 q) * entry (V c main_v59) 0 q * entry (V c main_v60) 0 q
          + entry (V c main_v61) 0 q := by
  exact congrFun (final V c) (ix2 r q)

end Cert.KernelIdeal.Hand

end
-- ==== Proof.IdealRun.ProjValue.lean ====
/-
  What the projecting region leaves in its three result arrays, at the ideal values. The tile array holds, at entry
  (r, q), a third of the three affine projections of row `r` added up; the two row arrays hold the column sums of
  that array and of its squares: the running rows start from zero at the first point and each point adds its 2000
  rows' column sums, so after the fiftieth point they are the sums over all 100000 rows.
-/
import proofs.«114364_j944892805204_1_alg».proof.Proof.Gen.KernelIdeal.Launch
import proofs.«114364_j944892805204_1_alg».proof.Proof.Gen.KernelIdeal.Skeleton
import proofs.«114364_j944892805204_1_alg».proof.Proof.Gen.KernelIdeal.Points
import proofs.«114364_j944892805204_1_alg».proof.Proof.IdealRun.Proj
import proofs.«114364_j944892805204_1_alg».proof.Proof.Spec
import proofs.«114364_j944892805204_1_alg».proof.Proof.Math
import proofs.«114364_j944892805204_1_alg».proof.Proof.Consts
import proofs.«114364_j944892805204_1_alg».proof.Proof.LibDot
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GraphNorm

-- the TensorCore's buffer contents when the region is entered
variable (V : (c : Dev nD) → (b : Ref sig .tc) → Buf (Elt Ideal) ((c : Thread nD τ).loc b))

/-- The array `h` the region computes, as a function of coordinates, from the nine arrays it is entered with: the
    weights arrive transposed (`[in, out]`), the biases as rows. -/
def hK (c : Dev nD) : Mat 100000 128 := fun r q =>
  affine3 (fun r k => (V c main_v27 : S100000x128.Idx → EReal) (ix2 r k)) (fun r k => (V c main_v39 : S100000x128.Idx → EReal) (ix2 r k))
      (fun r k => (V c main_arg0 : S100000x128.Idx → EReal) (ix2 r k))
      (fun q k => (V c main_v40 : S128x128.Idx → EReal) (ix2 k q)) (fun q k => (V c main_v41 : S128x128.Idx → EReal) (ix2 k q))
      (fun q k => (V c main_v42 : S128x128.Idx → EReal) (ix2 k q))
      (fun q => (V c main_v43 : S1x128.Idx → EReal) (ix2 0 q)) (fun q => (V c main_v44 : S1x128.Idx → EReal) (ix2 0 q))
      (fun q => (V c main_v45 : S1x128.Idx → EReal) (ix2 0 q)) r q
    * ((1 / 3 : ℝ) : EReal)

/-! ## The payloads read at an entry -/

/-- The named third is the rational 1/3 at the ideal values. -/
private theorem inv3 : Named.named (F := Ideal) κ "inv_3" (φ := .f32) 0x3EAAAAAB#32 = ((1 / 3 : ℝ) : EReal) :=
  IdealRules.named_const.ideal_named_scalar _ _ _ _ rfl

/-- The printed dimension numbers are the plain rows-by-columns ones. -/
private theorem dot_eq_plain : dot_S2000x128_S128x128_S2000x128_1_0_0_1_n_n = DotDims.plain 2000 128 128 := rfl

/-- A bias row broadcast down the rows reads the row's entry of the column. -/
private theorem bias_apply (b : FVec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 0 q) (fun a => by
    match a with
    | ⟨0, _⟩ => rfl
    | ⟨1, _⟩ => rfl)

/-- One affine projection at an entry: the row of the tile against the column of the weight, plus the bias. -/
private theorem pay6_apply (x : Vec Ideal S2000x128 .f32) (w : Vec Ideal S128x128 .f32) (b : Vec Ideal S1x128 .f32)
    (p : Fin 2000) (q : Fin 128) :
    (k0_pay6 x w b : S2000x128.Idx → EReal) (ix2 p q) = (∑ k : Fin 128, x (ix2 p k) * w (ix2 k q)) + b (ix2 0 q) := by
  unfold k0_pay6
  simp only [shapeCast_self]
  refine (addf_apply _ _ _).trans ?_
  refine congrArg₂ (· + ·) ?_ (bias_apply b p q)
  rw [dot_eq_plain]
  exact Cert.GNN.matmul_plain_zero_apply none _ _ p q

private theorem pay7_apply (x : Vec Ideal S2000x128 .f32) (w : Vec Ideal S128x128 .f32) (b : Vec Ideal S1x128 .f32)
    (p : Fin 2000) (q : Fin 128) :
    (k0_pay7 x w b : S2000x128.Idx → EReal) (ix2 p q) = (∑ k : Fin 128, x (ix2 p k) * w (ix2 k q)) + b (ix2 0 q) := by
  unfold k0_pay7
  simp only [shapeCast_self]
  refine (addf_apply _ _ _).trans ?_
  refine congrArg₂ (· + ·) ?_ (bias_apply b p q)
  rw [dot_eq_plain]
  exact Cert.GNN.matmul_plain_zero_apply none _ _ p q

private theorem pay8_apply (x : Vec Ideal S2000x128 .f32) (w : Vec Ideal S128x128 .f32) (b : Vec Ideal S1x128 .f32)
    (p : Fin 2000) (q : Fin 128) :
    (k0_pay8 x w b : S2000x128.Idx → EReal) (ix2 p q) = (∑ k : Fin 128, x (ix2 p k) * w (ix2 k q)) + b (ix2 0 q) := by
  unfold k0_pay8
  simp only [shapeCast_self]
  refine (addf_apply _ _ _).trans ?_
  refine congrArg₂ (· + ·) ?_ (bias_apply b p q)
  rw [dot_eq_plain]
  exact Cert.GNN.matmul_plain_zero_apply none _ _ p q

/-- The tile at an entry: the three projections added, times a third. -/
private theorem pay1_apply (o i s : FVec Ideal S2000x128 .f32) (p : Fin 2000) (q : Fin 128) :
    (k0_pay1 o i s : S2000x128.Idx → EReal) (ix2 p q)
      = (o (ix2 p q) + i (ix2 p q) + s (ix2 p q)) * ((1 / 3 : ℝ) : EReal) := by
  unfold k0_pay1
  simp only [mulf_apply, addf_apply, broadcast_apply, inv3]

/-- The column sums of a tile, as a row: at column q the sum over the 2000 rows. -/
private theorem colsum_apply (v : FVec Ideal S2000x128 .f32) (q : Fin 128) :
    shapeCast S1x128 (multiReduction (F := Ideal) .add [0] S128 v 0x00000000#32 reduces_S2000x128_S128 (.inl rfl) rfl)
        shapeCasts_S128_S1x128 (ix2 0 q)
      = ∑ p : Fin 2000, v (ix2 p q) := by
  refine (shapeCast_a_1a_apply _ shapeCasts_S128_S1x128 0 q).trans ?_
  refine (Ideal.multiReduction_add_single v 0x00000000#32 reduces_S2000x128_S128 (.inl rfl) rfl (ix1 q)).trans ?_
  refine Finset.sum_congr rfl fun p _ => congrArg v ?_
  funext a
  match a with
  | ⟨0, _⟩ => rfl
  | ⟨1, _⟩ => rfl

/-- The first running row after a point: the row before plus the tile's column sums. -/
private theorem pay2_apply (o i s : FVec Ideal S2000x128 .f32) (prev : Vec Ideal S1x128 .f32) (q : Fin 128) :
    (k0_pay2 o i s prev : S1x128.Idx → EReal) (ix2 0 q)
      = prev (ix2 0 q) + ∑ p : Fin 2000, (k0_pay1 o i s : S2000x128.Idx → EReal) (ix2 p q) := by
  unfold k0_pay2
  simp only [shapeCast_self]
  refine (addf_apply _ _ _).trans ?_
  exact congrArg (prev (ix2 0 q) + ·) (colsum_apply _ q)

/-- The second running row after a point: the row before plus the column sums of the tile's squares. -/
private theorem pay3_apply (o i s : FVec Ideal S2000x128 .f32) (prev : Vec Ideal S1x128 .f32) (q : Fin 128) :
    (k0_pay3 o i s prev : S1x128.Idx → EReal) (ix2 0 q)
      = prev (ix2 0 q) + ∑ p : Fin 2000, (k0_pay1 o i s : S2000x128.Idx → EReal) (ix2 p q)
          * (k0_pay1 o i s : S2000x128.Idx → EReal) (ix2 p q) := by
  unfold k0_pay3
  simp only [shapeCast_self]
  refine (addf_apply _ _ _).trans ?_
  exact congrArg (prev (ix2 0 q) + ·) (colsum_apply _ q)

/-- The two running rows start from zero. -/
private theorem pay4_apply (q : Fin 128) : ((k0_pay4 (F := Ideal)) : S1x128.Idx → EReal) (ix2 0 q) = 0 := by
  unfold k0_pay4
  simp only [shapeCast_self, broadcast_apply]
  exact Cert.Consts.ofBits_zero

private theorem pay5_apply (q : Fin 128) : ((k0_pay5 (F := Ideal)) : S1x128.Idx → EReal) (ix2 0 q) = 0 := by
  unfold k0_pay5
  simp only [shapeCast_self, broadcast_apply]
  exact Cert.Consts.ofBits_zero

/-! ## The windows' blocks, read where their rectangles say -/

/-- The index maps, decided once over the grid: the three input tiles and the output tile are at block row t; the
    weights, the bias rows and the two row outputs are each their array's one block. -/
private theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_9.index t (0 : Fin 2) = t.val ∧ win0_9.index t (1 : Fin 2) = 0) :=
  (by decide +kernel : ∀ t : Fin grid0.N, _)

private theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- Input tile 0: block t, read at (p, k), is the array at row 2000 t + p. -/
private theorem blk0_apply (c : Dev nD) (t : Fin cfg0.N) (p : Fin 2000) (k : Fin 128) (r : Fin 100000)
    (hr : r.val = 2000 * t.val + p.val) :
    (iblk0 V c 0 t : S2000x128.Idx → EReal) (ix2 p k) = (V c main_v27 : S100000x128.Idx → EReal) (ix2 r k) := by
  unfold iblk0
  rw [View.read_apply]
  show (V c main_v27 : S100000x128.Idx → EReal) _ = _
  refine congrArg _ (funext fun a => Fin.ext ?_)
  have e := (idx_rows t).1
  match a with
  | ⟨0, _⟩ => show win0_0.index t (0 : Fin 2) * 2000 + 1 * p.val = r.val; rw [e.1]; omega
  | ⟨1, _⟩ => show win0_0.index t (1 : Fin 2) * 128 + 1 * k.val = k.val; rw [e.2]; omega

/-- Input tile 1: block t, read at (p, k), is the array at row 2000 t + p. -/
private theorem blk1_apply (c : Dev nD) (t : Fin cfg0.N) (p : Fin 2000) (k : Fin 128) (r : Fin 100000)
    (hr : r.val = 2000 * t.val + p.val) :
    (iblk0 V c 1 t : S2000x128.Idx → EReal) (ix2 p k) = (V c main_v39 : S100000x128.Idx → EReal) (ix2 r k) := by
  unfold iblk0
  rw [View.read_apply]
  show (V c main_v39 : S100000x128.Idx → EReal) _ = _
  refine congrArg _ (funext fun a => Fin.ext ?_)
  have e := (idx_rows t).2.1
  match a with
  | ⟨0, _⟩ => show win0_1.index t (0 : Fin 2) * 2000 + 1 * p.val = r.val; rw [e.1]; omega
  | ⟨1, _⟩ => show win0_1.index t (1 : Fin 2) * 128 + 1 * k.val = k.val; rw [e.2]; omega

/-- Input tile 2: block t, read at (p, k), is the array at row 2000 t + p. -/
private theorem blk2_apply (c : Dev nD) (t : Fin cfg0.N) (p : Fin 2000) (k : Fin 128) (r : Fin 100000)
    (hr : r.val = 2000 * t.val + p.val) :
    (iblk0 V c 2 t : S2000x128.Idx → EReal) (ix2 p k) = (V c main_arg0 : S100000x128.Idx → EReal) (ix2 r k) := by
  unfold iblk0
  rw [View.read_apply]
  show (V c main_arg0 : S100000x128.Idx → EReal) _ = _
  refine congrArg _ (funext fun a => Fin.ext ?_)
  have e := (idx_rows t).2.2.1
  match a with
  | ⟨0, _⟩ => show win0_2.index t (0 : Fin 2) * 2000 + 1 * p.val = r.val; rw [e.1]; omega
  | ⟨1, _⟩ => show win0_2.index t (1 : Fin 2) * 128 + 1 * k.val = k.val; rw [e.2]; omega

/-- A weight's one block is the weight. -/
private theorem blk3_apply (c : Dev nD) (t : Fin cfg0.N) (k q : Fin 128) :
    (iblk0 V c 3 t : S128x128.Idx → EReal) (ix2 k q) = (V c main_v40 : S128x128.Idx → EReal) (ix2 k q) := by
  unfold iblk0
  rw [View.read_apply]
  show (V c main_v40 : S128x128.Idx → EReal) _ = _
  refine congrArg _ (funext fun a => Fin.ext ?_)
  have e := (idx_whole t).1
  match a with
  | ⟨0, _⟩ => show win0_3.index t (0 : Fin 2) * 128 + 1 * k.val = k.val; rw [e.1]; omega
  | ⟨1, _⟩ => show win0_3.index t (1 : Fin 2) * 128 + 1 * q.val = q.val; rw [e.2]; omega

/-- A weight's one block is the weight. -/
private theorem blk5_apply (c : Dev nD) (t : Fin cfg0.N) (k q : Fin 128) :
    (iblk0 V c 5 t : S128x128.Idx → EReal) (ix2 k q) = (V c main_v41 : S128x128.Idx → EReal) (ix2 k q) := by
  unfold iblk0
  rw [View.read_apply]
  show (V c main_v41 : S128x128.Idx → EReal) _ = _
  refine congrArg _ (funext fun a => Fin.ext ?_)
  have e := (idx_whole t).2.2.1
  match a with
  | ⟨0, _⟩ => show win0_5.index t (0 : Fin 2) * 128 + 1 * k.val = k.val; rw [e.1]; omega
  | ⟨1, _⟩ => show win0_5.index t (1 : Fin 2) * 128 + 1 * q.val = q.val; rw [e.2]; omega

/-- A weight's one block is the weight. -/
private theorem blk7_apply (c : Dev nD) (t : Fin cfg0.N) (k q : Fin 128) :
    (iblk0 V c 7 t : S128x128.Idx → EReal) (ix2 k q) = (V c main_v42 : S128x128.Idx → EReal) (ix2 k q) := by
  unfold iblk0
  rw [View.read_apply]
  show (V c main_v42 : S128x128.Idx → EReal) _ = _
  refine congrArg _ (funext fun a => Fin.ext ?_)
  have e := (idx_whole t).2.2.2.2.1
  match a with
  | ⟨0, _⟩ => show win0_7.index t (0 : Fin 2) * 128 + 1 * k.val = k.val; rw [e.1]; omega
  | ⟨1, _⟩ => show win0_7.index t (1 : Fin 2) * 128 + 1 * q.val = q.val; rw [e.2]; omega

/-- A bias row's one block is the row. -/
private theorem blk4_apply (c : Dev nD) (t : Fin cfg0.N) (q : Fin 128) :
    (iblk0 V c 4 t : S1x128.Idx → EReal) (ix2 0 q) = (V c main_v43 : S1x128.Idx → EReal) (ix2 0 q) := by
  unfold iblk0
  rw [View.read_apply]
  show (V c main_v43 : S1x128.Idx → EReal) _ = _
  refine congrArg _ (funext fun a => Fin.ext ?_)
  have e := (idx_whole t).2.1
  match a with
  | ⟨0, _⟩ => show win0_4.index t (0 : Fin 2) * 1 + 1 * 0 = 0; rw [e.1]
  | ⟨1, _⟩ => show win0_4.index t (1 : Fin 2) * 128 + 1 * q.val = q.val; rw [e.2]; omega

/-- A bias row's one block is the row. -/
private theorem blk6_apply (c : Dev nD) (t : Fin cfg0.N) (q : Fin 128) :
    (iblk0 V c 6 t : S1x128.Idx → EReal) (ix2 0 q) = (V c main_v44 : S1x128.Idx → EReal) (ix2 0 q) := by
  unfold iblk0
  rw [View.read_apply]
  show (V c main_v44 : S1x128.Idx → EReal) _ = _
  refine congrArg _ (funext fun a => Fin.ext ?_)
  have e := (idx_whole t).2.2.2.1
  match a with
  | ⟨0, _⟩ => show win0_6.index t (0 : Fin 2) * 1 + 1 * 0 = 0; rw [e.1]
  | ⟨1, _⟩ => show win0_6.index t (1 : Fin 2) * 128 + 1 * q.val = q.val; rw [e.2]; omega

/-- A bias row's one block is the row. -/
private theorem blk8_apply (c : Dev nD) (t : Fin cfg0.N) (q : Fin 128) :
    (iblk0 V c 8 t : S1x128.Idx → EReal) (ix2 0 q) = (V c main_v45 : S1x128.Idx → EReal) (ix2 0 q) := by
  unfold iblk0
  rw [View.read_apply]
  show (V c main_v45 : S1x128.Idx → EReal) _ = _
  refine congrArg _ (funext fun a => Fin.ext ?_)
  have e := (idx_whole t).2.2.2.2.2.1
  match a with
  | ⟨0, _⟩ => show win0_8.index t (0 : Fin 2) * 1 + 1 * 0 = 0; rw [e.1]
  | ⟨1, _⟩ => show win0_8.index t (1 : Fin 2) * 128 + 1 * q.val = q.val; rw [e.2]; omega

/-! ## The tile of a point is its 2000 rows of the array -/

/-- The tile at point t, read at (p, q), is the array at row 2000 t + p and column q. -/
private theorem hTile_apply (c : Dev nD) (t : Fin cfg0.N) (p : Fin 2000) (q : Fin 128) (r : Fin 100000)
    (hr : r.val = 2000 * t.val + p.val) :
    (hTile V c t : S2000x128.Idx → EReal) (ix2 p q) = hK V c r q := by
  unfold hTile projO projI projS
  rw [pay1_apply, pay6_apply, pay7_apply, pay8_apply]
  unfold hK affine3
  simp only [blk0_apply V c t p _ r hr, blk1_apply V c t p _ r hr, blk2_apply V c t p _ r hr, blk3_apply, blk5_apply,
    blk7_apply, blk4_apply, blk6_apply, blk8_apply]

/-! ## The tile array after the region -/

/-- The array h as contents of the tile output's array. -/
private def hArr (c : Dev nD) : S100000x128.Idx → EReal := fun i => hK V c (i 0) (i 1)

/-- What point t writes back to the tile array is block t of h. -/
private theorem flushed9_eq (c : Dev nD) (t : Fin cfg0.N) :
    (dat0 (F := Ideal) V c).flushed 9 t = ((cfg0.win 9).blk t).view.read (Elt Ideal) (hArr V c) := by
  show (cfg0.win 9).cut (grid0.coords t) ((dat0 (F := Ideal) V c).after 9 t) = _
  rw [after0_9]
  funext j
  obtain ⟨p, q, rfl⟩ : ∃ (p : Fin 2000) (q : Fin 128), j = ix2 p q := ⟨j 0, j 1, eq_ix2 j⟩
  rw [View.read_apply]
  have hN : cfg0.N = 50 := N_0
  have ht : t.val < cfg0.N := t.isLt
  have e := (idx_rows t).2.2.2
  have h1 : ((cfg0.win 9).blk t).view.emb (ix2 p q) = ix2 (⟨2000 * t.val + p.val, by omega⟩ : Fin 100000) q :=
    funext fun a => Fin.ext (by
      match a with
      | ⟨0, _⟩ => show win0_9.index t (0 : Fin 2) * 2000 + 1 * p.val = 2000 * t.val + p.val; rw [e.1]; omega
      | ⟨1, _⟩ => show win0_9.index t (1 : Fin 2) * 128 + 1 * q.val = q.val; rw [e.2]; omega)
  show (hTile V c t : S2000x128.Idx → EReal) (ix2 p q) = hArr V c (((cfg0.win 9).blk t).view.emb (ix2 p q))
  rw [h1]
  exact hTile_apply V c t p q _ rfl

/-- An entry of the tile array is in point t's block iff each coordinate is in the block's range. -/
private theorem mem_blk9 (t : Fin cfg0.N) (i : S100000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v46_0).slice (win0_9.rect t)).set ↔ _
  rw [View.set_slice_whole, Rect.mem_set_unit]
  exact Iff.rfl

/-- Row r of the tile array is in the block of point r / 2000. -/
private theorem cover9 (i : S100000x128.Idx) :
    ∃ t : Fin cfg0.N, (cfg0.win 9).flush t = true ∧ i ∈ ((cfg0.win 9).blk t).view.set := by
  have hN : cfg0.N = 50 := N_0
  have hi0 : (i 0).val < 100000 := (i 0).isLt
  have hi1 : (i 1).val < 128 := (i 1).isLt
  refine ⟨⟨(i 0).val / 2000, by omega⟩, flush0_9 _, ?_⟩
  rw [mem_blk9]
  have e := (idx_rows ⟨(i 0).val / 2000, by omega⟩).2.2.2
  intro a
  match a with
  | ⟨0, _⟩ =>
    show win0_9.index _ (0 : Fin 2) * 2000 ≤ (i 0).val ∧ (i 0).val < win0_9.index _ (0 : Fin 2) * 2000 + 2000
    rw [e.1]; dsimp only; omega
  | ⟨1, _⟩ =>
    show win0_9.index _ (1 : Fin 2) * 128 ≤ (i 1).val ∧ (i 1).val < win0_9.index _ (1 : Fin 2) * 128 + 128
    rw [e.2]; omega

/-- The tile array ends holding h. -/
private theorem proj_final (c : Dev nD) : (dat0 (F := Ideal) V c).arrAt 9 cfg0.N = hArr V c :=
  (dat0 (F := Ideal) V c).arrAt_eq_of_cover 9 (hArr V c) (fun t _ => flushed9_eq V c t) cover9

/-! ## The running rows -/

/-- The sum of a function of the row over block t's 2000 rows (zero past the fiftieth block). -/
private def blockSum (f : Fin 100000 → EReal) (t : ℕ) : EReal :=
  if h : t < 50 then ∑ p : Fin 2000, f ⟨2000 * t + p.val, by have := p.isLt; omega⟩ else 0

/-- The column sums of the tile at point t are h's sums over block t. -/
private theorem tile_colsum (c : Dev nD) (t : Fin cfg0.N) (q : Fin 128) :
    ∑ p : Fin 2000, (hTile V c t : S2000x128.Idx → EReal) (ix2 p q) = blockSum (fun r => hK V c r q) t.val := by
  have hN : cfg0.N = 50 := N_0
  have ht : t.val < 50 := by have := t.isLt; omega
  unfold blockSum
  rw [dif_pos ht]
  exact Finset.sum_congr rfl fun p _ => hTile_apply V c t p q _ rfl

/-- Likewise for the squares. -/
private theorem tile_colsumsq (c : Dev nD) (t : Fin cfg0.N) (q : Fin 128) :
    ∑ p : Fin 2000, (hTile V c t : S2000x128.Idx → EReal) (ix2 p q) * (hTile V c t : S2000x128.Idx → EReal) (ix2 p q)
      = blockSum (fun r => hK V c r q * hK V c r q) t.val := by
  have hN : cfg0.N = 50 := N_0
  have ht : t.val < 50 := by have := t.isLt; omega
  unfold blockSum
  rw [dif_pos ht]
  exact Finset.sum_congr rfl fun p _ =>
    congrArg₂ (· * ·) (hTile_apply V c t p q _ rfl) (hTile_apply V c t p q _ rfl)

/-- The first running row after point n: h's column sums over the blocks up to n. -/
private theorem sums1_apply (c : Dev nD) (q : Fin 128) : ∀ (n : ℕ) (h : n < cfg0.N),
    ((sums V c n h).1 : S1x128.Idx → EReal) (ix2 0 q) = ∑ t ∈ Finset.range (n + 1), blockSum (fun r => hK V c r q) t
  | 0, h => by
    show (k0_pay2 (projO V c ⟨0, h⟩) (projI V c ⟨0, h⟩) (projS V c ⟨0, h⟩) (k0_pay4 (F := Ideal)) : S1x128.Idx → EReal)
      (ix2 0 q) = _
    rw [pay2_apply, pay4_apply, zero_add, Finset.sum_range_one]
    exact tile_colsum V c ⟨0, h⟩ q
  | n + 1, h => by
    show (k0_pay2 (projO V c ⟨n + 1, h⟩) (projI V c ⟨n + 1, h⟩) (projS V c ⟨n + 1, h⟩)
      (sums V c n (Nat.lt_of_succ_lt h)).1 : S1x128.Idx → EReal) (ix2 0 q) = _
    rw [pay2_apply, sums1_apply c q n, Finset.sum_range_succ _ (n + 1)]
    exact congrArg (_ + ·) (tile_colsum V c ⟨n + 1, h⟩ q)

/-- The second running row after point n: the column sums of h's squares over the blocks up to n. -/
private theorem sums2_apply (c : Dev nD) (q : Fin 128) : ∀ (n : ℕ) (h : n < cfg0.N),
    ((sums V c n h).2 : S1x128.Idx → EReal) (ix2 0 q)
      = ∑ t ∈ Finset.range (n + 1), blockSum (fun r => hK V c r q * hK V c r q) t
  | 0, h => by
    show (k0_pay3 (projO V c ⟨0, h⟩) (projI V c ⟨0, h⟩) (projS V c ⟨0, h⟩) (k0_pay5 (F := Ideal)) : S1x128.Idx → EReal)
      (ix2 0 q) = _
    rw [pay3_apply, pay5_apply, zero_add, Finset.sum_range_one]
    exact tile_colsumsq V c ⟨0, h⟩ q
  | n + 1, h => by
    show (k0_pay3 (projO V c ⟨n + 1, h⟩) (projI V c ⟨n + 1, h⟩) (projS V c ⟨n + 1, h⟩)
      (sums V c n (Nat.lt_of_succ_lt h)).2 : S1x128.Idx → EReal) (ix2 0 q) = _
    rw [pay3_apply, sums2_apply c q n, Finset.sum_range_succ _ (n + 1)]
    exact congrArg (_ + ·) (tile_colsumsq V c ⟨n + 1, h⟩ q)

/-- The block sums over the fifty blocks add up to the sum over all rows. -/
private theorem sum_blockSum (f : Fin 100000 → EReal) : ∑ t ∈ Finset.range 50, blockSum f t = ∑ r, f r := by
  rw [sum_blocks f, Finset.sum_range]
  refine Finset.sum_congr rfl fun t _ => ?_
  unfold blockSum
  rw [dif_pos t.isLt]

/-! ## The two row arrays after the region -/

/-- The last point of the grid. -/
private abbrev tLast : Fin cfg0.N := ⟨49, by rw [show cfg0.N = 50 from N_0]; decide⟩

/-- The first running row after the last point, as contents of its output array (whose one block is the array). -/
private abbrev row10 (c : Dev nD) : S1x128.Idx → EReal := (sums V c 49 (by rw [show cfg0.N = 50 from N_0]; decide)).1

/-- The one write-back, at the last point, writes it. -/
private theorem flushed10_eq (c : Dev nD) (t : Fin cfg0.N) (hf : (cfg0.win 10).flush t = true) :
    (dat0 (F := Ideal) V c).flushed 10 t = ((cfg0.win 10).blk t).view.read (Elt Ideal) (row10 V c) := by
  have hN : cfg0.N = 50 := N_0
  have h49 : t.val = 49 := by have := (flush0_10 t).mp hf; have := t.isLt; omega
  obtain rfl : t = tLast := Fin.ext h49
  show (cfg0.win 10).cut (grid0.coords tLast) ((dat0 (F := Ideal) V c).after 10 tLast) = _
  rw [after0_10]
  have e := (idx_whole tLast).2.2.2.2.2.2.1
  have hz : (fun a => win0_10.index tLast a * main_v46_1.ty.shape.size a) = fun _ => 0 := funext fun a => by
    match a with
    | ⟨0, _⟩ => show win0_10.index tLast (0 : Fin 2) * 1 = 0; rw [e.1]
    | ⟨1, _⟩ => show win0_10.index tLast (1 : Fin 2) * 128 = 0; rw [e.2]
  exact (Memref.read_access_unit_zero (Elt Ideal) main_v46_1 hz (fun a => by rw [congrFun hz a]; simp) (row10 V c)).symm

/-- An entry of the row array is in a point's block iff each coordinate is in the block's range. -/
private theorem mem_blk10 (t : Fin cfg0.N) (i : S1x128.Idx) :
    i ∈ ((cfg0.win 10).blk t).view.set ↔ ∀ a : Fin 2, win0_10.index t a * S1x128.size a ≤ (i a).val
      ∧ (i a).val < win0_10.index t a * S1x128.size a + S1x128.size a := by
  show i ∈ ((View.whole main_v46_1).slice (win0_10.rect t)).set ↔ _
  rw [View.set_slice_whole, Rect.mem_set_unit]
  exact Iff.rfl

/-- So the row array ends holding it: the last point's block covers the array. -/
private theorem row10_final (c : Dev nD) : (dat0 (F := Ideal) V c).arrAt 10 cfg0.N = row10 V c :=
  (dat0 (F := Ideal) V c).arrAt_eq_of_cover 10 (row10 V c) (flushed10_eq V c) fun i =>
    ⟨tLast, (flush0_10 tLast).mpr rfl, by
      rw [mem_blk10]
      have h0 : (i 0).val < 1 := (i 0).isLt
      have h1 : (i 1).val < 128 := (i 1).isLt
      have e := (idx_whole tLast).2.2.2.2.2.2.1
      intro a
      match a with
      | ⟨0, _⟩ =>
        show win0_10.index tLast (0 : Fin 2) * 1 ≤ (i 0).val ∧ (i 0).val < win0_10.index tLast (0 : Fin 2) * 1 + 1
        rw [e.1]; omega
      | ⟨1, _⟩ =>
        show win0_10.index tLast (1 : Fin 2) * 128 ≤ (i 1).val ∧ (i 1).val < win0_10.index tLast (1 : Fin 2) * 128 + 128
        rw [e.2]; omega⟩

/-- The second running row after the last point, as contents of its output array (whose one block is the array). -/
private abbrev row11 (c : Dev nD) : S1x128.Idx → EReal := (sums V c 49 (by rw [show cfg0.N = 50 from N_0]; decide)).2

/-- The one write-back, at the last point, writes it. -/
private theorem flushed11_eq (c : Dev nD) (t : Fin cfg0.N) (hf : (cfg0.win 11).flush t = true) :
    (dat0 (F := Ideal) V c).flushed 11 t = ((cfg0.win 11).blk t).view.read (Elt Ideal) (row11 V c) := by
  have hN : cfg0.N = 50 := N_0
  have h49 : t.val = 49 := by have := (flush0_11 t).mp hf; have := t.isLt; omega
  obtain rfl : t = tLast := Fin.ext h49
  show (cfg0.win 11).cut (grid0.coords tLast) ((dat0 (F := Ideal) V c).after 11 tLast) = _
  rw [after0_11]
  have e := (idx_whole tLast).2.2.2.2.2.2.2
  have hz : (fun a => win0_11.index tLast a * main_v46_2.ty.shape.size a) = fun _ => 0 := funext fun a => by
    match a with
    | ⟨0, _⟩ => show win0_11.index tLast (0 : Fin 2) * 1 = 0; rw [e.1]
    | ⟨1, _⟩ => show win0_11.index tLast (1 : Fin 2) * 128 = 0; rw [e.2]
  exact (Memref.read_access_unit_zero (Elt Ideal) main_v46_2 hz (fun a => by rw [congrFun hz a]; simp) (row11 V c)).symm

/-- An entry of the row array is in a point's block iff each coordinate is in the block's range. -/
private theorem mem_blk11 (t : Fin cfg0.N) (i : S1x128.Idx) :
    i ∈ ((cfg0.win 11).blk t).view.set ↔ ∀ a : Fin 2, win0_11.index t a * S1x128.size a ≤ (i a).val
      ∧ (i a).val < win0_11.index t a * S1x128.size a + S1x128.size a := by
  show i ∈ ((View.whole main_v46_2).slice (win0_11.rect t)).set ↔ _
  rw [View.set_slice_whole, Rect.mem_set_unit]
  exact Iff.rfl

/-- So the row array ends holding it: the last point's block covers the array. -/
private theorem row11_final (c : Dev nD) : (dat0 (F := Ideal) V c).arrAt 11 cfg0.N = row11 V c :=
  (dat0 (F := Ideal) V c).arrAt_eq_of_cover 11 (row11 V c) (flushed11_eq V c) fun i =>
    ⟨tLast, (flush0_11 tLast).mpr rfl, by
      rw [mem_blk11]
      have h0 : (i 0).val < 1 := (i 0).isLt
      have h1 : (i 1).val < 128 := (i 1).isLt
      have e := (idx_whole tLast).2.2.2.2.2.2.2
      intro a
      match a with
      | ⟨0, _⟩ =>
        show win0_11.index tLast (0 : Fin 2) * 1 ≤ (i 0).val ∧ (i 0).val < win0_11.index tLast (0 : Fin 2) * 1 + 1
        rw [e.1]; omega
      | ⟨1, _⟩ =>
        show win0_11.index tLast (1 : Fin 2) * 128 ≤ (i 1).val ∧ (i 1).val < win0_11.index tLast (1 : Fin 2) * 128 + 128
        rw [e.2]; omega⟩

/-- The tile array after the region, read at a row and a column. -/
theorem proj_final_apply (c : Dev nD) (r : Fin 100000) (q : Fin 128) :
    ((dat0 (F := Ideal) V c).arrAt 9 cfg0.N : S100000x128.Idx → EReal) (ix2 r q) = hK V c r q := by
  rw [proj_final]
  rfl

/-- The first row array after the region: the column sums of `h`. -/
theorem sum_final_apply (c : Dev nD) (q : Fin 128) :
    ((dat0 (F := Ideal) V c).arrAt 10 cfg0.N : S1x128.Idx → EReal) (ix2 0 q) = colSum (hK V c) q := by
  rw [row10_final]
  show ((sums V c 49 _).1 : S1x128.Idx → EReal) (ix2 0 q) = _
  rw [sums1_apply V c q 49 _]
  exact sum_blockSum fun r => hK V c r q

/-- The second row array after the region: the column sums of the squares of `h`. -/
theorem sumsq_final_apply (c : Dev nD) (q : Fin 128) :
    ((dat0 (F := Ideal) V c).arrAt 11 cfg0.N : S1x128.Idx → EReal) (ix2 0 q) = colSum (fun r q => hK V c r q * hK V c r q) q := by
  rw [row11_final]
  show ((sums V c 49 _).2 : S1x128.Idx → EReal) (ix2 0 q) = _
  rw [sums2_apply V c q 49 _]
  exact sum_blockSum fun r => hK V c r q * hK V c r q

end Cert.KernelIdeal.Hand

end
-- ==== Proof.RefSide.lean ====
/-
  The reference program's result, read at a row and a column at the ideal values.

  At the ideal instance a float is an extended real and every operation is exact. The two segment means are kept
  as two functions of the arguments; everything after them is read here index by index: three affine projections
  added up and divided by three, the column means, the mean squared deviation, and the normalisation.
-/
import proofs.«114364_j944892805204_1_alg».proof.Defs
import proofs.«114364_j944892805204_1_alg».proof.Proof.Gen.ReferenceIdeal
import proofs.«114364_j944892805204_1_alg».proof.Proof.Gen.ReferenceIdeal.Run
import proofs.«114364_j944892805204_1_alg».proof.Proof.Gen.ReferenceIdeal.Read
import proofs.«114364_j944892805204_1_alg».proof.Proof.Spec
import proofs.«114364_j944892805204_1_alg».proof.Proof.Consts

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2)
open scoped BigOperators

/-! ## The two segment means, as functions of the arguments -/

/-- The mean of the messages arriving at a node over the original graph: a function of the node and edge
    embeddings and of the two index arrays. -/
abbrev hoR (x0 : (⟨S100000x128, .f32⟩ : BufTy).Contents (Elt Ideal)) (x1 : (⟨S600000x128, .f32⟩ : BufTy).Contents (Elt Ideal)) (x10 x11 : (⟨S600000, .i32⟩ : BufTy).Contents (Elt Ideal)) : (⟨S100000x128, .f32⟩ : BufTy).Contents (Elt Ideal) :=
  val_main_v19 (F := Ideal) x0 x1 x10 x11

/-- The same mean over the reversed graph. -/
abbrev hiR (x0 : (⟨S100000x128, .f32⟩ : BufTy).Contents (Elt Ideal)) (x1 : (⟨S600000x128, .f32⟩ : BufTy).Contents (Elt Ideal)) (x10 x11 : (⟨S600000, .i32⟩ : BufTy).Contents (Elt Ideal)) : (⟨S100000x128, .f32⟩ : BufTy).Contents (Elt Ideal) :=
  val_main_v39 (F := Ideal) x0 x1 x10 x11

/-- The node's value before normalisation: the three affine projections added up, divided by three. The weights are
    read as (output column, input column), which is what contracting with the transposed weight reads. -/
def hR (x0 : (⟨S100000x128, .f32⟩ : BufTy).Contents (Elt Ideal)) (x1 : (⟨S600000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 x11 : (⟨S600000, .i32⟩ : BufTy).Contents (Elt Ideal)) : Cert.GraphNorm.Mat 100000 128 := fun r q =>
  Ideal.div (Cert.GraphNorm.affine3 (fun r k => hoR x0 x1 x10 x11 (ix2 r k)) (fun r k => hiR x0 x1 x10 x11 (ix2 r k)) (fun r k => x0 (ix2 r k))
    (fun q k => x2 (ix2 q k)) (fun q k => x4 (ix2 q k)) (fun q k => x6 (ix2 q k))
    (fun q => x3 (ix1 q)) (fun q => x5 (ix1 q)) (fun q => x7 (ix1 q)) r q) ((3 : ℝ) : EReal)

/-! ## Index equations: where each stage reads its operand -/

/-- A contraction's left operand is read at (row, k). -/
private theorem lidx41 (r : Fin 100000) (q k : Fin 128) : lidx_main_v41 (ix2 r q) k = ix2 r k :=
  funext fun a => Fin.ext (by match a with | ⟨0, _⟩ => rfl | ⟨1, _⟩ => rfl)
private theorem lidx46 (r : Fin 100000) (q k : Fin 128) : lidx_main_v46 (ix2 r q) k = ix2 r k :=
  funext fun a => Fin.ext (by match a with | ⟨0, _⟩ => rfl | ⟨1, _⟩ => rfl)
private theorem lidx52 (r : Fin 100000) (q k : Fin 128) : lidx_main_v52 (ix2 r q) k = ix2 r k :=
  funext fun a => Fin.ext (by match a with | ⟨0, _⟩ => rfl | ⟨1, _⟩ => rfl)

/-- The transposed weight at (k, column) is the weight at (column, k). -/
private theorem ridx41 (r : Fin 100000) (q k : Fin 128) : idx_main_v40 (ridx_main_v41 (ix2 r q) k) = ix2 q k :=
  funext fun a => Fin.ext (by match a with | ⟨0, _⟩ => rfl | ⟨1, _⟩ => rfl)
private theorem ridx46 (r : Fin 100000) (q k : Fin 128) : idx_main_v45 (ridx_main_v46 (ix2 r q) k) = ix2 q k :=
  funext fun a => Fin.ext (by match a with | ⟨0, _⟩ => rfl | ⟨1, _⟩ => rfl)
private theorem ridx52 (r : Fin 100000) (q k : Fin 128) : idx_main_v51 (ridx_main_v52 (ix2 r q) k) = ix2 q k :=
  funext fun a => Fin.ext (by match a with | ⟨0, _⟩ => rfl | ⟨1, _⟩ => rfl)

/-- A vector broadcast along the rows is read at the column. -/
private theorem col43 (r : Fin 100000) (q : Fin 128) : idx_main_v42 (idx_main_v43 (ix2 r q)) = ix1 q :=
  funext fun a => Fin.ext (by match a with | ⟨0, _⟩ => rfl)
private theorem col48 (r : Fin 100000) (q : Fin 128) : idx_main_v47 (idx_main_v48 (ix2 r q)) = ix1 q :=
  funext fun a => Fin.ext (by match a with | ⟨0, _⟩ => rfl)
private theorem col54 (r : Fin 100000) (q : Fin 128) : idx_main_v53 (idx_main_v54 (ix2 r q)) = ix1 q :=
  funext fun a => Fin.ext (by match a with | ⟨0, _⟩ => rfl)
private theorem col63 (r : Fin 100000) (q : Fin 128) : idx_main_v62 (idx_main_v63 (ix2 r q)) = ix1 q :=
  funext fun a => Fin.ext (by match a with | ⟨0, _⟩ => rfl)
private theorem col70 (r : Fin 100000) (q : Fin 128) : idx_main_v69 (idx_main_v70 (ix2 r q)) = ix1 q :=
  funext fun a => Fin.ext (by match a with | ⟨0, _⟩ => rfl)
private theorem col76 (r : Fin 100000) (q : Fin 128) : idx_main_v75 (idx_main_v76 (ix2 r q)) = ix1 q :=
  funext fun a => Fin.ext (by match a with | ⟨0, _⟩ => rfl)
private theorem col79 (r : Fin 100000) (q : Fin 128) : idx_main_v78 (idx_main_v79 (ix2 r q)) = ix1 q :=
  funext fun a => Fin.ext (by match a with | ⟨0, _⟩ => rfl)
private theorem col82 (r : Fin 100000) (q : Fin 128) : idx_main_v81 (idx_main_v82 (ix2 r q)) = ix1 q :=
  funext fun a => Fin.ext (by match a with | ⟨0, _⟩ => rfl)

/-- A sum down a column reads (k, column). -/
private theorem row59 (q : Fin 128) (k : Fin 100000) : idx_main_v59 (ix1 q) k = ix2 k q :=
  funext fun a => Fin.ext (by match a with | ⟨0, _⟩ => rfl | ⟨1, _⟩ => rfl)
private theorem row66 (q : Fin 128) (k : Fin 100000) : idx_main_v66 (ix1 q) k = ix2 k q :=
  funext fun a => Fin.ext (by match a with | ⟨0, _⟩ => rfl | ⟨1, _⟩ => rfl)

/-! ## The stages, read at a row and a column -/

/-- The value before normalisation is `hR`. -/
theorem h_apply (x0 : (⟨S100000x128, .f32⟩ : BufTy).Contents (Elt Ideal)) (x1 : (⟨S600000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 x11 : (⟨S600000, .i32⟩ : BufTy).Contents (Elt Ideal)) (r : Fin 100000) (q : Fin 128) :
    val_main_v58 (F := Ideal) x0 x1 x2 x3 x4 x5 x6 x7 x10 x11 (ix2 r q) = hR x0 x1 x2 x3 x4 x5 x6 x7 x10 x11 r q := by
  rw [val_main_v58_apply, val_main_v56_apply, val_main_v50_apply, val_main_v44_apply, val_main_v49_apply, val_main_v55_apply,
    val_main_v41_apply, val_main_v46_apply, val_main_v52_apply, val_main_v43_apply, val_main_v42_apply, val_main_v48_apply,
    val_main_v47_apply, val_main_v54_apply, val_main_v53_apply, val_main_v57_apply, val_main_cst_10_apply]
  simp only [val_main_v40_apply, val_main_v45_apply, val_main_v51_apply, lidx41, lidx46, lidx52, ridx41, ridx46, ridx52,
    col43, col48, col54, Ideal.addf_def, Ideal.hostDivf_def, Ideal.ofBits_def, Cert.Consts.ofBits_three]
  rfl

/-- The column mean: the host's sum starts from the zero word. -/
theorem mean_apply (x0 : (⟨S100000x128, .f32⟩ : BufTy).Contents (Elt Ideal)) (x1 : (⟨S600000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 x11 : (⟨S600000, .i32⟩ : BufTy).Contents (Elt Ideal)) (q : Fin 128) :
    val_main_v61 (F := Ideal) x0 x1 x2 x3 x4 x5 x6 x7 x10 x11 (ix1 q) = Cert.GraphNorm.mean ((100000 : ℝ) : EReal) (hR x0 x1 x2 x3 x4 x5 x6 x7 x10 x11) q := by
  rw [val_main_v61_apply, val_main_v59_apply, val_main_v60_apply, val_main_cst_12_apply, val_main_cst_11_apply]
  simp only [row59, h_apply, Ideal.hostDivf_def, Ideal.ofBits_def, Cert.Consts.ofBits_zero, Cert.Consts.ofBits_rows, zero_add]
  rfl

/-- The deviation from the column mean (the program forms it twice). -/
theorem dev64_apply (x0 : (⟨S100000x128, .f32⟩ : BufTy).Contents (Elt Ideal)) (x1 : (⟨S600000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 x11 : (⟨S600000, .i32⟩ : BufTy).Contents (Elt Ideal)) (r : Fin 100000) (q : Fin 128) :
    val_main_v64 (F := Ideal) x0 x1 x2 x3 x4 x5 x6 x7 x10 x11 (ix2 r q)
      = hR x0 x1 x2 x3 x4 x5 x6 x7 x10 x11 r q - Cert.GraphNorm.mean ((100000 : ℝ) : EReal) (hR x0 x1 x2 x3 x4 x5 x6 x7 x10 x11) q := by
  rw [val_main_v64_apply, val_main_v63_apply, val_main_v62_apply, col63, h_apply, mean_apply]
  rfl

theorem dev71_apply (x0 : (⟨S100000x128, .f32⟩ : BufTy).Contents (Elt Ideal)) (x1 : (⟨S600000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 x11 : (⟨S600000, .i32⟩ : BufTy).Contents (Elt Ideal)) (r : Fin 100000) (q : Fin 128) :
    val_main_v71 (F := Ideal) x0 x1 x2 x3 x4 x5 x6 x7 x10 x11 (ix2 r q)
      = hR x0 x1 x2 x3 x4 x5 x6 x7 x10 x11 r q - Cert.GraphNorm.mean ((100000 : ℝ) : EReal) (hR x0 x1 x2 x3 x4 x5 x6 x7 x10 x11) q := by
  rw [val_main_v71_apply, val_main_v70_apply, val_main_v69_apply, col70, h_apply, mean_apply]
  rfl

/-- The variance: the mean of the squared deviations. -/
theorem var_apply (x0 : (⟨S100000x128, .f32⟩ : BufTy).Contents (Elt Ideal)) (x1 : (⟨S600000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 x11 : (⟨S600000, .i32⟩ : BufTy).Contents (Elt Ideal)) (q : Fin 128) :
    val_main_v68 (F := Ideal) x0 x1 x2 x3 x4 x5 x6 x7 x10 x11 (ix1 q) = Cert.GraphNorm.varDev ((100000 : ℝ) : EReal) (hR x0 x1 x2 x3 x4 x5 x6 x7 x10 x11) q := by
  rw [val_main_v68_apply, val_main_v66_apply, val_main_v67_apply, val_main_cst_14_apply, val_main_cst_13_apply]
  simp only [row66, val_main_v65_apply, dev64_apply, Ideal.mulf_def, Ideal.hostDivf_def, Ideal.ofBits_def,
    Cert.Consts.ofBits_zero, Cert.Consts.ofBits_rows, zero_add]
  rfl

/-! ## The result -/

/-- The reference's result at a row and a column is the specification's normalisation of `hR` with the variance
    taken as the mean squared deviation. -/
theorem ref_apply (x0 : (⟨S100000x128, .f32⟩ : BufTy).Contents (Elt Ideal)) (x1 : (⟨S600000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 x11 : (⟨S600000, .i32⟩ : BufTy).Contents (Elt Ideal)) (r : Fin 100000) (q : Fin 128) :
    val_main_v83 (F := Ideal) x0 x1 x2 x3 x4 x5 x6 x7 x8 x9 x10 x11 (ix2 r q)
      = Cert.GraphNorm.normalise ((100000 : ℝ) : EReal) (Ideal.ofBits .f32 0x3727C5AC#32)
          (Cert.GraphNorm.varDev ((100000 : ℝ) : EReal) (hR x0 x1 x2 x3 x4 x5 x6 x7 x10 x11)) (hR x0 x1 x2 x3 x4 x5 x6 x7 x10 x11)
          (fun q => x8 (ix1 q)) (fun q => x9 (ix1 q)) r q := by
  rw [val_main_v83_apply, val_main_v80_apply, val_main_v77_apply, val_main_v76_apply, val_main_v75_apply, val_main_v74_apply,
    val_main_v73_apply, val_main_v72_apply, val_main_cst_15_apply, val_main_v79_apply, val_main_v78_apply, val_main_v82_apply,
    val_main_v81_apply, col76, col79, col82, dev71_apply, var_apply]
  simp only [Ideal.addf_def, Ideal.mulf_def, Ideal.hostUnary_rsqrt_def, Ideal.ofBits_def]
  rfl

/-! ## The run, restated over the last stage -/

/-- Every weakly fair execution of the reference ends with the result array at the last stage of the arguments' launch
    contents, the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (val_main_v83_eq m c), (h c).2⟩)
    (Cert.ReferenceIdeal.Value.run (F := Ideal) m ρ)

end Cert.ReferenceIdeal.Hand

end
-- ==== Proof.IdealRun.HostIn.lean ====
/-
  What the projecting region is entered with, at the ideal values, in terms of the launch memory: the first stretch of
  host operations computes the two segment means, transposes the three weights and turns the three biases into rows;
  the node array is untouched. So the array `h` the region computes from its entry contents is the reference's
  `h` of the arguments: the same three affine projections, scaled by a third where the reference divides by three.
-/
import proofs.«114364_j944892805204_1_alg».proof.Proof.Gen.KernelIdeal.Launch
import proofs.«114364_j944892805204_1_alg».proof.Proof.Gen.KernelIdeal.Skeleton
import proofs.«114364_j944892805204_1_alg».proof.Proof.Gen.KernelIdeal.Points
import proofs.«114364_j944892805204_1_alg».proof.Proof.IdealRun.Chain
import proofs.«114364_j944892805204_1_alg».proof.Proof.RefSide
import proofs.«114364_j944892805204_1_alg».proof.Proof.Spec
import proofs.«114364_j944892805204_1_alg».proof.Proof.Math
import proofs.«114364_j944892805204_1_alg».proof.Proof.Consts
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GraphNorm

variable (m : (ℓ : Loc nD τ sig) → Buf (Elt Ideal) ℓ) (ρ : Dev nD → PrngReg)

/-! ## The buffers the first stretch does not write -/

theorem ent0_arg0 (c : Dev nD) : ent0 m ρ c main_arg0 = (m ((c.tc : Thread nD τ).loc main_arg0)) :=
  (StableHlo.after_of_writes_sub hostOps0 _ hostOps0_writes (by decide)).trans rfl

/-! ## The transposed weights and the bias rows -/

set_option maxHeartbeats 4000000 in
/-- The transposed weight at (k, q) is the weight at (q, k). -/
theorem ent0_v40 (c : Dev nD) (k q : Fin 128) :
    (ent0 m ρ c main_v40 : S128x128.Idx → EReal) (ix2 k q) = ((m ((c.tc : Thread nD τ).loc main_arg2)) : S128x128.Idx → EReal) (ix2 q k) := by
  have h : StableHlo.after hostOps0 (bd0 m ρ c) (Proc.devRef .tc main_v40)
      = transpose S128x128 [1, 0] ((m ((c.tc : Thread nD τ).loc main_arg2))) transposes_S128x128_S128x128_1_0 := by
    after_results <;> rfl
  exact (congrFun h (ix2 k q)).trans (transpose_ix2_apply _ _ k q)

set_option maxHeartbeats 4000000 in
/-- The transposed weight at (k, q) is the weight at (q, k). -/
theorem ent0_v41 (c : Dev nD) (k q : Fin 128) :
    (ent0 m ρ c main_v41 : S128x128.Idx → EReal) (ix2 k q) = ((m ((c.tc : Thread nD τ).loc main_arg4)) : S128x128.Idx → EReal) (ix2 q k) := by
  have h : StableHlo.after hostOps0 (bd0 m ρ c) (Proc.devRef .tc main_v41)
      = transpose S128x128 [1, 0] ((m ((c.tc : Thread nD τ).loc main_arg4))) transposes_S128x128_S128x128_1_0 := by
    after_results <;> rfl
  exact (congrFun h (ix2 k q)).trans (transpose_ix2_apply _ _ k q)

set_option maxHeartbeats 4000000 in
/-- The transposed weight at (k, q) is the weight at (q, k). -/
theorem ent0_v42 (c : Dev nD) (k q : Fin 128) :
    (ent0 m ρ c main_v42 : S128x128.Idx → EReal) (ix2 k q) = ((m ((c.tc : Thread nD τ).loc main_arg6)) : S128x128.Idx → EReal) (ix2 q k) := by
  have h : StableHlo.after hostOps0 (bd0 m ρ c) (Proc.devRef .tc main_v42)
      = transpose S128x128 [1, 0] ((m ((c.tc : Thread nD τ).loc main_arg6))) transposes_S128x128_S128x128_1_0 := by
    after_results <;> rfl
  exact (congrFun h (ix2 k q)).trans (transpose_ix2_apply _ _ k q)

set_option maxHeartbeats 4000000 in
/-- The bias as a row, at column q, is the bias at q. -/
theorem ent0_v43 (c : Dev nD) (q : Fin 128) :
    (ent0 m ρ c main_v43 : S1x128.Idx → EReal) (ix2 0 q) = ((m ((c.tc : Thread nD τ).loc main_arg3)) : S128.Idx → EReal) (ix1 q) := by
  have h : StableHlo.after hostOps0 (bd0 m ρ c) (Proc.devRef .tc main_v43)
      = fun i => shapeCast S1x128 ((m ((c.tc : Thread nD τ).loc main_arg3))) shapeCasts_S128_S1x128 i := by
    after_results <;> rfl
  exact (congrFun h (ix2 0 q)).trans (shapeCast_a_1a_apply _ _ 0 q)

set_option maxHeartbeats 4000000 in
/-- The bias as a row, at column q, is the bias at q. -/
theorem ent0_v44 (c : Dev nD) (q : Fin 128) :
    (ent0 m ρ c main_v44 : S1x128.Idx → EReal) (ix2 0 q) = ((m ((c.tc : Thread nD τ).loc main_arg5)) : S128.Idx → EReal) (ix1 q) := by
  have h : StableHlo.after hostOps0 (bd0 m ρ c) (Proc.devRef .tc main_v44)
      = fun i => shapeCast S1x128 ((m ((c.tc : Thread nD τ).loc main_arg5))) shapeCasts_S128_S1x128 i := by
    after_results <;> rfl
  exact (congrFun h (ix2 0 q)).trans (shapeCast_a_1a_apply _ _ 0 q)

set_option maxHeartbeats 4000000 in
/-- The bias as a row, at column q, is the bias at q. -/
theorem ent0_v45 (c : Dev nD) (q : Fin 128) :
    (ent0 m ρ c main_v45 : S1x128.Idx → EReal) (ix2 0 q) = ((m ((c.tc : Thread nD τ).loc main_arg7)) : S128.Idx → EReal) (ix1 q) := by
  have h : StableHlo.after hostOps0 (bd0 m ρ c) (Proc.devRef .tc main_v45)
      = fun i => shapeCast S1x128 ((m ((c.tc : Thread nD τ).loc main_arg7))) shapeCasts_S128_S1x128 i := by
    after_results <;> rfl
  exact (congrFun h (ix2 0 q)).trans (shapeCast_a_1a_apply _ _ 0 q)

/-! ## The two segment means -/

set_option maxHeartbeats 8000000 in
/-- The mean of the messages arriving over the original graph: the program applies to the arguments the reference's own gather, difference, scatter-sum, count, maximum and quotient, in the same order. -/
theorem ent0_v27 (c : Dev nD) :
    (ent0 m ρ c main_v27 : S100000x128.Idx → EReal)
      = Cert.ReferenceIdeal.Read.val_main_v19 (F := Ideal) (m ((c.tc : Thread nD τ).loc main_arg0)) (m ((c.tc : Thread nD τ).loc main_arg1)) (m ((c.tc : Thread nD τ).loc main_arg10)) (m ((c.tc : Thread nD τ).loc main_arg11)) := by
  show StableHlo.after hostOps0 (bd0 m ρ c) (Proc.devRef .tc main_v27) = _
  simp only [Cert.ReferenceIdeal.Read.val_main_v19, Cert.ReferenceIdeal.Read.val_main_v10, Cert.ReferenceIdeal.Read.val_main_v18, Cert.ReferenceIdeal.Read.val_main_v8, Cert.ReferenceIdeal.Read.val_main_v9, Cert.ReferenceIdeal.Read.val_main_v7, Cert.ReferenceIdeal.Read.val_main_v6, Cert.ReferenceIdeal.Read.val_main_v5, Cert.ReferenceIdeal.Read.val_main_v4, Cert.ReferenceIdeal.Read.val_main_v1, Cert.ReferenceIdeal.Read.val_main_v3, Cert.ReferenceIdeal.Read.val_main_v0, Cert.ReferenceIdeal.Read.val_main_v2, Cert.ReferenceIdeal.Read.val_main_c, Cert.ReferenceIdeal.Read.val_main_c_0, Cert.ReferenceIdeal.Read.val_main_cst, Cert.ReferenceIdeal.Read.val_main_v17, Cert.ReferenceIdeal.Read.val_main_v16, Cert.ReferenceIdeal.Read.val_main_v14, Cert.ReferenceIdeal.Read.val_main_v15, Cert.ReferenceIdeal.Read.val_main_v12, Cert.ReferenceIdeal.Read.val_main_v13, Cert.ReferenceIdeal.Read.val_main_v11, Cert.ReferenceIdeal.Read.val_main_cst_1, Cert.ReferenceIdeal.Read.val_main_cst_2, Cert.ReferenceIdeal.Read.val_main_cst_3]
  after_results
  rfl

set_option maxHeartbeats 8000000 in
/-- The same mean over the reversed graph. -/
theorem ent0_v39 (c : Dev nD) :
    (ent0 m ρ c main_v39 : S100000x128.Idx → EReal)
      = Cert.ReferenceIdeal.Read.val_main_v39 (F := Ideal) (m ((c.tc : Thread nD τ).loc main_arg0)) (m ((c.tc : Thread nD τ).loc main_arg1)) (m ((c.tc : Thread nD τ).loc main_arg10)) (m ((c.tc : Thread nD τ).loc main_arg11)) := by
  show StableHlo.after hostOps0 (bd0 m ρ c) (Proc.devRef .tc main_v39) = _
  simp only [Cert.ReferenceIdeal.Read.val_main_v39, Cert.ReferenceIdeal.Read.val_main_v30, Cert.ReferenceIdeal.Read.val_main_v38, Cert.ReferenceIdeal.Read.val_main_v28, Cert.ReferenceIdeal.Read.val_main_v29, Cert.ReferenceIdeal.Read.val_main_v27, Cert.ReferenceIdeal.Read.val_main_v26, Cert.ReferenceIdeal.Read.val_main_v25, Cert.ReferenceIdeal.Read.val_main_v24, Cert.ReferenceIdeal.Read.val_main_v21, Cert.ReferenceIdeal.Read.val_main_v23, Cert.ReferenceIdeal.Read.val_main_v20, Cert.ReferenceIdeal.Read.val_main_v22, Cert.ReferenceIdeal.Read.val_main_c_4, Cert.ReferenceIdeal.Read.val_main_c_5, Cert.ReferenceIdeal.Read.val_main_cst_6, Cert.ReferenceIdeal.Read.val_main_v37, Cert.ReferenceIdeal.Read.val_main_v36, Cert.ReferenceIdeal.Read.val_main_v34, Cert.ReferenceIdeal.Read.val_main_v35, Cert.ReferenceIdeal.Read.val_main_v32, Cert.ReferenceIdeal.Read.val_main_v33, Cert.ReferenceIdeal.Read.val_main_v31, Cert.ReferenceIdeal.Read.val_main_cst_7, Cert.ReferenceIdeal.Read.val_main_cst_8, Cert.ReferenceIdeal.Read.val_main_cst_9]
  after_results
  rfl

/-- The array the projecting region computes from its entry contents is the reference's `h` of the arguments. -/
theorem hEntry_eq_hR (c : Dev nD) (r : Fin 100000) (q : Fin 128) :
    affine3 (fun r k => (ent0 m ρ c main_v27 : S100000x128.Idx → EReal) (ix2 r k)) (fun r k => (ent0 m ρ c main_v39 : S100000x128.Idx → EReal) (ix2 r k))
        (fun r k => (ent0 m ρ c main_arg0 : S100000x128.Idx → EReal) (ix2 r k))
        (fun q k => (ent0 m ρ c main_v40 : S128x128.Idx → EReal) (ix2 k q)) (fun q k => (ent0 m ρ c main_v41 : S128x128.Idx → EReal) (ix2 k q))
        (fun q k => (ent0 m ρ c main_v42 : S128x128.Idx → EReal) (ix2 k q))
        (fun q => (ent0 m ρ c main_v43 : S1x128.Idx → EReal) (ix2 0 q)) (fun q => (ent0 m ρ c main_v44 : S1x128.Idx → EReal) (ix2 0 q))
        (fun q => (ent0 m ρ c main_v45 : S1x128.Idx → EReal) (ix2 0 q)) r q
      * ((1 / 3 : ℝ) : EReal)
    = Cert.ReferenceIdeal.Hand.hR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) r q := by
  rw [show Cert.ReferenceIdeal.Hand.hR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) r q
      = _ * ((1 / 3 : ℝ) : EReal) from div_three _]
  have e40 : (fun q k : Fin 128 => (ent0 m ρ c main_v40 : S128x128.Idx → EReal) (ix2 k q)) = fun q k => ((m ((c.tc : Thread nD τ).loc main_arg2)) : S128x128.Idx → EReal) (ix2 q k) :=
    funext fun q => funext fun k => ent0_v40 m ρ c k q
  have e41 : (fun q k : Fin 128 => (ent0 m ρ c main_v41 : S128x128.Idx → EReal) (ix2 k q)) = fun q k => ((m ((c.tc : Thread nD τ).loc main_arg4)) : S128x128.Idx → EReal) (ix2 q k) :=
    funext fun q => funext fun k => ent0_v41 m ρ c k q
  have e42 : (fun q k : Fin 128 => (ent0 m ρ c main_v42 : S128x128.Idx → EReal) (ix2 k q)) = fun q k => ((m ((c.tc : Thread nD τ).loc main_arg6)) : S128x128.Idx → EReal) (ix2 q k) :=
    funext fun q => funext fun k => ent0_v42 m ρ c k q
  have e43 : (fun q : Fin 128 => (ent0 m ρ c main_v43 : S1x128.Idx → EReal) (ix2 0 q)) = fun q => ((m ((c.tc : Thread nD τ).loc main_arg3)) : S128.Idx → EReal) (ix1 q) :=
    funext fun q => ent0_v43 m ρ c q
  have e44 : (fun q : Fin 128 => (ent0 m ρ c main_v44 : S1x128.Idx → EReal) (ix2 0 q)) = fun q => ((m ((c.tc : Thread nD τ).loc main_arg5)) : S128.Idx → EReal) (ix1 q) :=
    funext fun q => ent0_v44 m ρ c q
  have e45 : (fun q : Fin 128 => (ent0 m ρ c main_v45 : S1x128.Idx → EReal) (ix2 0 q)) = fun q => ((m ((c.tc : Thread nD τ).loc main_arg7)) : S128.Idx → EReal) (ix1 q) :=
    funext fun q => ent0_v45 m ρ c q
  rw [ent0_v27 m ρ c, ent0_v39 m ρ c, ent0_arg0 m ρ c, e40, e41, e42, e43, e44, e45]

end Cert.KernelIdeal.Hand

end
-- ==== Proof.IdealRun.HostMid.lean ====
/-
  What the normalising region is entered with, at the ideal values, in terms of what the projecting region left: the
  second stretch of host operations divides the two row sums by the row count to get the mean and the mean square,
  takes `rsqrt (meansq - mean² + ε)`, and turns the four vectors (mean, that, γ, β) into rows; the tile array is
  untouched.
-/
import proofs.«114364_j944892805204_1_alg».proof.Proof.Gen.KernelIdeal.Launch
import proofs.«114364_j944892805204_1_alg».proof.Proof.Gen.KernelIdeal.Skeleton
import proofs.«114364_j944892805204_1_alg».proof.Proof.Gen.KernelIdeal.Points
import proofs.«114364_j944892805204_1_alg».proof.Proof.IdealRun.Chain
import proofs.«114364_j944892805204_1_alg».proof.Proof.Spec
import proofs.«114364_j944892805204_1_alg».proof.Proof.Math
import proofs.«114364_j944892805204_1_alg».proof.Proof.Consts
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GraphNorm

variable (m : (ℓ : Loc nD τ sig) → Buf (Elt Ideal) ℓ) (ρ : Dev nD → PrngReg)

/-- The row count as the second stretch spells it. -/
abbrev rows : EReal := ((100000 : ℝ) : EReal)

/-! ## The stretch's vectors -/

/-- The row count, broadcast along the 128 columns. -/
private abbrev rowsV : FVec Ideal S128 .f32 := broadcastInDim S128 ![] bcast_S_S128 (constant (F := Ideal) S_ .f32 0x47C35000#32)
/-- ε, broadcast along the 128 columns. -/
private abbrev epsV : FVec Ideal S128 .f32 := broadcastInDim S128 ![] bcast_S_S128 (constant (F := Ideal) S_ .f32 0x3727C5AC#32)
/-- The mean vector: the first row sum over the row count. -/
private abbrev meanV (c : Dev nD) : FVec Ideal S128 .f32 :=
  Host.divf (shapeCast S128 (bd2 m ρ c (Proc.devRef .tc main_v46_1) : S1x128.Idx → EReal) shapeCasts_S1x128_S128) rowsV
/-- The mean-square vector: the second row sum over the row count. -/
private abbrev meansqV (c : Dev nD) : FVec Ideal S128 .f32 :=
  Host.divf (shapeCast S128 (bd2 m ρ c (Proc.devRef .tc main_v46_2) : S1x128.Idx → EReal) shapeCasts_S1x128_S128) rowsV

private theorem rowsV_apply (q : Fin 128) : rowsV (ix1 q) = rows := Cert.Consts.ofBits_rows
private theorem epsV_apply (q : Fin 128) : epsV (ix1 q) = Ideal.ofBits .f32 0x3727C5AC#32 := rfl

private theorem meanV_apply (c : Dev nD) (q : Fin 128) :
    meanV m ρ c (ix1 q) = Ideal.div ((bd2 m ρ c (Proc.devRef .tc main_v46_1) : S1x128.Idx → EReal) (ix2 0 q)) rows := by
  show Ideal.div (shapeCast S128 (bd2 m ρ c (Proc.devRef .tc main_v46_1) : S1x128.Idx → EReal) shapeCasts_S1x128_S128 (ix1 q)) (rowsV (ix1 q)) = _
  rw [shapeCast_1a_a_apply, rowsV_apply]

private theorem meansqV_apply (c : Dev nD) (q : Fin 128) :
    meansqV m ρ c (ix1 q) = Ideal.div ((bd2 m ρ c (Proc.devRef .tc main_v46_2) : S1x128.Idx → EReal) (ix2 0 q)) rows := by
  show Ideal.div (shapeCast S128 (bd2 m ρ c (Proc.devRef .tc main_v46_2) : S1x128.Idx → EReal) shapeCasts_S1x128_S128 (ix1 q)) (rowsV (ix1 q)) = _
  rw [shapeCast_1a_a_apply, rowsV_apply]

/-! ## What the normalising region is entered with -/

/-- The tile array passes through the second stretch untouched. -/
theorem ent1_tile (c : Dev nD) : ent1 m ρ c main_v46_0 = bd2 m ρ c (Proc.devRef .tc main_v46_0) :=
  StableHlo.after_of_writes_sub hostOps1 _ hostOps1_writes (by decide)

/-- The mean row: the first row sum over the row count. -/
theorem ent1_mean_apply (c : Dev nD) (q : Fin 128) :
    (ent1 m ρ c main_v58 : S1x128.Idx → EReal) (ix2 0 q)
      = Ideal.div ((bd2 m ρ c (Proc.devRef .tc main_v46_1) : S1x128.Idx → EReal) (ix2 0 q)) rows := by
  show StableHlo.after hostOps1 (bd2 m ρ c) (Proc.devRef .tc main_v58) (ix2 0 q) = _
  have h : (StableHlo.after hostOps1 (bd2 m ρ c) (Proc.devRef .tc main_v58) : S1x128.Idx → EReal) =
      shapeCast S1x128 (meanV m ρ c) shapeCasts_S128_S1x128 := by
    after_results; rfl
  rw [h, shapeCast_a_1a_apply, meanV_apply]

set_option maxHeartbeats 4000000 in
/-- The scale row: `rsqrt` of the second row sum over the row count, minus the squared mean, plus ε. -/
theorem ent1_rstd_apply (c : Dev nD) (q : Fin 128) :
    (ent1 m ρ c main_v59 : S1x128.Idx → EReal) (ix2 0 q)
      = Ideal.rsqrt (Ideal.div ((bd2 m ρ c (Proc.devRef .tc main_v46_2) : S1x128.Idx → EReal) (ix2 0 q)) rows
            - Ideal.div ((bd2 m ρ c (Proc.devRef .tc main_v46_1) : S1x128.Idx → EReal) (ix2 0 q)) rows
              * Ideal.div ((bd2 m ρ c (Proc.devRef .tc main_v46_1) : S1x128.Idx → EReal) (ix2 0 q)) rows
          + Ideal.ofBits .f32 0x3727C5AC#32) := by
  show (StableHlo.after hostOps1 (bd2 m ρ c) (Proc.devRef .tc main_v59) : S1x128.Idx → EReal) (ix2 0 q) = _
  have h : (StableHlo.after hostOps1 (bd2 m ρ c) (Proc.devRef .tc main_v59) : S1x128.Idx → EReal) =
      shapeCast S1x128 (Host.rsqrt (addf (subf (meansqV m ρ c) (mulf (meanV m ρ c) (meanV m ρ c))) epsV)) shapeCasts_S128_S1x128 := by
    after_results; rfl
  rw [h, shapeCast_a_1a_apply]
  show Ideal.rsqrt (meansqV m ρ c (ix1 q) - meanV m ρ c (ix1 q) * meanV m ρ c (ix1 q) + epsV (ix1 q)) = _
  rw [meansqV_apply, meanV_apply, epsV_apply]

set_option maxHeartbeats 4000000 in
/-- The γ row and the β row are the two vector arguments. -/
theorem ent1_gamma_apply (c : Dev nD) (q : Fin 128) :
    (ent1 m ρ c main_v60 : S1x128.Idx → EReal) (ix2 0 q) = (m ((c.tc : Thread nD τ).loc main_arg8) : S128.Idx → EReal) (ix1 q) := by
  show (StableHlo.after hostOps1 (bd2 m ρ c) (Proc.devRef .tc main_v60) : S1x128.Idx → EReal) (ix2 0 q) = _
  have h : (StableHlo.after hostOps1 (bd2 m ρ c) (Proc.devRef .tc main_v60) : S1x128.Idx → EReal) =
      shapeCast S1x128 (bd2 m ρ c (Proc.devRef .tc main_arg8) : S128.Idx → EReal) shapeCasts_S128_S1x128 := by
    after_results; rfl
  have h8 : bd2 m ρ c (Proc.devRef .tc main_arg8) = m ((c.tc : Thread nD τ).loc main_arg8) :=
    (bd2_of_ne m ρ c main_arg8 (by decide)).trans (StableHlo.after_of_writes_sub hostOps0 _ hostOps0_writes (by decide))
  rw [h, shapeCast_a_1a_apply, h8]
set_option maxHeartbeats 4000000 in
theorem ent1_beta_apply (c : Dev nD) (q : Fin 128) :
    (ent1 m ρ c main_v61 : S1x128.Idx → EReal) (ix2 0 q) = (m ((c.tc : Thread nD τ).loc main_arg9) : S128.Idx → EReal) (ix1 q) := by
  show (StableHlo.after hostOps1 (bd2 m ρ c) (Proc.devRef .tc main_v61) : S1x128.Idx → EReal) (ix2 0 q) = _
  have h : (StableHlo.after hostOps1 (bd2 m ρ c) (Proc.devRef .tc main_v61) : S1x128.Idx → EReal) =
      shapeCast S1x128 (bd2 m ρ c (Proc.devRef .tc main_arg9) : S128.Idx → EReal) shapeCasts_S128_S1x128 := by
    after_results; rfl
  have h9 : bd2 m ρ c (Proc.devRef .tc main_arg9) = m ((c.tc : Thread nD τ).loc main_arg9) :=
    (bd2_of_ne m ρ c main_arg9 (by decide)).trans (StableHlo.after_of_writes_sub hostOps0 _ hostOps0_writes (by decide))
  rw [h, shapeCast_a_1a_apply, h9]

end Cert.KernelIdeal.Hand

end
-- ==== Proof.SegReal.lean ====
/-
  The two segment means have real entries when the node and edge arrays do: a gathered entry is a node entry, the
  message is a difference of reals, each segment sum is a finite sum of reals, each segment count is a finite sum of
  ones, and the quotient is by the larger of the count and one.
-/
import proofs.«114364_j944892805204_1_alg».proof.Proof.Gen.ReferenceIdeal.Read
import proofs.«114364_j944892805204_1_alg».proof.Proof.Math
import proofs.«114364_j944892805204_1_alg».proof.Proof.Consts

noncomputable section

namespace Cert.ReferenceIdeal.Hand

open Cert.ReferenceIdeal Cert.ReferenceIdeal.Gen Cert.ReferenceIdeal.Read Idealize.ShloMosaic Cert.GraphNorm

/-! ## Each adding scatter, at the ideal values, is the operand plus the sum of the updates that land on the entry -/

private theorem sumO_eq (x0 : (⟨S100000x128, .f32⟩ : BufTy).Contents (Elt Ideal)) (x1 : (⟨S600000x128, .f32⟩ : BufTy).Contents (Elt Ideal)) (x10 x11 : (⟨S600000, .i32⟩ : BufTy).Contents (Elt Ideal)) :
    val_main_v10 (F := Ideal) x0 x1 x10 x11
      = Ideal.hostScatterAdd scatter_S100000x128_S600000x1_S600000x128_1_0_0_1 (val_main_v8 (F := Ideal))
          (val_main_v9 (F := Ideal) x11) (val_main_v7 (F := Ideal) x0 x1 x10) := rfl

private theorem cntO_eq (x11 : (⟨S600000, .i32⟩ : BufTy).Contents (Elt Ideal)) :
    val_main_v14 (F := Ideal) x11
      = Ideal.hostScatterAdd scatter_S100000_S600000x1_S600000_n_0_0_1 (val_main_v12 (F := Ideal))
          (val_main_v13 (F := Ideal) x11) (val_main_v11 (F := Ideal)) := rfl

private theorem sumI_eq (x0 : (⟨S100000x128, .f32⟩ : BufTy).Contents (Elt Ideal)) (x1 : (⟨S600000x128, .f32⟩ : BufTy).Contents (Elt Ideal)) (x10 x11 : (⟨S600000, .i32⟩ : BufTy).Contents (Elt Ideal)) :
    val_main_v30 (F := Ideal) x0 x1 x10 x11
      = Ideal.hostScatterAdd scatter_S100000x128_S600000x1_S600000x128_1_0_0_1 (val_main_v28 (F := Ideal))
          (val_main_v29 (F := Ideal) x10) (val_main_v27 (F := Ideal) x0 x1 x11) := rfl

private theorem cntI_eq (x10 : (⟨S600000, .i32⟩ : BufTy).Contents (Elt Ideal)) :
    val_main_v34 (F := Ideal) x10
      = Ideal.hostScatterAdd scatter_S100000_S600000x1_S600000_n_0_0_1 (val_main_v32 (F := Ideal))
          (val_main_v33 (F := Ideal) x10) (val_main_v31 (F := Ideal)) := rfl

/-! ## The two means -/

/-- The mean over incoming edges of the source node's row minus the edge's row has real entries. -/
theorem segMeanO_isReal (x0 : S100000x128.Idx → EReal) (x1 : S600000x128.Idx → EReal) (x10 x11 : IVec S600000 32)
    (h0 : ∀ i, IsReal (x0 i)) (h1 : ∀ i, IsReal (x1 i)) (i : S100000x128.Idx) :
    IsReal (val_main_v19 (F := Ideal) x0 x1 x10 x11 i) := by
  -- the message on an edge: a gathered node entry minus the edge's entry
  have hmsg : ∀ j, IsReal (val_main_v7 (F := Ideal) x0 x1 x10 j) := fun j => by
    rw [val_main_v7_apply, Ideal.subf_def]
    unfold val_main_v6
    exact IsReal.sub (gather_isReal _ x0 _ h0 j) (h1 j)
  -- the array of zeros the segment sums start from
  have hz2 : ∀ j, IsReal (val_main_v8 (F := Ideal) j) := fun j => by
    rw [val_main_v8_apply, val_main_cst_apply, Ideal.ofBits_def, Cert.Consts.ofBits_zero]
    exact isReal_zero
  -- the segment sums: zero plus a finite sum of messages
  have hsum : ∀ j, IsReal (val_main_v10 (F := Ideal) x0 x1 x10 x11 j) := fun j => by
    rw [sumO_eq]
    exact scatterAdd_isReal _ _ _ _ hz2 hmsg j
  -- the ones that are counted, and the zeros the counts start from
  have hone : ∀ j, IsReal (val_main_v11 (F := Ideal) j) := fun j => by
    rw [val_main_v11_apply, val_main_cst_1_apply, Ideal.ofBits_def, Cert.Consts.ofBits_one]
    exact isReal_coe 1
  have hz1 : ∀ j, IsReal (val_main_v12 (F := Ideal) j) := fun j => by
    rw [val_main_v12_apply, val_main_cst_2_apply, Ideal.ofBits_def, Cert.Consts.ofBits_zero]
    exact isReal_zero
  -- the segment counts: zero plus a finite sum of ones
  have hcnt : ∀ j, IsReal (val_main_v14 (F := Ideal) x11 j) := fun j => by
    rw [cntO_eq]
    exact scatterAdd_isReal _ _ _ _ hz1 hone j
  -- the mean: the sum divided by the larger of the count and one
  rw [val_main_v19_apply, val_main_v18_apply, val_main_v17_apply, val_main_v16_apply, val_main_v15_apply,
    val_main_cst_3_apply, Ideal.hostDivf_def, Ideal.maximumf_def, Ideal.ofBits_def, Cert.Consts.ofBits_one]
  exact IsReal.div_max_one (hsum i) (hcnt _)

/-- The mean over outgoing edges of the destination node's row minus the edge's row has real entries. -/
theorem segMeanI_isReal (x0 : S100000x128.Idx → EReal) (x1 : S600000x128.Idx → EReal) (x10 x11 : IVec S600000 32)
    (h0 : ∀ i, IsReal (x0 i)) (h1 : ∀ i, IsReal (x1 i)) (i : S100000x128.Idx) :
    IsReal (val_main_v39 (F := Ideal) x0 x1 x10 x11 i) := by
  -- the message on an edge: a gathered node entry minus the edge's entry
  have hmsg : ∀ j, IsReal (val_main_v27 (F := Ideal) x0 x1 x11 j) := fun j => by
    rw [val_main_v27_apply, Ideal.subf_def]
    unfold val_main_v26
    exact IsReal.sub (gather_isReal _ x0 _ h0 j) (h1 j)
  -- the array of zeros the segment sums start from
  have hz2 : ∀ j, IsReal (val_main_v28 (F := Ideal) j) := fun j => by
    rw [val_main_v28_apply, val_main_cst_6_apply, Ideal.ofBits_def, Cert.Consts.ofBits_zero]
    exact isReal_zero
  -- the segment sums: zero plus a finite sum of messages
  have hsum : ∀ j, IsReal (val_main_v30 (F := Ideal) x0 x1 x10 x11 j) := fun j => by
    rw [sumI_eq]
    exact scatterAdd_isReal _ _ _ _ hz2 hmsg j
  -- the ones that are counted, and the zeros the counts start from
  have hone : ∀ j, IsReal (val_main_v31 (F := Ideal) j) := fun j => by
    rw [val_main_v31_apply, val_main_cst_7_apply, Ideal.ofBits_def, Cert.Consts.ofBits_one]
    exact isReal_coe 1
  have hz1 : ∀ j, IsReal (val_main_v32 (F := Ideal) j) := fun j => by
    rw [val_main_v32_apply, val_main_cst_8_apply, Ideal.ofBits_def, Cert.Consts.ofBits_zero]
    exact isReal_zero
  -- the segment counts: zero plus a finite sum of ones
  have hcnt : ∀ j, IsReal (val_main_v34 (F := Ideal) x10 j) := fun j => by
    rw [cntI_eq]
    exact scatterAdd_isReal _ _ _ _ hz1 hone j
  -- the mean: the sum divided by the larger of the count and one
  rw [val_main_v39_apply, val_main_v38_apply, val_main_v37_apply, val_main_v36_apply, val_main_v35_apply,
    val_main_cst_9_apply, Ideal.hostDivf_def, Ideal.maximumf_def, Ideal.ofBits_def, Cert.Consts.ofBits_one]
  exact IsReal.div_max_one (hsum i) (hcnt _)

end Cert.ReferenceIdeal.Hand

end
-- ==== Proof.PreReal.lean ====
/-
  The precondition read: when every float input passes the test `|x| < +∞` at every entry, every entry of the ten
  float inputs is a real number.
-/
import proofs.«114364_j944892805204_1_alg».proof.Pre_finite_inputs
import proofs.«114364_j944892805204_1_alg».proof.Proof.Math
import Idealize.ShloMosaic.Lib.ReduceAll
import Idealize.ShloMosaic.Lib.ValueIdx

noncomputable section

namespace Cert.Pre_finite_inputs.Hand

open Cert.Pre_finite_inputs Idealize.ShloMosaic Cert.GraphNorm

/-- The rank-zero shape has one index. -/
private instance subsingleton_S_Idx : Subsingleton S_.Idx := ⟨fun a b => funext fun d => d.elim0⟩

/-- An extended real whose absolute value is below +∞ is a real number. -/
private theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x using EReal.rec with
  | bot => simp at h
  | coe a => exact ⟨a, rfl⟩
  | top => simp at h

/-- One test read back: when the conjunction over all entries of |x| < +∞ (the bound a broadcast of the word of +∞)
    is true, every entry of x is a real number. -/
private theorem real_of_all_lt_inf {s sc t u : Shape} {axes : List (Fin s.rank)} [Subsingleton t.Idx]
    (x : s.Idx → EReal) (dims : Fin sc.rank → Fin s.rank) (hb : sc.BroadcastsInDim s dims) (hr : s.ReducesTo axes t)
    (hu : 0 < u.numel) (init : u.Idx → BitVec 1) (j : t.Idx)
    (e : Host.reduce IntOp.andi
        (cmpf (F := Ideal) .olt (Host.absf (F := Ideal) (φ := .f32) x)
          (broadcastInDim s dims hb (constant (F := Ideal) sc .f32 0x7F800000#32)))
        init hr hu j = 1#1) (i : s.Idx) : IsReal (x i) :=
  isReal_of_abs_lt_inf (x i) (Host.reduce_andi_all _ init hr hu j e i)

/-- All ten float inputs have real entries. -/
theorem inputs_real [Cert.Pre_finite_inputs.Facts]
    (x0 : S100000x128.Idx → EReal) (x1 : S600000x128.Idx → EReal) (x2 : S128x128.Idx → EReal) (x3 : S128.Idx → EReal)
    (x4 : S128x128.Idx → EReal) (x5 : S128.Idx → EReal) (x6 : S128x128.Idx → EReal) (x7 x8 x9 : S128.Idx → EReal)
    (x10 x11 : IVec S600000 32)
    (h : Cert.Pre_finite_inputs.fn (F := Ideal) x0 x1 x2 x3 x4 x5 x6 x7 x8 x9 x10 x11 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) ∧ (∀ i, IsReal (x9 i)) := by
  have h0 := congrFun h ValueIdx.ix0
  unfold fn fn_part1 fn_part2 at h0
  dsimp only at h0
  -- the result is the conjunction of the ten tests
  simp only [Idealize.ShloMosaic.andi, IntOp.andi_eq_one] at h0
  obtain ⟨⟨⟨⟨⟨⟨⟨⟨⟨e0, e1⟩, e2⟩, e3⟩, e4⟩, e5⟩, e6⟩, e7⟩, e8⟩, e9⟩ := h0
  exact ⟨real_of_all_lt_inf x0 _ _ _ _ _ _ e0, real_of_all_lt_inf x1 _ _ _ _ _ _ e1,
    real_of_all_lt_inf x2 _ _ _ _ _ _ e2, real_of_all_lt_inf x3 _ _ _ _ _ _ e3,
    real_of_all_lt_inf x4 _ _ _ _ _ _ e4, real_of_all_lt_inf x5 _ _ _ _ _ _ e5,
    real_of_all_lt_inf x6 _ _ _ _ _ _ e6, real_of_all_lt_inf x7 _ _ _ _ _ _ e7,
    real_of_all_lt_inf x8 _ _ _ _ _ _ e8, real_of_all_lt_inf x9 _ _ _ _ _ _ e9⟩

end Cert.Pre_finite_inputs.Hand

end
-- ==== Proof.IdealRun.Final.lean ====
/-
  The kernel's result array against the reference's, entry by entry, at the ideal values.

  From the launch memory the kernel's program computes the array `h` (the reference's `h`: the same projections, a
  third for a division by three), its column sums and the column sums of its squares, then
  `(h - mean) · rsqrt (meansq - mean² + ε) · γ + β`; the reference computes `(h - mean) · rsqrt (var + ε) · γ + β`
  with `var` the mean of the squared deviations. Under the precondition every input entry is a real number, so every
  entry of `h` is, and the two variances agree.
-/
import proofs.«114364_j944892805204_1_alg».proof.Proof.Gen.KernelIdeal.Launch
import proofs.«114364_j944892805204_1_alg».proof.Proof.Gen.KernelIdeal.Skeleton
import proofs.«114364_j944892805204_1_alg».proof.Proof.Gen.KernelIdeal.Points
import proofs.«114364_j944892805204_1_alg».proof.Proof.IdealRun.Chain
import proofs.«114364_j944892805204_1_alg».proof.Defs
import proofs.«114364_j944892805204_1_alg».proof.Proof.Gen.Pre_finite_inputs
import proofs.«114364_j944892805204_1_alg».proof.Proof.IdealRun.NormValue
import proofs.«114364_j944892805204_1_alg».proof.Proof.IdealRun.ProjValue
import proofs.«114364_j944892805204_1_alg».proof.Proof.IdealRun.HostIn
import proofs.«114364_j944892805204_1_alg».proof.Proof.IdealRun.HostMid
import proofs.«114364_j944892805204_1_alg».proof.Proof.RefSide
import proofs.«114364_j944892805204_1_alg».proof.Proof.SegReal
import proofs.«114364_j944892805204_1_alg».proof.Proof.PreReal
import proofs.«114364_j944892805204_1_alg».proof.Proof.Spec
import proofs.«114364_j944892805204_1_alg».proof.Proof.Math
import proofs.«114364_j944892805204_1_alg».proof.Proof.Consts
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GraphNorm

variable (m : (ℓ : Loc nD τ sig) → Buf (Elt Ideal) ℓ) (ρ : Dev nD → PrngReg)

/-- The array `h` the kernel's program computes, from the launch memory. -/
abbrev hOf (c : Dev nD) : Mat 100000 128 := hK (ent0 m ρ) c

/-- What the projecting region leaves in its tile array, its first row array and its second, read at an entry. -/
theorem left_tile (c : Dev nD) (r : Fin 100000) (q : Fin 128) :
    (bd2 m ρ c (Proc.devRef .tc main_v46_0) : S100000x128.Idx → EReal) (ix2 r q) = hOf m ρ c r q :=
  (congrFun (bd2_arr m ρ c 9) (ix2 r q)).trans (proj_final_apply (ent0 m ρ) c r q)
theorem left_sum (c : Dev nD) (q : Fin 128) :
    (bd2 m ρ c (Proc.devRef .tc main_v46_1) : S1x128.Idx → EReal) (ix2 0 q) = colSum (hOf m ρ c) q :=
  (congrFun (bd2_arr m ρ c 10) (ix2 0 q)).trans (sum_final_apply (ent0 m ρ) c q)
theorem left_sumsq (c : Dev nD) (q : Fin 128) :
    (bd2 m ρ c (Proc.devRef .tc main_v46_2) : S1x128.Idx → EReal) (ix2 0 q)
      = colSum (fun r q => hOf m ρ c r q * hOf m ρ c r q) q :=
  (congrFun (bd2_arr m ρ c 11) (ix2 0 q)).trans (sumsq_final_apply (ent0 m ρ) c q)

/-- The kernel's result array at an entry: the normalisation of `h` with the variance taken as the mean of the squares
    minus the squared mean. -/
theorem kernel_apply (c : Dev nD) (r : Fin 100000) (q : Fin 128) :
    entry ((dat1 (F := Ideal) (ent1 m ρ) c).arrAt 5 cfg1.N) r q
      = normalise rows (Ideal.ofBits .f32 0x3727C5AC#32) (varSq rows (hOf m ρ c)) (hOf m ρ c)
          (fun q => (m ((c.tc : Thread nD τ).loc main_arg8) : S128.Idx → EReal) (ix1 q))
          (fun q => (m ((c.tc : Thread nD τ).loc main_arg9) : S128.Idx → EReal) (ix1 q)) r q := by
  rw [norm_final_apply]
  unfold entry
  rw [ent1_mean_apply, ent1_rstd_apply, ent1_gamma_apply, ent1_beta_apply, ent1_tile, left_tile, left_sum, left_sumsq]
  rfl

/-- Under the precondition every entry of `h` is a real number. -/
theorem hR_allReal (hpre : Cert.Pre_KernelIdeal m) (c : Dev nD) :
    AllReal (Cert.ReferenceIdeal.Hand.hR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11))) := by
  obtain ⟨h0, h1, h2, h3, h4, h5, h6, h7, -, -⟩ := Cert.Pre_finite_inputs.Hand.inputs_real _ _ _ _ _ _ _ _ _ _ _ _ (hpre c)
  intro r q
  refine IsReal.div ?_ (by norm_num : (3 : ℝ) ≠ 0)
  exact affine3_allReal _ _ _ _ _ _ _ _ _
    (fun r k => Cert.ReferenceIdeal.Hand.segMeanO_isReal _ _ _ _ h0 h1 _)
    (fun r k => Cert.ReferenceIdeal.Hand.segMeanI_isReal _ _ _ _ h0 h1 _)
    (fun r k => h0 _) (fun q k => h2 _) (fun q k => h4 _) (fun q k => h6 _) (fun q => h3 _) (fun q => h5 _) (fun q => h7 _) r q

/-- THE VALUE: under the precondition the kernel's result array is the reference's result of the same arguments. -/
theorem result_eq_ref (hpre : Cert.Pre_KernelIdeal m) (c : Dev nD) :
    ((dat1 (F := Ideal) (ent1 m ρ) c).arrAt 5 cfg1.N : S100000x128.Idx → EReal)
      = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  obtain ⟨r, q, rfl⟩ : ∃ (r : Fin 100000) (q : Fin 128), i = ix2 r q := ⟨i 0, i 1, eq_ix2 i⟩
  have hh : hOf m ρ c = Cert.ReferenceIdeal.Hand.hR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) :=
    funext fun r => funext fun q => hEntry_eq_hR m ρ c r q
  refine (kernel_apply m ρ c r q).trans ?_
  rw [Cert.ReferenceIdeal.Hand.ref_apply, hh]
  exact congrFun (congrFun (normalise_varSq_eq (by norm_num) _ _ (hR_allReal m hpre c) _ _) r) q

end Cert.KernelIdeal.Hand

end
-- ==== Proof.lean ====
/-
  The certificate: the kernel's program (a segment-mean aggregation on the host, three projections with fused
  batch statistics in one pallas_call, a normalising pallas_call) against its jnp reference.

  * The three frames. Each kernel program runs as four items — host operations, the projecting region, host
    operations, the normalising region —, the contents of every buffer followed through them; no item writes an
    argument. The reference is a straight line of host operations.
  * The one rewrite of the idealization: the constant 0.333333343 read as the rational 1/3.
  * The values agree at the ideal instance: both programs form the same array `h` (a third of a sum against that sum
    divided by three) and normalise it with its own column statistics; one takes the variance as the mean of the
    squares minus the squared mean, the other as the mean of the squared deviations. These agree because under the
    precondition every entry of `h` is a real number.
-/
import proofs.«114364_j944892805204_1_alg».proof.Defs
import proofs.«114364_j944892805204_1_alg».proof.Proof.Gen.Kernel
import proofs.«114364_j944892805204_1_alg».proof.Proof.Gen.KernelIdeal
import proofs.«114364_j944892805204_1_alg».proof.Proof.Gen.ReferenceIdeal
import proofs.«114364_j944892805204_1_alg».proof.Proof.Gen.Pre_finite_inputs
import proofs.«114364_j944892805204_1_alg».proof.Proof.BitsRun.Chain
import proofs.«114364_j944892805204_1_alg».proof.Proof.IdealRun.Chain
import proofs.«114364_j944892805204_1_alg».proof.Proof.IdealRun.Final
import proofs.«114364_j944892805204_1_alg».proof.Proof.RefSide
import Idealize.ShloMosaic.PureOps.IdealRules
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Hand.run_ref m ρ)

/-- The ledger's one entry: the table gives "inv_3" the value 1/3, and the printed constant is that value at the
    ideal instance. -/
theorem preserves : Cert.preserves_Kernel_KernelIdeal :=
  IdealRules.named_const.statement Cert.KernelIdeal.κ "inv_3" .f32 0x3EAAAAAB#32 ((1 / 3 : ℝ) : EReal) rfl

/-- From memories agreeing on the arguments both programs run, and end with the same result array. -/
theorem algebraic : Cert.algebraic_KernelIdeal_ReferenceIdeal := by
  intro m ρ m' ρ' hpre hagree
  refine ⟨fun c => (Cert.KernelIdeal.Hand.dat1 (F := Ideal) (Cert.KernelIdeal.Hand.ent1 m ρ) c).arrAt 5 Cert.KernelIdeal.cfg1.N,
    Cert.KernelIdeal.Hand.run_result m ρ, ?_⟩
  refine (θ_run Cert.ReferenceIdeal.defs _ _).mono (fun _ h c => ⟨(h c).1.trans ?_, (h c).2⟩)
    (Cert.ReferenceIdeal.Hand.run_ref m' ρ')
  obtain ⟨e0, e1, e2, e3, e4, e5, e6, e7, e8, e9, e10, e11⟩ := hagree c
  rw [e0, e1, e2, e3, e4, e5, e6, e7, e8, e9, e10, e11]
  exact (Cert.KernelIdeal.Hand.result_eq_ref m ρ hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
